-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v289) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x12x256 : Shape := ⟨4, ![16, 512, 12, 256]⟩
abbrev S256x256 : Shape := ⟨2, ![256, 256]⟩
abbrev S256 : Shape := ⟨1, ![256]⟩
abbrev S_ : Shape := ⟨0, ![]⟩

class Facts : Prop where
  bcast_S_S16x512x12x256 : S_.BroadcastsInDim S16x512x12x256 (![] : Fin 0 → Fin S16x512x12x256.rank)
  reducesTo_S16x512x12x256_S_d0_1_2_3 : S16x512x12x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S16x512x12x256 .f32) (main_arg1 : FVec F S256x256 .f32) (main_arg2 : FVec F S256 .f32) : IVec S_ 1 :=
  let main_v0 : FVec F S16x512x12x256 .f32 := Host.absf main_arg0
  let main_cst : FVec F S_ .f32 := constant S_ .f32 0x7F800000#32
  let main_v1 : FVec F S16x512x12x256 .f32 := broadcastInDim S16x512x12x256 ![] bcast_S_S16x512x12x256 main_cst
  let main_v2 : IVec S16x512x12x256 1 := cmpf .olt main_v0 main_v1
  let main_c : IVec S_ 1 := constantI S_ 1 1#1
  let main_v3 : IVec S_ 1 := (fun x v => Host.reduce IntOp.andi x v reducesTo_S16x512x12x256_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S16x512x12x256 : Shape := ⟨4, ![16, 512, 12, 256]⟩
abbrev S256x256 : Shape := ⟨2, ![256, 256]⟩
abbrev S256 : Shape := ⟨1, ![256]⟩
abbrev S16x512x3072 : Shape := ⟨3, ![16, 512, 3072]⟩
abbrev S1x256 : Shape := ⟨2, ![1, 256]⟩
abbrev S1x512x3072 : Shape := ⟨3, ![1, 512, 3072]⟩
abbrev S512x3072 : Shape := ⟨2, ![512, 3072]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1x512x256 : Shape := ⟨3, ![1, 512, 256]⟩

abbrev nBuf : Space → Nat
  | .hbm => 8
  | .vmem => 6
  | .smem => 0
  | _ => 0

abbrev bufTy : (tb : Table) → Fin (tcTables nBuf tb) → BufTy
  | .hbm, ⟨0, _⟩ => ⟨S16x512x12x256, .f32⟩
  | .hbm, ⟨1, _⟩ => ⟨S256x256, .f32⟩
  | .hbm, ⟨2, _⟩ => ⟨S256, .f32⟩
  | .hbm, ⟨3, _⟩ => ⟨S16x512x3072, .f32⟩
  | .hbm, ⟨4, _⟩ => ⟨S256x256, .bf16⟩
  | .hbm, ⟨5, _⟩ => ⟨S1x256, .f32⟩
  | .hbm, ⟨6, _⟩ => ⟨S16x512x3072, .f32⟩
  | .hbm, ⟨7, _⟩ => ⟨S16x512x12x256, .f32⟩
  | .local _ .vmem, ⟨0, _⟩ => ⟨S1x512x3072, .f32⟩
  | .local _ .vmem, ⟨1, _⟩ => ⟨S1x512x3072, .f32⟩
  | .local _ .vmem, ⟨2, _⟩ => ⟨S256x256, .bf16⟩
  | .local _ .vmem, ⟨3, _⟩ => ⟨S1x256, .f32⟩
  | .local _ .vmem, ⟨4, _⟩ => ⟨S1x512x3072, .f32⟩
  | .local _ .vmem, ⟨5, _⟩ => ⟨S1x512x3072, .f32⟩
  | _, _ => ⟨S16x512x12x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x512x12x256_S16x512x3072 : S16x512x12x256.ShapeCasts S16x512x3072
  bitsLt_bf16_f32 : FTy.bits .bf16 < FTy.bits .f32
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S256 : S1x256.ShapeCasts S256
  inb_S1x512x3072_S1x512x3072_0_0_0 : ∀ a, (![0, 0, 0] : Fin 3 → Nat) a + S1x512x3072.size a ≤ S1x512x3072.size a
  h_S1x512x3072 : 0 < S1x512x3072.numel
  shapeCasts_S1x512x3072_S512x3072 : S1x512x3072.ShapeCasts S512x3072
  slices_S512x3072_o0_0_S512x256 : S512x3072.Slices ![0, 0] S512x256
  reduces_S512x512_S512 : S512x512.Reduces [1] S512
  shapeCasts_S512_S512x1 : S512.ShapeCasts S512x1
  broadcasts_S512x1_S512x512 : S512x1.Broadcasts S512x512
  broadcasts_S512x1_S512x256 : S512x1.Broadcasts S512x256
  broadcasts_S1x256_S512x256 : S1x256.Broadcasts S512x256
  inb_S1x512x3072_S1x512x256_0_0_0 : ∀ a, (![0, 0, 0] : Fin 3 → Nat) a + S1x512x256.size a ≤ S1x512x3072.size a
  h_S1x512x256 : 0 < S1x512x256.numel
  shapeCasts_S1x512x256_S512x256 : S1x512x256.ShapeCasts S512x256
  shapeCasts_S512x256_S1x512x256 : S512x256.ShapeCasts S1x512x256
  slices_S512x3072_o0_256_S512x256 : S512x3072.Slices ![0, 256] S512x256
  inb_S1x512x3072_S1x512x256_0_0_256 : ∀ a, (![0, 0, 256] : Fin 3 → Nat) a + S1x512x256.size a ≤ S1x512x3072.size a
  slices_S512x3072_o0_512_S512x256 : S512x3072.Slices ![0, 512] S512x256
  inb_S1x512x3072_S1x512x256_0_0_512 : ∀ a, (![0, 0, 512] : Fin 3 → Nat) a + S1x512x256.size a ≤ S1x512x3072.size a
  slices_S512x3072_o0_768_S512x256 : S512x3072.Slices ![0, 768] S512x256
  inb_S1x512x3072_S1x512x256_0_0_768 : ∀ a, (![0, 0, 768] : Fin 3 → Nat) a + S1x512x256.size a ≤ S1x512x3072.size a
  slices_S512x3072_o0_1024_S512x256 : S512x3072.Slices ![0, 1024] S512x256
  inb_S1x512x3072_S1x512x256_0_0_1024 : ∀ a, (![0, 0, 1024] : Fin 3 → Nat) a + S1x512x256.size a ≤ S1x512x3072.size a
  slices_S512x3072_o0_1280_S512x256 : S512x3072.Slices ![0, 1280] S512x256
  inb_S1x512x3072_S1x512x256_0_0_1280 : ∀ a, (![0, 0, 1280] : Fin 3 → Nat) a + S1x512x256.size a ≤ S1x512x3072.size a
  slices_S512x3072_o0_1536_S512x256 : S512x3072.Slices ![0, 1536] S512x256
  inb_S1x512x3072_S1x512x256_0_0_1536 : ∀ a, (![0, 0, 1536] : Fin 3 → Nat) a + S1x512x256.size a ≤ S1x512x3072.size a
  slices_S512x3072_o0_1792_S512x256 : S512x3072.Slices ![0, 1792] S512x256
  inb_S1x512x3072_S1x512x256_0_0_1792 : ∀ a, (![0, 0, 1792] : Fin 3 → Nat) a + S1x512x256.size a ≤ S1x512x3072.size a
  slices_S512x3072_o0_2048_S512x256 : S512x3072.Slices ![0, 2048] S512x256
  inb_S1x512x3072_S1x512x256_0_0_2048 : ∀ a, (![0, 0, 2048] : Fin 3 → Nat) a + S1x512x256.size a ≤ S1x512x3072.size a
  slices_S512x3072_o0_2304_S512x256 : S512x3072.Slices ![0, 2304] S512x256
  inb_S1x512x3072_S1x512x256_0_0_2304 : ∀ a, (![0, 0, 2304] : Fin 3 → Nat) a + S1x512x256.size a ≤ S1x512x3072.size a
  slices_S512x3072_o0_2560_S512x256 : S512x3072.Slices ![0, 2560] S512x256
  inb_S1x512x3072_S1x512x256_0_0_2560 : ∀ a, (![0, 0, 2560] : Fin 3 → Nat) a + S1x512x256.size a ≤ S1x512x3072.size a
  slices_S512x3072_o0_2816_S512x256 : S512x3072.Slices ![0, 2816] S512x256
  inb_S1x512x3072_S1x512x256_0_0_2816 : ∀ a, (![0, 0, 2816] : Fin 3 → Nat) a + S1x512x256.size a ≤ S1x512x3072.size a
  shapeCasts_S16x512x3072_S16x512x12x256 : S16x512x3072.ShapeCasts S16x512x12x256
  dot_S512x256_S512x256_S512x512_1_1_0_0_n_n_wf : DotDims.WF S512x256 S512x256 S512x512 [1] [1] [0] [0] [] []
  dot_S512x512_S512x256_S512x256_1_0_0_1_n_n_wf : DotDims.WF S512x512 S512x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3072.size a ≤ S16x512x3072.size a
  hwx0_0 : ∀ i : grid0.Coords, EltTy.bits .f32 = 32 ∨ (Rect.block (s := S16x512x3072) S1x512x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x3072.size a ≤ S16x512x3072.size a
  hwx0_3 : ∀ i : grid0.Coords, EltTy.bits .f32 = 32 ∨ (Rect.block (s := S16x512x3072) S1x512x3072.size (cc0_transform_3 i) (hinb0_3 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_v0) S1x512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x12x256 : Shape := ⟨4, ![16, 512, 12, 256]⟩
abbrev S256x256 : Shape := ⟨2, ![256, 256]⟩
abbrev S256 : Shape := ⟨1, ![256]⟩
abbrev S_ : Shape := ⟨0, ![]⟩
abbrev S16x512x1x256 : Shape := ⟨4, ![16, 512, 1, 256]⟩
abbrev S16x512x256 : Shape := ⟨3, ![16, 512, 256]⟩
abbrev S16x512x512 : Shape := ⟨3, ![16, 512, 512]⟩
abbrev S16x512 : Shape := ⟨2, ![16, 512]⟩
abbrev S16x512x1 : Shape := ⟨3, ![16, 512, 1]⟩
abbrev S1x1x256 : Shape := ⟨3, ![1, 1, 256]⟩

abbrev nBuf : Space → Nat
  | .hbm => 378
  | .vmem => 0
  | .smem => 0
  | _ => 0

abbrev hbmTy0_0 (i : Nat) : BufTy := match i % 128 with
  | 0 => ⟨S16x512x12x256, .f32⟩
  | 1 => ⟨S256x256, .f32⟩
  | 2 => ⟨S256, .f32⟩
  | 3 => ⟨S_, .f32⟩
  | 4 => ⟨S_, .f32⟩
  | 5 => ⟨S16x512x1x256, .f32⟩
  | 6 => ⟨S16x512x256, .f32⟩
  | 7 => ⟨S16x512x512, .f32⟩
  | 8 => ⟨S16x512x512, .f32⟩
  | 9 => ⟨S16x512x512, .f32⟩
  | 10 => ⟨S_, .f32⟩
  | 11 => ⟨S16x512x512, .f32⟩
  | 12 => ⟨S16x512x512, .f32⟩
  | 13 => ⟨S_, .f32⟩
  | 14 => ⟨S16x512, .f32⟩
  | 15 => ⟨S_, .f32⟩
  | 16 => ⟨S16x512, .f32⟩
  | 17 => ⟨S16x512, .f32⟩
  | 18 => ⟨S16x512x1, .f32⟩
  | 19 => ⟨S16x512x512, .f32⟩
  | 20 => ⟨S16x512x512, .f32⟩
  | 21 => ⟨S16x512x512, .f32⟩
  | 22 => ⟨S_, .f32⟩
  | 23 => ⟨S16x512, .f32⟩
  | 24 => ⟨S16x512x1, .f32⟩
  | 25 => ⟨S16x512x512, .f32⟩
  | 26 => ⟨S16x512x512, .f32⟩
  | 27 => ⟨S16x512x256, .f32⟩
  | 28 => ⟨S16x512x256, .f32⟩
  | 29 => ⟨S1x1x256, .f32⟩
  | 30 => ⟨S16x512x256, .f32⟩
  | 31 => ⟨S16x512x256, .f32⟩
  | 32 => ⟨S_, .f32⟩
  | 33 => ⟨S16x512x256, .f32⟩
  | 34 => ⟨S16x512x256, .f32⟩
  | 35 => ⟨S16x512x1x256, .f32⟩
  | 36 => ⟨S16x512x256, .f32⟩
  | 37 => ⟨S16x512x512, .f32⟩
  | 38 => ⟨S16x512x512, .f32⟩
  | 39 => ⟨S16x512x512, .f32⟩
  | 40 => ⟨S_, .f32⟩
  | 41 => ⟨S16x512x512, .f32⟩
  | 42 => ⟨S16x512x512, .f32⟩
  | 43 => ⟨S_, .f32⟩
  | 44 => ⟨S16x512, .f32⟩
  | 45 => ⟨S_, .f32⟩
  | 46 => ⟨S16x512, .f32⟩
  | 47 => ⟨S16x512, .f32⟩
  | 48 => ⟨S16x512x1, .f32⟩
  | 49 => ⟨S16x512x512, .f32⟩
  | 50 => ⟨S16x512x512, .f32⟩
  | 51 => ⟨S16x512x512, .f32⟩
  | 52 => ⟨S_, .f32⟩
  | 53 => ⟨S16x512, .f32⟩
  | 54 => ⟨S16x512x1, .f32⟩
  | 55 => ⟨S16x512x512, .f32⟩
  | 56 => ⟨S16x512x512, .f32⟩
  | 57 => ⟨S16x512x256, .f32⟩
  | 58 => ⟨S16x512x256, .f32⟩
  | 59 => ⟨S1x1x256, .f32⟩
  | 60 => ⟨S16x512x256, .f32⟩
  | 61 => ⟨S16x512x256, .f32⟩
  | 62 => ⟨S_, .f32⟩
  | 63 => ⟨S16x512x256, .f32⟩
  | 64 => ⟨S16x512x256, .f32⟩
  | 65 => ⟨S16x512x1x256, .f32⟩
  | 66 => ⟨S16x512x256, .f32⟩
  | 67 => ⟨S16x512x512, .f32⟩
  | 68 => ⟨S16x512x512, .f32⟩
  | 69 => ⟨S16x512x512, .f32⟩
  | 70 => ⟨S_, .f32⟩
  | 71 => ⟨S16x512x512, .f32⟩
  | 72 => ⟨S16x512x512, .f32⟩
  | 73 => ⟨S_, .f32⟩
  | 74 => ⟨S16x512, .f32⟩
  | 75 => ⟨S_, .f32⟩
  | 76 => ⟨S16x512, .f32⟩
  | 77 => ⟨S16x512, .f32⟩
  | 78 => ⟨S16x512x1, .f32⟩
  | 79 => ⟨S16x512x512, .f32⟩
  | 80 => ⟨S16x512x512, .f32⟩
  | 81 => ⟨S16x512x512, .f32⟩
  | 82 => ⟨S_, .f32⟩
  | 83 => ⟨S16x512, .f32⟩
  | 84 => ⟨S16x512x1, .f32⟩
  | 85 => ⟨S16x512x512, .f32⟩
  | 86 => ⟨S16x512x512, .f32⟩
  | 87 => ⟨S16x512x256, .f32⟩
  | 88 => ⟨S16x512x256, .f32⟩
  | 89 => ⟨S1x1x256, .f32⟩
  | 90 => ⟨S16x512x256, .f32⟩
  | 91 => ⟨S16x512x256, .f32⟩
  | 92 => ⟨S_, .f32⟩
  | 93 => ⟨S16x512x256, .f32⟩
  | 94 => ⟨S16x512x256, .f32⟩
  | 95 => ⟨S16x512x1x256, .f32⟩
  | 96 => ⟨S16x512x256, .f32⟩
  | 97 => ⟨S16x512x512, .f32⟩
  | 98 => ⟨S16x512x512, .f32⟩
  | 99 => ⟨S16x512x512, .f32⟩
  | 100 => ⟨S_, .f32⟩
  | 101 => ⟨S16x512x512, .f32⟩
  | 102 => ⟨S16x512x512, .f32⟩
  | 103 => ⟨S_, .f32⟩
  | 104 => ⟨S16x512, .f32⟩
  | 105 => ⟨S_, .f32⟩
  | 106 => ⟨S16x512, .f32⟩
  | 107 => ⟨S16x512, .f32⟩
  | 108 => ⟨S16x512x1, .f32⟩
  | 109 => ⟨S16x512x512, .f32⟩
  | 110 => ⟨S16x512x512, .f32⟩
  | 111 => ⟨S16x512x512, .f32⟩
  | 112 => ⟨S_, .f32⟩
  | 113 => ⟨S16x512, .f32⟩
  | 114 => ⟨S16x512x1, .f32⟩
  | 115 => ⟨S16x512x512, .f32⟩
  | 116 => ⟨S16x512x512, .f32⟩
  | 117 => ⟨S16x512x256, .f32⟩
  | 118 => ⟨S16x512x256, .f32⟩
  | 119 => ⟨S1x1x256, .f32⟩
  | 120 => ⟨S16x512x256, .f32⟩
  | 121 => ⟨S16x512x256, .f32⟩
  | 122 => ⟨S_, .f32⟩
  | 123 => ⟨S16x512x256, .f32⟩
  | 124 => ⟨S16x512x256, .f32⟩
  | 125 => ⟨S16x512x1x256, .f32⟩
  | 126 => ⟨S16x512x256, .f32⟩
  | 127 => ⟨S16x512x512, .f32⟩
  | _ => ⟨S16x512x12x256, .f32⟩

abbrev hbmTy0_1 (i : Nat) : BufTy := match i % 128 with
  | 0 => ⟨S16x512x512, .f32⟩
  | 1 => ⟨S16x512x512, .f32⟩
  | 2 => ⟨S_, .f32⟩
  | 3 => ⟨S16x512x512, .f32⟩
  | 4 => ⟨S16x512x512, .f32⟩
  | 5 => ⟨S_, .f32⟩
  | 6 => ⟨S16x512, .f32⟩
  | 7 => ⟨S_, .f32⟩
  | 8 => ⟨S16x512, .f32⟩
  | 9 => ⟨S16x512, .f32⟩
  | 10 => ⟨S16x512x1, .f32⟩
  | 11 => ⟨S16x512x512, .f32⟩
  | 12 => ⟨S16x512x512, .f32⟩
  | 13 => ⟨S16x512x512, .f32⟩
  | 14 => ⟨S_, .f32⟩
  | 15 => ⟨S16x512, .f32⟩
  | 16 => ⟨S16x512x1, .f32⟩
  | 17 => ⟨S16x512x512, .f32⟩
  | 18 => ⟨S16x512x512, .f32⟩
  | 19 => ⟨S16x512x256, .f32⟩
  | 20 => ⟨S16x512x256, .f32⟩
  | 21 => ⟨S1x1x256, .f32⟩
  | 22 => ⟨S16x512x256, .f32⟩
  | 23 => ⟨S16x512x256, .f32⟩
  | 24 => ⟨S_, .f32⟩
  | 25 => ⟨S16x512x256, .f32⟩
  | 26 => ⟨S16x512x256, .f32⟩
  | 27 => ⟨S16x512x1x256, .f32⟩
  | 28 => ⟨S16x512x256, .f32⟩
  | 29 => ⟨S16x512x512, .f32⟩
  | 30 => ⟨S16x512x512, .f32⟩
  | 31 => ⟨S16x512x512, .f32⟩
  | 32 => ⟨S_, .f32⟩
  | 33 => ⟨S16x512x512, .f32⟩
  | 34 => ⟨S16x512x512, .f32⟩
  | 35 => ⟨S_, .f32⟩
  | 36 => ⟨S16x512, .f32⟩
  | 37 => ⟨S_, .f32⟩
  | 38 => ⟨S16x512, .f32⟩
  | 39 => ⟨S16x512, .f32⟩
  | 40 => ⟨S16x512x1, .f32⟩
  | 41 => ⟨S16x512x512, .f32⟩
  | 42 => ⟨S16x512x512, .f32⟩
  | 43 => ⟨S16x512x512, .f32⟩
  | 44 => ⟨S_, .f32⟩
  | 45 => ⟨S16x512, .f32⟩
  | 46 => ⟨S16x512x1, .f32⟩
  | 47 => ⟨S16x512x512, .f32⟩
  | 48 => ⟨S16x512x512, .f32⟩
  | 49 => ⟨S16x512x256, .f32⟩
  | 50 => ⟨S16x512x256, .f32⟩
  | 51 => ⟨S1x1x256, .f32⟩
  | 52 => ⟨S16x512x256, .f32⟩
  | 53 => ⟨S16x512x256, .f32⟩
  | 54 => ⟨S_, .f32⟩
  | 55 => ⟨S16x512x256, .f32⟩
  | 56 => ⟨S16x512x256, .f32⟩
  | 57 => ⟨S16x512x1x256, .f32⟩
  | 58 => ⟨S16x512x256, .f32⟩
  | 59 => ⟨S16x512x512, .f32⟩
  | 60 => ⟨S16x512x512, .f32⟩
  | 61 => ⟨S16x512x512, .f32⟩
  | 62 => ⟨S_, .f32⟩
  | 63 => ⟨S16x512x512, .f32⟩
  | 64 => ⟨S16x512x512, .f32⟩
  | 65 => ⟨S_, .f32⟩
  | 66 => ⟨S16x512, .f32⟩
  | 67 => ⟨S_, .f32⟩
  | 68 => ⟨S16x512, .f32⟩
  | 69 => ⟨S16x512, .f32⟩
  | 70 => ⟨S16x512x1, .f32⟩
  | 71 => ⟨S16x512x512, .f32⟩
  | 72 => ⟨S16x512x512, .f32⟩
  | 73 => ⟨S16x512x512, .f32⟩
  | 74 => ⟨S_, .f32⟩
  | 75 => ⟨S16x512, .f32⟩
  | 76 => ⟨S16x512x1, .f32⟩
  | 77 => ⟨S16x512x512, .f32⟩
  | 78 => ⟨S16x512x512, .f32⟩
  | 79 => ⟨S16x512x256, .f32⟩
  | 80 => ⟨S16x512x256, .f32⟩
  | 81 => ⟨S1x1x256, .f32⟩
  | 82 => ⟨S16x512x256, .f32⟩
  | 83 => ⟨S16x512x256, .f32⟩
  | 84 => ⟨S_, .f32⟩
  | 85 => ⟨S16x512x256, .f32⟩
  | 86 => ⟨S16x512x256, .f32⟩
  | 87 => ⟨S16x512x1x256, .f32⟩
  | 88 => ⟨S16x512x256, .f32⟩
  | 89 => ⟨S16x512x512, .f32⟩
  | 90 => ⟨S16x512x512, .f32⟩
  | 91 => ⟨S16x512x512, .f32⟩
  | 92 => ⟨S_, .f32⟩
  | 93 => ⟨S16x512x512, .f32⟩
  | 94 => ⟨S16x512x512, .f32⟩
  | 95 => ⟨S_, .f32⟩
  | 96 => ⟨S16x512, .f32⟩
  | 97 => ⟨S_, .f32⟩
  | 98 => ⟨S16x512, .f32⟩
  | 99 => ⟨S16x512, .f32⟩
  | 100 => ⟨S16x512x1, .f32⟩
  | 101 => ⟨S16x512x512, .f32⟩
  | 102 => ⟨S16x512x512, .f32⟩
  | 103 => ⟨S16x512x512, .f32⟩
  | 104 => ⟨S_, .f32⟩
  | 105 => ⟨S16x512, .f32⟩
  | 106 => ⟨S16x512x1, .f32⟩
  | 107 => ⟨S16x512x512, .f32⟩
  | 108 => ⟨S16x512x512, .f32⟩
  | 109 => ⟨S16x512x256, .f32⟩
  | 110 => ⟨S16x512x256, .f32⟩
  | 111 => ⟨S1x1x256, .f32⟩
  | 112 => ⟨S16x512x256, .f32⟩
  | 113 => ⟨S16x512x256, .f32⟩
  | 114 => ⟨S_, .f32⟩
  | 115 => ⟨S16x512x256, .f32⟩
  | 116 => ⟨S16x512x256, .f32⟩
  | 117 => ⟨S16x512x1x256, .f32⟩
  | 118 => ⟨S16x512x256, .f32⟩
  | 119 => ⟨S16x512x512, .f32⟩
  | 120 => ⟨S16x512x512, .f32⟩
  | 121 => ⟨S16x512x512, .f32⟩
  | 122 => ⟨S_, .f32⟩
  | 123 => ⟨S16x512x512, .f32⟩
  | 124 => ⟨S16x512x512, .f32⟩
  | 125 => ⟨S_, .f32⟩
  | 126 => ⟨S16x512, .f32⟩
  | 127 => ⟨S_, .f32⟩
  | _ => ⟨S16x512x12x256, .f32⟩

abbrev hbmTy0_2 (i : Nat) : BufTy := match i % 128 with
  | 0 => ⟨S16x512, .f32⟩
  | 1 => ⟨S16x512, .f32⟩
  | 2 => ⟨S16x512x1, .f32⟩
  | 3 => ⟨S16x512x512, .f32⟩
  | 4 => ⟨S16x512x512, .f32⟩
  | 5 => ⟨S16x512x512, .f32⟩
  | 6 => ⟨S_, .f32⟩
  | 7 => ⟨S16x512, .f32⟩
  | 8 => ⟨S16x512x1, .f32⟩
  | 9 => ⟨S16x512x512, .f32⟩
  | 10 => ⟨S16x512x512, .f32⟩
  | 11 => ⟨S16x512x256, .f32⟩
  | 12 => ⟨S16x512x256, .f32⟩
  | 13 => ⟨S1x1x256, .f32⟩
  | 14 => ⟨S16x512x256, .f32⟩
  | 15 => ⟨S16x512x256, .f32⟩
  | 16 => ⟨S_, .f32⟩
  | 17 => ⟨S16x512x256, .f32⟩
  | 18 => ⟨S16x512x256, .f32⟩
  | 19 => ⟨S16x512x1x256, .f32⟩
  | 20 => ⟨S16x512x256, .f32⟩
  | 21 => ⟨S16x512x512, .f32⟩
  | 22 => ⟨S16x512x512, .f32⟩
  | 23 => ⟨S16x512x512, .f32⟩
  | 24 => ⟨S_, .f32⟩
  | 25 => ⟨S16x512x512, .f32⟩
  | 26 => ⟨S16x512x512, .f32⟩
  | 27 => ⟨S_, .f32⟩
  | 28 => ⟨S16x512, .f32⟩
  | 29 => ⟨S_, .f32⟩
  | 30 => ⟨S16x512, .f32⟩
  | 31 => ⟨S16x512, .f32⟩
  | 32 => ⟨S16x512x1, .f32⟩
  | 33 => ⟨S16x512x512, .f32⟩
  | 34 => ⟨S16x512x512, .f32⟩
  | 35 => ⟨S16x512x512, .f32⟩
  | 36 => ⟨S_, .f32⟩
  | 37 => ⟨S16x512, .f32⟩
  | 38 => ⟨S16x512x1, .f32⟩
  | 39 => ⟨S16x512x512, .f32⟩
  | 40 => ⟨S16x512x512, .f32⟩
  | 41 => ⟨S16x512x256, .f32⟩
  | 42 => ⟨S16x512x256, .f32⟩
  | 43 => ⟨S1x1x256, .f32⟩
  | 44 => ⟨S16x512x256, .f32⟩
  | 45 => ⟨S16x512x256, .f32⟩
  | 46 => ⟨S_, .f32⟩
  | 47 => ⟨S16x512x256, .f32⟩
  | 48 => ⟨S16x512x256, .f32⟩
  | 49 => ⟨S16x512x1x256, .f32⟩
  | 50 => ⟨S16x512x256, .f32⟩
  | 51 => ⟨S16x512x512, .f32⟩
  | 52 => ⟨S16x512x512, .f32⟩
  | 53 => ⟨S16x512x512, .f32⟩
  | 54 => ⟨S_, .f32⟩
  | 55 => ⟨S16x512x512, .f32⟩
  | 56 => ⟨S16x512x512, .f32⟩
  | 57 => ⟨S_, .f32⟩
  | 58 => ⟨S16x512, .f32⟩
  | 59 => ⟨S_, .f32⟩
  | 60 => ⟨S16x512, .f32⟩
  | 61 => ⟨S16x512, .f32⟩
  | 62 => ⟨S16x512x1, .f32⟩
  | 63 => ⟨S16x512x512, .f32⟩
  | 64 => ⟨S16x512x512, .f32⟩
  | 65 => ⟨S16x512x512, .f32⟩
  | 66 => ⟨S_, .f32⟩
  | 67 => ⟨S16x512, .f32⟩
  | 68 => ⟨S16x512x1, .f32⟩
  | 69 => ⟨S16x512x512, .f32⟩
  | 70 => ⟨S16x512x512, .f32⟩
  | 71 => ⟨S16x512x256, .f32⟩
  | 72 => ⟨S16x512x256, .f32⟩
  | 73 => ⟨S1x1x256, .f32⟩
  | 74 => ⟨S16x512x256, .f32⟩
  | 75 => ⟨S16x512x256, .f32⟩
  | 76 => ⟨S_, .f32⟩
  | 77 => ⟨S16x512x256, .f32⟩
  | 78 => ⟨S16x512x256, .f32⟩
  | 79 => ⟨S16x512x1x256, .f32⟩
  | 80 => ⟨S16x512x256, .f32⟩
  | 81 => ⟨S16x512x512, .f32⟩
  | 82 => ⟨S16x512x512, .f32⟩
  | 83 => ⟨S16x512x512, .f32⟩
  | 84 => ⟨S_, .f32⟩
  | 85 => ⟨S16x512x512, .f32⟩
  | 86 => ⟨S16x512x512, .f32⟩
  | 87 => ⟨S_, .f32⟩
  | 88 => ⟨S16x512, .f32⟩
  | 89 => ⟨S_, .f32⟩
  | 90 => ⟨S16x512, .f32⟩
  | 91 => ⟨S16x512, .f32⟩
  | 92 => ⟨S16x512x1, .f32⟩
  | 93 => ⟨S16x512x512, .f32⟩
  | 94 => ⟨S16x512x512, .f32⟩
  | 95 => ⟨S16x512x512, .f32⟩
  | 96 => ⟨S_, .f32⟩
  | 97 => ⟨S16x512, .f32⟩
  | 98 => ⟨S16x512x1, .f32⟩
  | 99 => ⟨S16x512x512, .f32⟩
  | 100 => ⟨S16x512x512, .f32⟩
  | 101 => ⟨S16x512x256, .f32⟩
  | 102 => ⟨S16x512x256, .f32⟩
  | 103 => ⟨S1x1x256, .f32⟩
  | 104 => ⟨S16x512x256, .f32⟩
  | 105 => ⟨S16x512x256, .f32⟩
  | 106 => ⟨S_, .f32⟩
  | 107 => ⟨S16x512x256, .f32⟩
  | 108 => ⟨S16x512x256, .f32⟩
  | 109 => ⟨S16x512x1x256, .f32⟩
  | 110 => ⟨S16x512x1x256, .f32⟩
  | 111 => ⟨S16x512x1x256, .f32⟩
  | 112 => ⟨S16x512x1x256, .f32⟩
  | 113 => ⟨S16x512x1x256, .f32⟩
  | 114 => ⟨S16x512x1x256, .f32⟩
  | 115 => ⟨S16x512x1x256, .f32⟩
  | 116 => ⟨S16x512x1x256, .f32⟩
  | 117 => ⟨S16x512x1x256, .f32⟩
  | 118 => ⟨S16x512x1x256, .f32⟩
  | 119 => ⟨S16x512x1x256, .f32⟩
  | 120 => ⟨S16x512x1x256, .f32⟩
  | 121 => ⟨S16x512x12x256, .f32⟩
  | _ => ⟨S16x512x12x256, .f32⟩

abbrev hbmTy (i : Nat) : BufTy := match i / 128 with
  | 0 => hbmTy0_0 i
  | 1 => hbmTy0_1 i
  | 2 => hbmTy0_2 i
  | _ => ⟨S16x512x12x256, .f32⟩

abbrev bufTy : (tb : Table) → Fin (tcTables nBuf tb) → BufTy
  | .hbm, ⟨i, _⟩ => hbmTy i
  | _, _ => ⟨S16x512x12x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call1_cst : Ref sig .tc := ⟨.hbm, 32, rfl⟩
abbrev main_call1_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call2_cst : Ref sig .tc := ⟨.hbm, 40, rfl⟩
abbrev main_call2_v0 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call3_cst : Ref sig .tc := ⟨.hbm, 62, rfl⟩
abbrev main_call3_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call4_cst : Ref sig .tc := ⟨.hbm, 70, rfl⟩
abbrev main_call4_v0 : Ref sig .tc := ⟨.hbm, 71, rfl⟩
abbrev main_v52 : Ref sig .tc := ⟨.hbm, 72, rfl⟩
abbrev main_cst_6 : Ref sig .tc := ⟨.hbm, 73, rfl⟩
abbrev main_v53 : Ref sig .tc := ⟨.hbm, 74, rfl⟩
abbrev main_cst_7 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_call5_cst : Ref sig .tc := ⟨.hbm, 92, rfl⟩
abbrev main_call5_v0 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_call6_cst : Ref sig .tc := ⟨.hbm, 100, rfl⟩
abbrev main_call6_v0 : Ref sig .tc := ⟨.hbm, 101, rfl⟩
abbrev main_v75 : Ref sig .tc := ⟨.hbm, 102, rfl⟩
abbrev main_cst_9 : Ref sig .tc := ⟨.hbm, 103, rfl⟩
abbrev main_v76 : Ref sig .tc := ⟨.hbm, 104, rfl⟩
abbrev main_cst_10 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_11 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_call7_cst : Ref sig .tc := ⟨.hbm, 122, rfl⟩
abbrev main_call7_v0 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_call8_cst : Ref sig .tc := ⟨.hbm, 130, rfl⟩
abbrev main_call8_v0 : Ref sig .tc := ⟨.hbm, 131, rfl⟩
abbrev main_v98 : Ref sig .tc := ⟨.hbm, 132, rfl⟩
abbrev main_cst_12 : Ref sig .tc := ⟨.hbm, 133, rfl⟩
abbrev main_v99 : Ref sig .tc := ⟨.hbm, 134, rfl⟩
abbrev main_cst_13 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_14 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_call9_cst : Ref sig .tc := ⟨.hbm, 152, rfl⟩
abbrev main_call9_v0 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_call10_cst : Ref sig .tc := ⟨.hbm, 160, rfl⟩
abbrev main_call10_v0 : Ref sig .tc := ⟨.hbm, 161, rfl⟩
abbrev main_v121 : Ref sig .tc := ⟨.hbm, 162, rfl⟩
abbrev main_cst_15 : Ref sig .tc := ⟨.hbm, 163, rfl⟩
abbrev main_v122 : Ref sig .tc := ⟨.hbm, 164, rfl⟩
abbrev main_cst_16 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_17 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_call11_cst : Ref sig .tc := ⟨.hbm, 182, rfl⟩
abbrev main_call11_v0 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_call12_cst : Ref sig .tc := ⟨.hbm, 190, rfl⟩
abbrev main_call12_v0 : Ref sig .tc := ⟨.hbm, 191, rfl⟩
abbrev main_v144 : Ref sig .tc := ⟨.hbm, 192, rfl⟩
abbrev main_cst_18 : Ref sig .tc := ⟨.hbm, 193, rfl⟩
abbrev main_v145 : Ref sig .tc := ⟨.hbm, 194, rfl⟩
abbrev main_cst_19 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_cst_20 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_call13_cst : Ref sig .tc := ⟨.hbm, 212, rfl⟩
abbrev main_call13_v0 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_call14_cst : Ref sig .tc := ⟨.hbm, 220, rfl⟩
abbrev main_call14_v0 : Ref sig .tc := ⟨.hbm, 221, rfl⟩
abbrev main_v167 : Ref sig .tc := ⟨.hbm, 222, rfl⟩
abbrev main_cst_21 : Ref sig .tc := ⟨.hbm, 223, rfl⟩
abbrev main_v168 : Ref sig .tc := ⟨.hbm, 224, rfl⟩
abbrev main_cst_22 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_cst_23 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_call15_cst : Ref sig .tc := ⟨.hbm, 242, rfl⟩
abbrev main_call15_v0 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_call16_cst : Ref sig .tc := ⟨.hbm, 250, rfl⟩
abbrev main_call16_v0 : Ref sig .tc := ⟨.hbm, 251, rfl⟩
abbrev main_v190 : Ref sig .tc := ⟨.hbm, 252, rfl⟩
abbrev main_cst_24 : Ref sig .tc := ⟨.hbm, 253, rfl⟩
abbrev main_v191 : Ref sig .tc := ⟨.hbm, 254, rfl⟩
abbrev main_cst_25 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_cst_26 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_call17_cst : Ref sig .tc := ⟨.hbm, 272, rfl⟩
abbrev main_call17_v0 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_call18_cst : Ref sig .tc := ⟨.hbm, 280, rfl⟩
abbrev main_call18_v0 : Ref sig .tc := ⟨.hbm, 281, rfl⟩
abbrev main_v213 : Ref sig .tc := ⟨.hbm, 282, rfl⟩
abbrev main_cst_27 : Ref sig .tc := ⟨.hbm, 283, rfl⟩
abbrev main_v214 : Ref sig .tc := ⟨.hbm, 284, rfl⟩
abbrev main_cst_28 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_cst_29 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_call19_cst : Ref sig .tc := ⟨.hbm, 302, rfl⟩
abbrev main_call19_v0 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_call20_cst : Ref sig .tc := ⟨.hbm, 310, rfl⟩
abbrev main_call20_v0 : Ref sig .tc := ⟨.hbm, 311, rfl⟩
abbrev main_v236 : Ref sig .tc := ⟨.hbm, 312, rfl⟩
abbrev main_cst_30 : Ref sig .tc := ⟨.hbm, 313, rfl⟩
abbrev main_v237 : Ref sig .tc := ⟨.hbm, 314, rfl⟩
abbrev main_cst_31 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_cst_32 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_v250 : Ref sig .tc := ⟨.hbm, 329, rfl⟩
abbrev main_v251 : Ref sig .tc := ⟨.hbm, 330, rfl⟩
abbrev main_v252 : Ref sig .tc := ⟨.hbm, 331, rfl⟩
abbrev main_call21_cst : Ref sig .tc := ⟨.hbm, 332, rfl⟩
abbrev main_call21_v0 : Ref sig .tc := ⟨.hbm, 333, rfl⟩
abbrev main_v253 : Ref sig .tc := ⟨.hbm, 334, rfl⟩
abbrev main_v254 : Ref sig .tc := ⟨.hbm, 335, rfl⟩
abbrev main_v255 : Ref sig .tc := ⟨.hbm, 336, rfl⟩
abbrev main_v256 : Ref sig .tc := ⟨.hbm, 337, rfl⟩
abbrev main_v257 : Ref sig .tc := ⟨.hbm, 338, rfl⟩
abbrev main_v258 : Ref sig .tc := ⟨.hbm, 339, rfl⟩
abbrev main_call22_cst : Ref sig .tc := ⟨.hbm, 340, rfl⟩
abbrev main_call22_v0 : Ref sig .tc := ⟨.hbm, 341, rfl⟩
abbrev main_v259 : Ref sig .tc := ⟨.hbm, 342, rfl⟩
abbrev main_cst_33 : Ref sig .tc := ⟨.hbm, 343, rfl⟩
abbrev main_v260 : Ref sig .tc := ⟨.hbm, 344, rfl⟩
abbrev main_cst_34 : Ref sig .tc := ⟨.hbm, 345, rfl⟩
abbrev main_v261 : Ref sig .tc := ⟨.hbm, 346, rfl⟩
abbrev main_v262 : Ref sig .tc := ⟨.hbm, 347, rfl⟩
abbrev main_v263 : Ref sig .tc := ⟨.hbm, 348, rfl⟩
abbrev main_v264 : Ref sig .tc := ⟨.hbm, 349, rfl⟩
abbrev main_v265 : Ref sig .tc := ⟨.hbm, 350, rfl⟩
abbrev main_v266 : Ref sig .tc := ⟨.hbm, 351, rfl⟩
abbrev main_cst_35 : Ref sig .tc := ⟨.hbm, 352, rfl⟩
abbrev main_v267 : Ref sig .tc := ⟨.hbm, 353, rfl⟩
abbrev main_v268 : Ref sig .tc := ⟨.hbm, 354, rfl⟩
abbrev main_v269 : Ref sig .tc := ⟨.hbm, 355, rfl⟩
abbrev main_v270 : Ref sig .tc := ⟨.hbm, 356, rfl⟩
abbrev main_v271 : Ref sig .tc := ⟨.hbm, 357, rfl⟩
abbrev main_v272 : Ref sig .tc := ⟨.hbm, 358, rfl⟩
abbrev main_v273 : Ref sig .tc := ⟨.hbm, 359, rfl⟩
abbrev main_v274 : Ref sig .tc := ⟨.hbm, 360, rfl⟩
abbrev main_v275 : Ref sig .tc := ⟨.hbm, 361, rfl⟩
abbrev main_call23_cst : Ref sig .tc := ⟨.hbm, 362, rfl⟩
abbrev main_call23_v0 : Ref sig .tc := ⟨.hbm, 363, rfl⟩
abbrev main_v276 : Ref sig .tc := ⟨.hbm, 364, rfl⟩
abbrev main_v277 : Ref sig .tc := ⟨.hbm, 365, rfl⟩
abbrev main_v278 : Ref sig .tc := ⟨.hbm, 366, rfl⟩
abbrev main_v279 : Ref sig .tc := ⟨.hbm, 367, rfl⟩
abbrev main_v280 : Ref sig .tc := ⟨.hbm, 368, rfl⟩
abbrev main_v281 : Ref sig .tc := ⟨.hbm, 369, rfl⟩
abbrev main_v282 : Ref sig .tc := ⟨.hbm, 370, rfl⟩
abbrev main_v283 : Ref sig .tc := ⟨.hbm, 371, rfl⟩
abbrev main_v284 : Ref sig .tc := ⟨.hbm, 372, rfl⟩
abbrev main_v285 : Ref sig .tc := ⟨.hbm, 373, rfl⟩
abbrev main_v286 : Ref sig .tc := ⟨.hbm, 374, rfl⟩
abbrev main_v287 : Ref sig .tc := ⟨.hbm, 375, rfl⟩
abbrev main_v288 : Ref sig .tc := ⟨.hbm, 376, rfl⟩
abbrev main_v289 : Ref sig .tc := ⟨.hbm, 377, rfl⟩

abbrev nD : Nat := 1
abbrev τ : Topo := Topo.v7x

variable {F : FTy → Type} [FloatOps F]

class Facts₀ : Prop where
  slices_S16x512x12x256_S16x512x1x256_0_0_0_0 : S16x512x12x256.Slices ![0, 0, 0, 0] S16x512x1x256
  shapeCasts_S16x512x1x256_S16x512x256 : S16x512x1x256.ShapeCasts S16x512x256
  bcast_S_S16x512x512 : S_.BroadcastsInDim S16x512x512 (![] : Fin 0 → Fin S16x512x512.rank)
  reducesTo_S16x512x512_S16x512_d2 : S16x512x512.ReducesTo [2] S16x512
  h_S_ : 0 < S_.numel
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S16x512x1_S16x512x512_0_1_2 : S16x512x1.BroadcastsInDim S16x512x512 (![0, 1, 2] : Fin 3 → Fin S16x512x512.rank)
  bcast_S256_S1x1x256_2 : S256.BroadcastsInDim S1x1x256 (![2] : Fin 1 → Fin S1x1x256.rank)
  bcast_S1x1x256_S16x512x256_0_1_2 : S1x1x256.BroadcastsInDim S16x512x256 (![0, 1, 2] : Fin 3 → Fin S16x512x256.rank)
  bcast_S_S16x512x256 : S_.BroadcastsInDim S16x512x256 (![] : Fin 0 → Fin S16x512x256.rank)
  slices_S16x512x12x256_S16x512x1x256_0_0_1_0 : S16x512x12x256.Slices ![0, 0, 1, 0] S16x512x1x256
  slices_S16x512x12x256_S16x512x1x256_0_0_2_0 : S16x512x12x256.Slices ![0, 0, 2, 0] S16x512x1x256
  slices_S16x512x12x256_S16x512x1x256_0_0_3_0 : S16x512x12x256.Slices ![0, 0, 3, 0] S16x512x1x256
  slices_S16x512x12x256_S16x512x1x256_0_0_4_0 : S16x512x12x256.Slices ![0, 0, 4, 0] S16x512x1x256
  slices_S16x512x12x256_S16x512x1x256_0_0_5_0 : S16x512x12x256.Slices ![0, 0, 5, 0] S16x512x1x256
  slices_S16x512x12x256_S16x512x1x256_0_0_6_0 : S16x512x12x256.Slices ![0, 0, 6, 0] S16x512x1x256
  slices_S16x512x12x256_S16x512x1x256_0_0_7_0 : S16x512x12x256.Slices ![0, 0, 7, 0] S16x512x1x256
  slices_S16x512x12x256_S16x512x1x256_0_0_8_0 : S16x512x12x256.Slices ![0, 0, 8, 0] S16x512x1x256
  slices_S16x512x12x256_S16x512x1x256_0_0_9_0 : S16x512x12x256.Slices ![0, 0, 9, 0] S16x512x1x256
  slices_S16x512x12x256_S16x512x1x256_0_0_10_0 : S16x512x12x256.Slices ![0, 0, 10, 0] S16x512x1x256
  slices_S16x512x12x256_S16x512x1x256_0_0_11_0 : S16x512x12x256.Slices ![0, 0, 11, 0] S16x512x1x256
  bcast_S16x512x256_S16x512x1x256_0_1_3 : S16x512x256.BroadcastsInDim S16x512x1x256 (![0, 1, 3] : Fin 3 → Fin S16x512x1x256.rank)
  concatenates_S16x512x1x256_S16x512x1x256_S16x512x1x256_S16x512x1x256_S16x512x1x256_S16x512x1x256_S16x512x1x256_S16x512x1x256_S16x512x1x256_S16x512x1x256_S16x512x1x256_S16x512x1x256_S16x512x12x256_d2 : Shape.Concatenates [S16x512x1x256, S16x512x1x256, S16x512x1x256, S16x512x1x256, S16x512x1x256, S16x512x1x256, S16x512x1x256, S16x512x1x256, S16x512x1x256, S16x512x1x256, S16x512x1x256, S16x512x1x256] S16x512x12x256 2
  dot_S16x512x256_S16x512x256_S16x512x512_2_2_1_1_0_0_wf : DotDims.WF S16x512x256 S16x512x256 S16x512x512 [2] [2] [1] [1] [0] [0]
  dot_S16x512x512_S16x512x256_S16x512x256_2_1_1_2_0_0_wf : DotDims.WF S16x512x512 S16x512x256 S16x512x256 [2] [1] [1] [2] [0] [0]
  dot_S16x512x256_S256x256_S16x512x256_2_0_01_1_n_n_wf : DotDims.WF S16x512x256 S256x256 S16x512x256 [2] [0] [0, 1] [1] [] []

variable [Facts₀]

def dot_S16x512x256_S16x512x256_S16x512x512_2_2_1_1_0_0 : DotDims S16x512x256 S16x512x256 S16x512x512 where
  lhsContracting := [2]
  rhsContracting := [2]
  lhsNonContracting := [1]
  rhsNonContracting := [1]
  lhsBatch := [0]
  rhsBatch := [0]
  wf := dot_S16x512x256_S16x512x256_S16x512x512_2_2_1_1_0_0_wf
def dot_S16x512x512_S16x512x256_S16x512x256_2_1_1_2_0_0 : DotDims S16x512x512 S16x512x256 S16x512x256 where
  lhsContracting := [2]
  rhsContracting := [1]
  lhsNonContracting := [1]
  rhsNonContracting := [2]
  lhsBatch := [0]
  rhsBatch := [0]
  wf := dot_S16x512x512_S16x512x256_S16x512x256_2_1_1_2_0_0_wf
def dot_S16x512x256_S256x256_S16x512x256_2_0_01_1_n_n : DotDims S16x512x256 S256x256 S16x512x256 where
  lhsContracting := [2]
  rhsContracting := [0]
  lhsNonContracting := [0, 1]
  rhsNonContracting := [1]
  lhsBatch := []
  rhsBatch := []
  wf := dot_S16x512x256_S256x256_S16x512x256_2_0_01_1_n_n_wf

class Facts : Prop extends Facts₀ where

variable [Facts]
-- ==== Proof.GcnSpec.lean ====
/-
  One time step of the graph layer, as a function on the extended reals, in the two arrangements the two programs
  compute it in.

  For a slice `xi` of the input (512 nodes, 256 features), a weight matrix `W` and a bias `b`:
  the similarity of nodes `n` and `m` is the feature inner product scaled by 1/16 and clipped below at 0; each row of
  similarities is turned into softmax numerators `exp (p n m - max_m p n m)` with denominator their sum; the features are
  averaged with these weights; the result goes through the linear map, the bias and a final clip at 0.

  The two arrangements differ in two places only: the scale is a factor `c` on one operand inside the inner
  product (`simK`) or a quotient `q` of the finished inner product (`simR`), and the softmax denominator divides the
  aggregated features (`aggK`) or each weight before aggregation (`aggR`).
-/
import Idealize.ShloMosaic.PureOps.Ideal

noncomputable section

open scoped BigOperators

namespace Cert.Gcn

open Idealize.ShloMosaic

/-- A row's maximum, from -∞. -/
def rowMax (p : Fin 512 → Fin 512 → EReal) (n : Fin 512) : EReal :=
  (Finset.univ : Finset (Fin 512)).fold max ⊥ (p n)

/-- The softmax numerator of entry `(n, m)`: the exponential of the entry less its row's maximum. -/
def expo (p : Fin 512 → Fin 512 → EReal) (n m : Fin 512) : EReal :=
  Ideal.exp (p n m - rowMax p n)

/-- The softmax denominator of row `n`. -/
def den (p : Fin 512 → Fin 512 → EReal) (n : Fin 512) : EReal :=
  ∑ m : Fin 512, expo p n m

/-- Aggregation with the division AFTER the sum over the neighbours. -/
def aggK (p : Fin 512 → Fin 512 → EReal) (xi : Fin 512 → Fin 256 → EReal) (n : Fin 512) (d : Fin 256) : EReal :=
  Ideal.div (∑ m : Fin 512, expo p n m * xi m d) (den p n)

/-- Aggregation with each weight divided BEFORE the sum over the neighbours. -/
def aggR (p : Fin 512 → Fin 512 → EReal) (xi : Fin 512 → Fin 256 → EReal) (n : Fin 512) (d : Fin 256) : EReal :=
  ∑ m : Fin 512, Ideal.div (expo p n m) (den p n) * xi m d

/-- The linear map, the bias and the final clip at 0. -/
def lin (a : Fin 512 → Fin 256 → EReal) (W : Fin 256 → Fin 256 → EReal) (b : Fin 256 → EReal) (n : Fin 512)
    (h : Fin 256) : EReal :=
  max (∑ d : Fin 256, a n d * W d h + b h) 0

/-- Clipped similarity with the scale a factor `c` on the left operand, inside the sum over the features. -/
def simK (xi : Fin 512 → Fin 256 → EReal) (c : EReal) (n m : Fin 512) : EReal :=
  max (∑ d : Fin 256, (xi n d * c) * xi m d) 0

/-- Clipped similarity with the scale a quotient `q` of the finished sum over the features. -/
def simR (xi : Fin 512 → Fin 256 → EReal) (q : EReal) (n m : Fin 512) : EReal :=
  max (Ideal.div (∑ d : Fin 256, xi n d * xi m d) q) 0

/-- The layer in the first arrangement. -/
def gcnK (xi : Fin 512 → Fin 256 → EReal) (c : EReal) (W : Fin 256 → Fin 256 → EReal) (b : Fin 256 → EReal) :
    Fin 512 → Fin 256 → EReal :=
  lin (aggK (simK xi c) xi) W b

/-- The layer in the second arrangement. -/
def gcnR (xi : Fin 512 → Fin 256 → EReal) (q : EReal) (W : Fin 256 → Fin 256 → EReal) (b : Fin 256 → EReal) :
    Fin 512 → Fin 256 → EReal :=
  lin (aggR (simR xi q) xi) W b

end Cert.Gcn

end
-- ==== Proof.GcnConsts.lean ====
/-
  The values of the float words this certificate meets, as extended reals.

  A word of a binary format with sign bit s, exponent field E and fraction field T denotes, for E neither zero nor all
  ones, the real (-1)^s (2^m + T) 2^(E - bias - m), with m the width of the fraction field; with E all ones and T zero it
  denotes the infinity of its sign. The bf16 word `0x3D80` has s = 0, E = 123, T = 0, bias 127, m = 7: it is
  2^7 · 2^(-11) = 1/16. The f32 word `0x43800000` has s = 0, E = 135, T = 0, bias 127, m = 23: it is 2^23 · 2^(-15) = 256.
  The f32 word `0xFF800000` has s = 1, E all ones, T = 0: it is -∞; the f32 word `0x7F800000` has s = 0, E all ones, T = 0: it is
  +∞. (The zero word's value is a lemma of the library.)
-/
import Idealize.ShloMosaic.PureOps.Ideal

noncomputable section

namespace Cert.Gcn

open Idealize.ShloMosaic

/-- The bf16 word `0x3D80` denotes 1/16. -/
theorem word_scale : Ideal.ofBits .bf16 0x3D80#16 = ((1 / 16 : ℝ) : EReal) := by
  simp [Ideal.ofBits, Ideal.ieee, -EReal.coe_mul]; norm_num

/-- The f32 word `0x43800000` denotes 256. -/
theorem word_256 : Ideal.ofBits .f32 0x43800000#32 = ((256 : ℝ) : EReal) := by
  simp [Ideal.ofBits, Ideal.ieee, -EReal.coe_mul]; norm_num

/-- The f32 word `0xFF800000` denotes -∞. -/
theorem word_ninf : Ideal.ofBits .f32 0xFF800000#32 = (⊥ : EReal) := by
  simp [Ideal.ofBits, Ideal.ieee]

/-- The f32 word `0x7F800000` denotes +∞. -/
theorem word_pinf : Ideal.ofBits .f32 0x7F800000#32 = (⊤ : EReal) := by
  simp [Ideal.ofBits, Ideal.ieee]

end Cert.Gcn

end
-- ==== Proof.KernelStep.lean ====
/-
  One time step of the kernel's body as ONE function of the slice it works on.

  `stepK xs w bv` is the chain of vector operations the body applies to a [512, 256] slice `xs` of its input block, the
  weight block `w` and the bias row `bv`: the slice scaled by 1/16 and multiplied with its own transpose, clipped at 0,
  each row's softmax numerators and their sum, the numerators multiplied with the slice, the quotient by the row sums,
  the product with the weights, the bias, the clip at 0, and a leading unit axis added for the store.
  `stepK_apply` reads it at an index: it is the layer of `Cert.Gcn.gcnK` (the scale a factor inside the inner product,
  the softmax denominator dividing after the aggregation) of the slice's entries.
-/
import proofs.«152771_g54185307406482_cont_9to1_m_905_3_alg».proof.KernelIdeal
import proofs.«152771_g54185307406482_cont_9to1_m_905_3_alg».proof.Proof.GcnSpec
import proofs.«152771_g54185307406482_cont_9to1_m_905_3_alg».proof.Proof.GcnConsts
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Step

open Cert.KernelIdeal Idealize.ShloMosaic Idealize.ShloMosaic.ValueIdx
open Facts₀ Facts

variable [Facts]

/-- The body's operations on one [512, 256] slice. -/
def stepK {F : FTy → Type} [FloatOps F] (xs : FVec F S512x256 .f32) (w : FVec F S256x256 .bf16) (bv : FVec F S256 .f32) :
    FVec F S1x512x256 .f32 :=
  have v7 : FVec F S512x256 .bf16 := truncf .bf16 xs bitsLt_bf16_f32
  have cst : F .bf16 := Scalar.ofBits .bf16 0x3D80#16
  have v8 : FVec F S512x256 .bf16 := broadcast S512x256 cst
  have v9 : FVec F S512x256 .bf16 := mulf v7 v8
  have cst_6 : FVec F S512x512 .f32 := constant S512x512 .f32 0x00000000#32
  have v10 : FVec F S512x512 .f32 := matmul dot_S512x256_S512x256_S512x512_1_1_0_0_n_n none v9 v7 cst_6
  have cst_7 : F .f32 := Scalar.ofBits .f32 0x00000000#32
  have v11 : FVec F S512x512 .f32 := broadcast S512x512 cst_7
  have v12 : FVec F S512x512 .f32 := maximumf v10 v11
  have v13 : FVec F S512 .f32 := multiReduction .maximumf [1] S512 v12 0xFF800000#32 reduces_S512x512_S512 (.inl rfl) rfl
  have v14 : FVec F S512x1 .f32 := shapeCast S512x1 v13 shapeCasts_S512_S512x1
  have v15 : FVec F S512x512 .f32 := broadcastTo S512x512 v14 broadcasts_S512x1_S512x512
  have v16 : FVec F S512x512 .f32 := subf v12 v15
  have v17 : FVec F S512x512 .f32 := exp v16
  have v18 : FVec F S512 .f32 := multiReduction .add [1] S512 v17 0x00000000#32 reduces_S512x512_S512 (.inl rfl) rfl
  have v19 : FVec F S512x1 .f32 := shapeCast S512x1 v18 shapeCasts_S512_S512x1
  have v20 : FVec F S512x512 .bf16 := truncf .bf16 v17 bitsLt_bf16_f32
  have cst_10 : FVec F S512x256 .f32 := constant S512x256 .f32 0x00000000#32
  have v21 : FVec F S512x256 .f32 := matmul dot_S512x512_S512x256_S512x256_1_0_0_1_n_n none v20 v7 cst_10
  have v22 : FVec F S512x256 .f32 := broadcastTo S512x256 v19 broadcasts_S512x1_S512x256
  have v23 : FVec F S512x256 .f32 := divf v21 v22
  have v24 : FVec F S512x256 .bf16 := truncf .bf16 v23 bitsLt_bf16_f32
  have cst_11 : FVec F S512x256 .f32 := constant S512x256 .f32 0x00000000#32
  have v25 : FVec F S512x256 .f32 := matmul dot_S512x256_S256x256_S512x256_1_0_0_1_n_n none v24 w cst_11
  have v26 : FVec F S1x256 .f32 := shapeCast S1x256 bv shapeCasts_S256_S1x256
  have v27 : FVec F S512x256 .f32 := broadcastTo S512x256 v26 broadcasts_S1x256_S512x256
  have v28 : FVec F S512x256 .f32 := addf v25 v27
  have cst_12 : F .f32 := Scalar.ofBits .f32 0x00000000#32
  have v29 : FVec F S512x256 .f32 := broadcast S512x256 cst_12
  have v30 : FVec F S512x256 .f32 := maximumf v28 v29
  shapeCast S1x512x256 v30 shapeCasts_S512x256_S1x512x256

/-! ### The three contractions read at an index

For each dot record: the coordinates of the two operand indices at a result index and a contraction position (one lemma
per operand axis), and the product into the zero splat read at `(n, m)` as the sum over the contraction's one coordinate. -/

theorem simDot_lhs_0 (j : S512x512.Idx) (q : dot_S512x256_S512x256_S512x512_1_1_0_0_n_n.contr.Idx) :
    (dot_S512x256_S512x256_S512x512_1_1_0_0_n_n.lhsIdx j q 0).val = (j 0).val := by
  unfold DotDims.lhsIdx
  rw [dif_neg (show ¬(0 : Fin S512x256.rank) ∈ dot_S512x256_S512x256_S512x512_1_1_0_0_n_n.lhsBatch from List.not_mem_nil), dif_pos (show (0 : Fin S512x256.rank) ∈ dot_S512x256_S512x256_S512x512_1_1_0_0_n_n.lhsNonContracting from List.mem_singleton.mpr rfl)]
  rfl
theorem simDot_lhs_1 (j : S512x512.Idx) (q : dot_S512x256_S512x256_S512x512_1_1_0_0_n_n.contr.Idx) :
    (dot_S512x256_S512x256_S512x512_1_1_0_0_n_n.lhsIdx j q 1).val = (q ⟨0, by have h : dot_S512x256_S512x256_S512x512_1_1_0_0_n_n.contr.rank = 1 := rfl; omega⟩).val :=
  dot_S512x256_S512x256_S512x512_1_1_0_0_n_n.lhsIdx_val_of_single rfl j q
theorem simDot_rhs_0 (j : S512x512.Idx) (q : dot_S512x256_S512x256_S512x512_1_1_0_0_n_n.contr.Idx) :
    (dot_S512x256_S512x256_S512x512_1_1_0_0_n_n.rhsIdx j q 0).val = (j 1).val := by
  unfold DotDims.rhsIdx
  rw [dif_neg (show ¬(0 : Fin S512x256.rank) ∈ dot_S512x256_S512x256_S512x512_1_1_0_0_n_n.rhsBatch from List.not_mem_nil), dif_pos (show (0 : Fin S512x256.rank) ∈ dot_S512x256_S512x256_S512x512_1_1_0_0_n_n.rhsNonContracting from List.mem_singleton.mpr rfl)]
  rfl
theorem simDot_rhs_1 (j : S512x512.Idx) (q : dot_S512x256_S512x256_S512x512_1_1_0_0_n_n.contr.Idx) :
    (dot_S512x256_S512x256_S512x512_1_1_0_0_n_n.rhsIdx j q 1).val = (q ⟨0, by have h : dot_S512x256_S512x256_S512x512_1_1_0_0_n_n.contr.rank = 1 := rfl; omega⟩).val :=
  dot_S512x256_S512x256_S512x512_1_1_0_0_n_n.rhsIdx_val_of_single rfl j q

/-- A [512, 256] matrix times the transpose of another, into the zero splat, at `(n, m)`: the inner product of row `n` of
    the first with row `m` of the second. -/
theorem matmul_rows_apply {φ₁ φ₂ : FTy} (A : FVec Ideal S512x256 φ₁) (B : FVec Ideal S512x256 φ₂) (n : Fin 512) (m : Fin 512) :
    matmul dot_S512x256_S512x256_S512x512_1_1_0_0_n_n none A B (constant (F := Ideal) S512x512 .f32 0x00000000#32) (ix2 n m)
      = ∑ k : Fin 256, A (ix2 n k) * B (ix2 m k) := by
  refine (Ideal.matmul_constant_zero_apply dot_S512x256_S512x256_S512x512_1_1_0_0_n_n none A B (ix2 n m)).trans ?_
  rw [← Equiv.sum_comp (contrEquiv1 dot_S512x256_S512x256_S512x512_1_1_0_0_n_n 256 rfl rfl).symm]
  refine Finset.sum_congr rfl fun k _ => ?_
  have hk := contrEquiv1_symm_val dot_S512x256_S512x256_S512x512_1_1_0_0_n_n 256 rfl rfl k
  have el : dot_S512x256_S512x256_S512x512_1_1_0_0_n_n.lhsIdx (ix2 n m) ((contrEquiv1 dot_S512x256_S512x256_S512x512_1_1_0_0_n_n 256 rfl rfl).symm k) = ix2 n k := funext fun a => Fin.ext (by
    match a with
    | ⟨0, _⟩ => exact simDot_lhs_0 _ _
    | ⟨1, _⟩ => exact (simDot_lhs_1 _ _).trans hk)
  have er : dot_S512x256_S512x256_S512x512_1_1_0_0_n_n.rhsIdx (ix2 n m) ((contrEquiv1 dot_S512x256_S512x256_S512x512_1_1_0_0_n_n 256 rfl rfl).symm k) = ix2 m k := funext fun a => Fin.ext (by
    match a with
    | ⟨0, _⟩ => exact simDot_rhs_0 _ _
    | ⟨1, _⟩ => exact (simDot_rhs_1 _ _).trans hk)
  rw [el, er]

theorem aggDot_lhs_0 (j : S512x256.Idx) (q : dot_S512x512_S512x256_S512x256_1_0_0_1_n_n.contr.Idx) :
    (dot_S512x512_S512x256_S512x256_1_0_0_1_n_n.lhsIdx j q 0).val = (j 0).val := by
  unfold DotDims.lhsIdx
  rw [dif_neg (show ¬(0 : Fin S512x512.rank) ∈ dot_S512x512_S512x256_S512x256_1_0_0_1_n_n.lhsBatch from List.not_mem_nil), dif_pos (show (0 : Fin S512x512.rank) ∈ dot_S512x512_S512x256_S512x256_1_0_0_1_n_n.lhsNonContracting from List.mem_singleton.mpr rfl)]
  rfl
theorem aggDot_lhs_1 (j : S512x256.Idx) (q : dot_S512x512_S512x256_S512x256_1_0_0_1_n_n.contr.Idx) :
    (dot_S512x512_S512x256_S512x256_1_0_0_1_n_n.lhsIdx j q 1).val = (q ⟨0, by have h : dot_S512x512_S512x256_S512x256_1_0_0_1_n_n.contr.rank = 1 := rfl; omega⟩).val :=
  dot_S512x512_S512x256_S512x256_1_0_0_1_n_n.lhsIdx_val_of_single rfl j q
theorem aggDot_rhs_0 (j : S512x256.Idx) (q : dot_S512x512_S512x256_S512x256_1_0_0_1_n_n.contr.Idx) :
    (dot_S512x512_S512x256_S512x256_1_0_0_1_n_n.rhsIdx j q 0).val = (q ⟨0, by have h : dot_S512x512_S512x256_S512x256_1_0_0_1_n_n.contr.rank = 1 := rfl; omega⟩).val :=
  dot_S512x512_S512x256_S512x256_1_0_0_1_n_n.rhsIdx_val_of_single rfl j q
theorem aggDot_rhs_1 (j : S512x256.Idx) (q : dot_S512x512_S512x256_S512x256_1_0_0_1_n_n.contr.Idx) :
    (dot_S512x512_S512x256_S512x256_1_0_0_1_n_n.rhsIdx j q 1).val = (j 1).val := by
  unfold DotDims.rhsIdx
  rw [dif_neg (show ¬(1 : Fin S512x256.rank) ∈ dot_S512x512_S512x256_S512x256_1_0_0_1_n_n.rhsBatch from List.not_mem_nil), dif_pos (show (1 : Fin S512x256.rank) ∈ dot_S512x512_S512x256_S512x256_1_0_0_1_n_n.rhsNonContracting from List.mem_singleton.mpr rfl)]
  rfl

/-- A [512, 512] matrix times a [512, 256] one, into the zero splat, at `(n, m)`. -/
theorem matmul_agg_apply {φ₁ φ₂ : FTy} (A : FVec Ideal S512x512 φ₁) (B : FVec Ideal S512x256 φ₂) (n : Fin 512) (m : Fin 256) :
    matmul dot_S512x512_S512x256_S512x256_1_0_0_1_n_n none A B (constant (F := Ideal) S512x256 .f32 0x00000000#32) (ix2 n m)
      = ∑ k : Fin 512, A (ix2 n k) * B (ix2 k m) := by
  refine (Ideal.matmul_constant_zero_apply dot_S512x512_S512x256_S512x256_1_0_0_1_n_n none A B (ix2 n m)).trans ?_
  rw [← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 n m) ((contrEquiv1 dot_S512x512_S512x256_S512x256_1_0_0_1_n_n 512 rfl rfl).symm k) = ix2 n k := funext fun a => Fin.ext (by
    match a with
    | ⟨0, _⟩ => exact aggDot_lhs_0 _ _
    | ⟨1, _⟩ => exact (aggDot_lhs_1 _ _).trans hk)
  have er : dot_S512x512_S512x256_S512x256_1_0_0_1_n_n.rhsIdx (ix2 n m) ((contrEquiv1 dot_S512x512_S512x256_S512x256_1_0_0_1_n_n 512 rfl rfl).symm k) = ix2 k m := funext fun a => Fin.ext (by
    match a with
    | ⟨1, _⟩ => exact aggDot_rhs_1 _ _
    | ⟨0, _⟩ => exact (aggDot_rhs_0 _ _).trans hk)
  rw [el, er]

theorem linDot_lhs_0 (j : S512x256.Idx) (q : dot_S512x256_S256x256_S512x256_1_0_0_1_n_n.contr.Idx) :
    (dot_S512x256_S256x256_S512x256_1_0_0_1_n_n.lhsIdx j q 0).val = (j 0).val := by
  unfold DotDims.lhsIdx
  rw [dif_neg (show ¬(0 : Fin S512x256.rank) ∈ dot_S512x256_S256x256_S512x256_1_0_0_1_n_n.lhsBatch from List.not_mem_nil), dif_pos (show (0 : Fin S512x256.rank) ∈ dot_S512x256_S256x256_S512x256_1_0_0_1_n_n.lhsNonContracting from List.mem_singleton.mpr rfl)]
  rfl
theorem linDot_lhs_1 (j : S512x256.Idx) (q : dot_S512x256_S256x256_S512x256_1_0_0_1_n_n.contr.Idx) :
    (dot_S512x256_S256x256_S512x256_1_0_0_1_n_n.lhsIdx j q 1).val = (q ⟨0, by have h : dot_S512x256_S256x256_S512x256_1_0_0_1_n_n.contr.rank = 1 := rfl; omega⟩).val :=
  dot_S512x256_S256x256_S512x256_1_0_0_1_n_n.lhsIdx_val_of_single rfl j q
theorem linDot_rhs_0 (j : S512x256.Idx) (q : dot_S512x256_S256x256_S512x256_1_0_0_1_n_n.contr.Idx) :
    (dot_S512x256_S256x256_S512x256_1_0_0_1_n_n.rhsIdx j q 0).val = (q ⟨0, by have h : dot_S512x256_S256x256_S512x256_1_0_0_1_n_n.contr.rank = 1 := rfl; omega⟩).val :=
  dot_S512x256_S256x256_S512x256_1_0_0_1_n_n.rhsIdx_val_of_single rfl j q
theorem linDot_rhs_1 (j : S512x256.Idx) (q : dot_S512x256_S256x256_S512x256_1_0_0_1_n_n.contr.Idx) :
    (dot_S512x256_S256x256_S512x256_1_0_0_1_n_n.rhsIdx j q 1).val = (j 1).val := by
  unfold DotDims.rhsIdx
  rw [dif_neg (show ¬(1 : Fin S256x256.rank) ∈ dot_S512x256_S256x256_S512x256_1_0_0_1_n_n.rhsBatch from List.not_mem_nil), dif_pos (show (1 : Fin S256x256.rank) ∈ dot_S512x256_S256x256_S512x256_1_0_0_1_n_n.rhsNonContracting from List.mem_singleton.mpr rfl)]
  rfl

/-- A [512, 256] matrix times a [256, 256] one, into the zero splat, at `(n, m)`. -/
theorem matmul_lin_apply {φ₁ φ₂ : FTy} (A : FVec Ideal S512x256 φ₁) (B : FVec Ideal S256x256 φ₂) (n : Fin 512) (m : Fin 256) :
    matmul dot_S512x256_S256x256_S512x256_1_0_0_1_n_n none A B (constant (F := Ideal) S512x256 .f32 0x00000000#32) (ix2 n m)
      = ∑ k : Fin 256, A (ix2 n k) * B (ix2 k m) := by
  refine (Ideal.matmul_constant_zero_apply dot_S512x256_S256x256_S512x256_1_0_0_1_n_n none A B (ix2 n m)).trans ?_
  rw [← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 n m) ((contrEquiv1 dot_S512x256_S256x256_S512x256_1_0_0_1_n_n 256 rfl rfl).symm k) = ix2 n k := funext fun a => Fin.ext (by
    match a with
    | ⟨0, _⟩ => exact linDot_lhs_0 _ _
    | ⟨1, _⟩ => exact (linDot_lhs_1 _ _).trans hk)
  have er : dot_S512x256_S256x256_S512x256_1_0_0_1_n_n.rhsIdx (ix2 n m) ((contrEquiv1 dot_S512x256_S256x256_S512x256_1_0_0_1_n_n 256 rfl rfl).symm k) = ix2 k m := funext fun a => Fin.ext (by
    match a with
    | ⟨1, _⟩ => exact linDot_rhs_1 _ _
    | ⟨0, _⟩ => exact (linDot_rhs_0 _ _).trans hk)
  rw [el, er]

/-! ### The row reductions read at an index -/

/-- The source index of the reduction along the columns over row `n`, with column `m` inserted, is `(n, m)`. -/
theorem lift_row (n m : Fin 512) : reduces_S512x512_S512.lift (ix1 n) m = ix2 n m :=
  funext fun c => Fin.ext (by match c with | ⟨0, _⟩ => rfl | ⟨1, _⟩ => rfl)

/-- The maximum along the columns, from `-∞`, at row `n`: the fold of `max` from `⊥` over the row's entries. -/
theorem rowMax_apply (X : FVec Ideal S512x512 .f32) (n : Fin 512) :
    multiReduction (F := Ideal) .maximumf [1] S512 X 0xFF800000#32 reduces_S512x512_S512 (.inl rfl) rfl (ix1 n)
      = (Finset.univ : Finset (Fin 512)).fold max ⊥ (fun m => X (ix2 n m)) := by
  refine (Ideal.multiReduction_maximumf_single X 0xFF800000#32 reduces_S512x512_S512 (.inl rfl) rfl (ix1 n)).trans ?_
  show (Finset.univ : Finset (Fin 512)).fold max (Ideal.ofBits .f32 0xFF800000#32)
      (fun m => X (reduces_S512x512_S512.lift (ix1 n) m)) = _
  rw [Cert.Gcn.word_ninf]
  exact congrArg (fun f => (Finset.univ : Finset (Fin 512)).fold max ⊥ f) (funext fun m => congrArg X (lift_row n m))

/-- The sum along the columns at row `n`: the sum of the row's entries. -/
theorem rowSum_apply (X : FVec Ideal S512x512 .f32) (n : Fin 512) :
    multiReduction (F := Ideal) .add [1] S512 X 0x00000000#32 reduces_S512x512_S512 (.inl rfl) rfl (ix1 n)
      = ∑ m : Fin 512, X (ix2 n m) := by
  refine (Ideal.multiReduction_add_single X 0x00000000#32 reduces_S512x512_S512 (.inl rfl) rfl (ix1 n)).trans ?_
  exact Finset.sum_congr rfl fun m _ => congrArg X (lift_row n m)

/-! ### The layout operations read at an index -/

/-- A [512] vector kept as a column [512, 1] reads, at `(n, 0)`, the vector at `n`. -/
theorem column_apply (v : FVec Ideal S512 .f32) (n : Fin 512) :
    shapeCast S512x1 v shapeCasts_S512_S512x1 (ix2 n (0 : Fin 1)) = v (ix1 n) :=
  shapeCast_apply v shapeCasts_S512_S512x1 (ix2 n (0 : Fin 1)) (ix1 n) (by
    rw [Shape.rowMajor_val_two, Shape.rowMajor_val_one]
    show n.val = n.val * 1 + 0
    omega)

/-- The column broadcast along 512 columns reads, at `(n, m)`, the vector at `n`. -/
theorem column_512_apply (v : FVec Ideal S512 .f32) (n m : Fin 512) :
    broadcastTo S512x512 (shapeCast S512x1 v shapeCasts_S512_S512x1) broadcasts_S512x1_S512x512 (ix2 n m) = v (ix1 n) := by
  refine (broadcastTo_apply _ broadcasts_S512x1_S512x512 (ix2 n m) (ix2 n (0 : Fin 1)) fun ax => ?_).trans (column_apply v n)
  match ax with
  | ⟨0, _⟩ => rfl
  | ⟨1, _⟩ => rfl

/-- The column broadcast along 256 columns reads, at `(n, d)`, the vector at `n`. -/
theorem column_256_apply (v : FVec Ideal S512 .f32) (n : Fin 512) (d : Fin 256) :
    broadcastTo S512x256 (shapeCast S512x1 v shapeCasts_S512_S512x1) broadcasts_S512x1_S512x256 (ix2 n d) = v (ix1 n) := by
  refine (broadcastTo_apply _ broadcasts_S512x1_S512x256 (ix2 n d) (ix2 n (0 : Fin 1)) fun ax => ?_).trans (column_apply v n)
  match ax with
  | ⟨0, _⟩ => rfl
  | ⟨1, _⟩ => rfl

/-- The bias row [256] kept as [1, 256] and broadcast along 512 rows reads, at `(n, h)`, the bias at `h`. -/
theorem biasRow_apply (bv : FVec Ideal S256 .f32) (n : Fin 512) (h : Fin 256) :
    broadcastTo S512x256 (shapeCast S1x256 bv shapeCasts_S256_S1x256) broadcasts_S1x256_S512x256 (ix2 n h) = bv (ix1 h) :=
  (broadcastTo_1b_ab_apply _ broadcasts_S1x256_S512x256 n h).trans (shapeCast_a_1a_apply bv shapeCasts_S256_S1x256 0 h)

/-! ### The stages of the step, each read at an index -/

/-- The clipped similarities: the slice scaled, times its own transpose, clipped at 0. -/
def simV (xs : FVec Ideal S512x256 .f32) : FVec Ideal S512x512 .f32 :=
  maximumf
    (matmul dot_S512x256_S512x256_S512x512_1_1_0_0_n_n none
      (mulf (truncf .bf16 xs bitsLt_bf16_f32) (broadcast S512x256 (Scalar.ofBits (F := Ideal) .bf16 0x3D80#16)))
      (truncf .bf16 xs bitsLt_bf16_f32) (constant (F := Ideal) S512x512 .f32 0x00000000#32))
    (broadcast S512x512 (Scalar.ofBits (F := Ideal) .f32 0x00000000#32))

/-- The softmax numerators of a [512, 512] matrix: the exponential of each entry less its row's maximum. -/
def expV (P : FVec Ideal S512x512 .f32) : FVec Ideal S512x512 .f32 :=
  exp (subf P
    (broadcastTo S512x512
      (shapeCast S512x1
        (multiReduction (F := Ideal) .maximumf [1] S512 P 0xFF800000#32 reduces_S512x512_S512 (.inl rfl) rfl)
        shapeCasts_S512_S512x1)
      broadcasts_S512x1_S512x512))

/-- The aggregation: the numerators times the slice, divided by the numerators' row sums. -/
def aggV (E : FVec Ideal S512x512 .f32) (xs : FVec Ideal S512x256 .f32) : FVec Ideal S512x256 .f32 :=
  divf
    (matmul dot_S512x512_S512x256_S512x256_1_0_0_1_n_n none (truncf .bf16 E bitsLt_bf16_f32) (truncf .bf16 xs bitsLt_bf16_f32)
      (constant (F := Ideal) S512x256 .f32 0x00000000#32))
    (broadcastTo S512x256
      (shapeCast S512x1
        (multiReduction (F := Ideal) .add [1] S512 E 0x00000000#32 reduces_S512x512_S512 (.inl rfl) rfl)
        shapeCasts_S512_S512x1)
      broadcasts_S512x1_S512x256)

/-- The linear map, the bias and the final clip at 0. -/
def linV (A : FVec Ideal S512x256 .f32) (w : FVec Ideal S256x256 .bf16) (bv : FVec Ideal S256 .f32) :
    FVec Ideal S512x256 .f32 :=
  maximumf
    (addf
      (matmul dot_S512x256_S256x256_S512x256_1_0_0_1_n_n none (truncf .bf16 A bitsLt_bf16_f32) w (constant (F := Ideal) S512x256 .f32 0x00000000#32))
      (broadcastTo S512x256 (shapeCast S1x256 bv shapeCasts_S256_S1x256) broadcasts_S1x256_S512x256))
    (broadcast S512x256 (Scalar.ofBits (F := Ideal) .f32 0x00000000#32))

/-- The step is the four stages in turn, with the leading unit axis added. -/
theorem stepK_eq (xs : FVec Ideal S512x256 .f32) (w : FVec Ideal S256x256 .bf16) (bv : FVec Ideal S256 .f32) :
    stepK (F := Ideal) xs w bv
      = shapeCast S1x512x256 (linV (aggV (expV (simV xs)) xs) w bv) shapeCasts_S512x256_S1x512x256 := rfl

/-- The similarity stage at `(n, m)` is `simK` of the slice's entries. -/
theorem simV_apply (xs : FVec Ideal S512x256 .f32) (n m : Fin 512) :
    simV xs (ix2 n m) = Cert.Gcn.simK (fun m d => xs (ix2 m d)) (Ideal.ofBits .bf16 0x3D80#16) n m := by
  unfold simV Cert.Gcn.simK
  refine (maximumf_apply _ _ _).trans ?_
  refine congrArg₂ max ?_ Ideal.ofBits_zero_f32
  exact matmul_rows_apply _ _ n m

/-- The numerator stage at `(n, m)` is `expo` of the matrix's entries. -/
theorem expV_apply (P : FVec Ideal S512x512 .f32) (n m : Fin 512) :
    expV P (ix2 n m) = Cert.Gcn.expo (fun n m => P (ix2 n m)) n m := by
  unfold expV Cert.Gcn.expo Cert.Gcn.rowMax
  show Ideal.exp (P (ix2 n m) - _) = _
  refine congrArg (fun t => Ideal.exp (P (ix2 n m) - t)) ?_
  exact (column_512_apply _ n m).trans (rowMax_apply P n)

/-- The aggregation stage at `(n, d)`: the quotient of the weighted sum by the sum of the weights. -/
theorem aggV_apply (E : FVec Ideal S512x512 .f32) (xs : FVec Ideal S512x256 .f32) (n : Fin 512) (d : Fin 256) :
    aggV E xs (ix2 n d) = Ideal.div (∑ m : Fin 512, E (ix2 n m) * xs (ix2 m d)) (∑ m : Fin 512, E (ix2 n m)) := by
  unfold aggV
  refine (divf_apply _ _ _).trans ?_
  refine congrArg₂ Ideal.div ?_ ?_
  · exact matmul_agg_apply _ _ n d
  · exact (column_256_apply _ n d).trans (rowSum_apply E n)

/-- The last stage at `(n, h)` is `lin` of the matrix's, the weights' and the bias's entries. -/
theorem linV_apply (A : FVec Ideal S512x256 .f32) (w : FVec Ideal S256x256 .bf16) (bv : FVec Ideal S256 .f32)
    (n : Fin 512) (h : Fin 256) :
    linV A w bv (ix2 n h)
      = Cert.Gcn.lin (fun n d => A (ix2 n d)) (fun d h' => w (ix2 d h')) (fun h' => bv (ix1 h')) n h := by
  unfold linV Cert.Gcn.lin
  refine (maximumf_apply _ _ _).trans ?_
  refine congrArg₂ max ?_ Ideal.ofBits_zero_f32
  refine (addf_apply _ _ _).trans ?_
  exact congrArg₂ (· + ·) (matmul_lin_apply _ _ n h) (biasRow_apply bv n h)

/-- The step read at an index of the stored block: the layer `gcnK` of the slice's entries, with the scale the
    value of the bf16 word `0x3D80`. -/
theorem stepK_apply (xs : FVec Ideal S512x256 .f32) (w : FVec Ideal S256x256 .bf16) (bv : FVec Ideal S256 .f32)
    (n : Fin 512) (h : Fin 256) :
    stepK (F := Ideal) xs w bv (ix3 (0 : Fin 1) n h)
      = Cert.Gcn.gcnK (fun m d => xs (ix2 m d)) (Ideal.ofBits .bf16 0x3D80#16) (fun d h' => w (ix2 d h'))
          (fun h' => bv (ix1 h')) n h := by
  rw [stepK_eq]
  refine (shapeCast_ab_1ab_apply _ shapeCasts_S512x256_S1x512x256 (0 : Fin 1) n h).trans ?_
  refine (linV_apply _ w bv n h).trans ?_
  unfold Cert.Gcn.gcnK
  have hsim : (fun n m : Fin 512 => simV xs (ix2 n m))
      = Cert.Gcn.simK (fun m d => xs (ix2 m d)) (Ideal.ofBits .bf16 0x3D80#16) :=
    funext fun n => funext fun m => simV_apply xs n m
  have hagg : (fun (n : Fin 512) (d : Fin 256) => aggV (expV (simV xs)) xs (ix2 n d))
      = Cert.Gcn.aggK (Cert.Gcn.simK (fun m d => xs (ix2 m d)) (Ideal.ofBits .bf16 0x3D80#16)) (fun m d => xs (ix2 m d)) := by
    funext n d
    rw [aggV_apply, ← hsim]
    unfold Cert.Gcn.aggK Cert.Gcn.den
    simp only [expV_apply]
  rw [hagg]

end Cert.KernelIdeal.Step

end
-- ==== Proof.GcnArr.lean ====
/-
  The layer over the whole arrays: output entry (b, n, t, h) is the layer of `GcnSpec` applied to the slice of batch row
  `b` at time step `t` (512 nodes by 256 features), read at node `n` and output feature `h`. `arrK` is the first
  arrangement with the scale the value of the bf16 word `0x3D80`; `arrR` the second with the scale the square root of
  the value of the f32 word `0x43800000`.
-/
import proofs.«152771_g54185307406482_cont_9to1_m_905_3_alg».proof.Proof.GcnSpec
import Idealize.ShloMosaic.Lib.ValueIdx

noncomputable section

namespace Cert.Gcn

open Idealize.ShloMosaic Idealize.ShloMosaic.ValueIdx

/-- The input's shape: batch, nodes, time steps, features. -/
abbrev SX : Shape := ⟨4, ![16, 512, 12, 256]⟩
/-- The weights' shape. -/
abbrev SW : Shape := ⟨2, ![256, 256]⟩
/-- The bias's shape. -/
abbrev SB : Shape := ⟨1, ![256]⟩

/-- Batch row `b`'s slice at time step `t`. -/
def sliceAt (a0 : SX.Idx → EReal) (b : Fin 16) (t : Fin 12) : Fin 512 → Fin 256 → EReal := fun m d => a0 (ix4 b m t d)

/-- The weights by their two coordinates. -/
def mat (a1 : SW.Idx → EReal) : Fin 256 → Fin 256 → EReal := fun d h => a1 (ix2 d h)

/-- The bias by its coordinate. -/
def vec (a2 : SB.Idx → EReal) : Fin 256 → EReal := fun h => a2 (ix1 h)

/-- The whole result in the first arrangement. -/
def arrK (a0 : SX.Idx → EReal) (a1 : SW.Idx → EReal) (a2 : SB.Idx → EReal) : SX.Idx → EReal := fun i =>
  gcnK (sliceAt a0 ⟨(i 0).val, (i 0).isLt⟩ ⟨(i 2).val, (i 2).isLt⟩) (Ideal.ofBits .bf16 0x3D80#16) (mat a1) (vec a2)
    ⟨(i 1).val, (i 1).isLt⟩ ⟨(i 3).val, (i 3).isLt⟩

/-- The whole result in the second arrangement. -/
def arrR (a0 : SX.Idx → EReal) (a1 : SW.Idx → EReal) (a2 : SB.Idx → EReal) : SX.Idx → EReal := fun i =>
  gcnR (sliceAt a0 ⟨(i 0).val, (i 0).isLt⟩ ⟨(i 2).val, (i 2).isLt⟩) (Ideal.sqrt (Ideal.ofBits .f32 0x43800000#32)) (mat a1)
    (vec a2) ⟨(i 1).val, (i 1).isLt⟩ ⟨(i 3).val, (i 3).isLt⟩

theorem arrK_apply (a0 : SX.Idx → EReal) (a1 : SW.Idx → EReal) (a2 : SB.Idx → EReal) (b : Fin 16) (n : Fin 512) (t : Fin 12)
    (h : Fin 256) :
    arrK a0 a1 a2 (ix4 b n t h) = gcnK (sliceAt a0 b t) (Ideal.ofBits .bf16 0x3D80#16) (mat a1) (vec a2) n h := rfl

theorem arrR_apply (a0 : SX.Idx → EReal) (a1 : SW.Idx → EReal) (a2 : SB.Idx → EReal) (b : Fin 16) (n : Fin 512) (t : Fin 12)
    (h : Fin 256) :
    arrR a0 a1 a2 (ix4 b n t h)
      = gcnR (sliceAt a0 b t) (Ideal.sqrt (Ideal.ofBits .f32 0x43800000#32)) (mat a1) (vec a2) n h := rfl

end Cert.Gcn

end
-- ==== Proof.KernelArray.lean ====
/-
  The kernel's run with its result array named: after every weakly fair execution the program's result holds, at
  (b, n, t, h), the layer in the first arrangement (`Cert.Gcn.arrK`) of the argument arrays.

  The grid has one point per batch row; point `b` stages the [1, 512, 3072] block of the input viewed [16, 512, 3072]
  (time step and feature merged on the last axis, time step major), and its twelve stores write the twelve [512, 256]
  column blocks of the output block, store `t` holding the step function of column block `t` of the input block. The
  stores tile the block, the sixteen blocks tile the array, and the closing reshape splits the merged axis again.
-/
import proofs.«152771_g54185307406482_cont_9to1_m_905_3_alg».proof.Proof.Gen.KernelIdeal.Frame
import proofs.«152771_g54185307406482_cont_9to1_m_905_3_alg».proof.Proof.KernelStep
import proofs.«152771_g54185307406482_cont_9to1_m_905_3_alg».proof.Proof.GcnArr
import Idealize.ShloMosaic.Lib.Pipeline.Value
import Idealize.ShloMosaic.Lib.StableHlo.Run

noncomputable section

namespace Cert.KernelIdeal.Arr

open Cert.KernelIdeal Cert.KernelIdeal.Gen Cert.KernelIdeal.Step Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

section Payloads
variable {F : FTy → Type} [FloatOps F]

/-- The staged input block without its leading unit axis. -/
abbrev inBlock (x0 : Vec F S1x512x3072 .f32) : FVec F S512x3072 .f32 := k0_pay4 (View.ld x0 r0_2)
/-- The staged weights. -/
abbrev wBlock (x1 : Vec F S256x256 .bf16) : FVec F S256x256 .bf16 := k0_pay2 (View.ld x1 r0_0)
/-- The staged bias without its leading unit axis. -/
abbrev bBlock (x2 : Vec F S1x256 .f32) : FVec F S256 .f32 := k0_pay3 (View.ld x2 r0_1)

/-- Store 0's payload is the step function of columns 0 … 255 of the input block. -/
theorem pay_step0 (x0 : Vec F S1x512x3072 .f32) (x1 : Vec F S256x256 .bf16) (x2 : Vec F S1x256 .f32) :
    k0_pay5 (View.ld x1 r0_0) (View.ld x2 r0_1) (View.ld x0 r0_2)
      = stepK (extractStridedSlice S512x256 ![0, 0] (inBlock x0) slices_S512x3072_o0_0_S512x256) (wBlock x1) (bBlock x2) := rfl
/-- Store 1's payload is the step function of columns 256 … 511 of the input block. -/
theorem pay_step1 (x0 : Vec F S1x512x3072 .f32) (x1 : Vec F S256x256 .bf16) (x2 : Vec F S1x256 .f32) :
    k0_pay8 (k0_pay2 (View.ld x1 r0_0)) (k0_pay3 (View.ld x2 r0_1)) (k0_pay6 (View.ld x0 r0_2)) (k0_pay7 (View.ld x0 r0_2)) (constant S512x512 .f32 0x00000000#32)
      = stepK (extractStridedSlice S512x256 ![0, 256] (inBlock x0) slices_S512x3072_o0_256_S512x256) (wBlock x1) (bBlock x2) := rfl
/-- Store 2's payload is the step function of columns 512 … 767 of the input block. -/
theorem pay_step2 (x0 : Vec F S1x512x3072 .f32) (x1 : Vec F S256x256 .bf16) (x2 : Vec F S1x256 .f32) :
    k0_pay10 (k0_pay2 (View.ld x1 r0_0)) (k0_pay3 (View.ld x2 r0_1)) (k0_pay9 (k0_pay4 (View.ld x0 r0_2))) (constant S512x256 .f32 0x00000000#32)
      = stepK (extractStridedSlice S512x256 ![0, 512] (inBlock x0) slices_S512x3072_o0_512_S512x256) (wBlock x1) (bBlock x2) := rfl
/-- Store 3's payload is the step function of columns 768 … 1023 of the input block. -/
theorem pay_step3 (x0 : Vec F S1x512x3072 .f32) (x1 : Vec F S256x256 .bf16) (x2 : Vec F S1x256 .f32) :
    k0_pay11 (k0_pay2 (View.ld x1 r0_0)) (k0_pay3 (View.ld x2 r0_1)) (k0_pay4 (View.ld x0 r0_2))
      = stepK (extractStridedSlice S512x256 ![0, 768] (inBlock x0) slices_S512x3072_o0_768_S512x256) (wBlock x1) (bBlock x2) := rfl
/-- Store 4's payload is the step function of columns 1024 … 1279 of the input block. -/
theorem pay_step4 (x0 : Vec F S1x512x3072 .f32) (x1 : Vec F S256x256 .bf16) (x2 : Vec F S1x256 .f32) :
    k0_pay14 (k0_pay2 (View.ld x1 r0_0)) (k0_pay3 (View.ld x2 r0_1)) (k0_pay12 (k0_pay4 (View.ld x0 r0_2))) (k0_pay13 (k0_pay4 (View.ld x0 r0_2))) (constant S512x512 .f32 0x00000000#32)
      = stepK (extractStridedSlice S512x256 ![0, 1024] (inBlock x0) slices_S512x3072_o0_1024_S512x256) (wBlock x1) (bBlock x2) := rfl
/-- Store 5's payload is the step function of columns 1280 … 1535 of the input block. -/
theorem pay_step5 (x0 : Vec F S1x512x3072 .f32) (x1 : Vec F S256x256 .bf16) (x2 : Vec F S1x256 .f32) :
    k0_pay16 (k0_pay2 (View.ld x1 r0_0)) (k0_pay3 (View.ld x2 r0_1)) (k0_pay15 (k0_pay4 (View.ld x0 r0_2))) (constant S512x256 .f32 0x00000000#32)
      = stepK (extractStridedSlice S512x256 ![0, 1280] (inBlock x0) slices_S512x3072_o0_1280_S512x256) (wBlock x1) (bBlock x2) := rfl
/-- Store 6's payload is the step function of columns 1536 … 1791 of the input block. -/
theorem pay_step6 (x0 : Vec F S1x512x3072 .f32) (x1 : Vec F S256x256 .bf16) (x2 : Vec F S1x256 .f32) :
    k0_pay17 (k0_pay2 (View.ld x1 r0_0)) (k0_pay3 (View.ld x2 r0_1)) (k0_pay4 (View.ld x0 r0_2))
      = stepK (extractStridedSlice S512x256 ![0, 1536] (inBlock x0) slices_S512x3072_o0_1536_S512x256) (wBlock x1) (bBlock x2) := rfl
/-- Store 7's payload is the step function of columns 1792 … 2047 of the input block. -/
theorem pay_step7 (x0 : Vec F S1x512x3072 .f32) (x1 : Vec F S256x256 .bf16) (x2 : Vec F S1x256 .f32) :
    k0_pay20 (k0_pay2 (View.ld x1 r0_0)) (k0_pay3 (View.ld x2 r0_1)) (k0_pay18 (k0_pay4 (View.ld x0 r0_2))) (k0_pay19 (k0_pay4 (View.ld x0 r0_2))) (constant S512x512 .f32 0x00000000#32)
      = stepK (extractStridedSlice S512x256 ![0, 1792] (inBlock x0) slices_S512x3072_o0_1792_S512x256) (wBlock x1) (bBlock x2) := rfl
/-- Store 8's payload is the step function of columns 2048 … 2303 of the input block. -/
theorem pay_step8 (x0 : Vec F S1x512x3072 .f32) (x1 : Vec F S256x256 .bf16) (x2 : Vec F S1x256 .f32) :
    k0_pay22 (k0_pay2 (View.ld x1 r0_0)) (k0_pay3 (View.ld x2 r0_1)) (k0_pay21 (k0_pay4 (View.ld x0 r0_2))) (constant S512x256 .f32 0x00000000#32)
      = stepK (extractStridedSlice S512x256 ![0, 2048] (inBlock x0) slices_S512x3072_o0_2048_S512x256) (wBlock x1) (bBlock x2) := rfl
/-- Store 9's payload is the step function of columns 2304 … 2559 of the input block. -/
theorem pay_step9 (x0 : Vec F S1x512x3072 .f32) (x1 : Vec F S256x256 .bf16) (x2 : Vec F S1x256 .f32) :
    k0_pay23 (k0_pay2 (View.ld x1 r0_0)) (k0_pay3 (View.ld x2 r0_1)) (k0_pay4 (View.ld x0 r0_2))
      = stepK (extractStridedSlice S512x256 ![0, 2304] (inBlock x0) slices_S512x3072_o0_2304_S512x256) (wBlock x1) (bBlock x2) := rfl
/-- Store 10's payload is the step function of columns 2560 … 2815 of the input block. -/
theorem pay_step10 (x0 : Vec F S1x512x3072 .f32) (x1 : Vec F S256x256 .bf16) (x2 : Vec F S1x256 .f32) :
    k0_pay26 (k0_pay2 (View.ld x1 r0_0)) (k0_pay3 (View.ld x2 r0_1)) (k0_pay24 (k0_pay4 (View.ld x0 r0_2))) (k0_pay25 (k0_pay4 (View.ld x0 r0_2))) (constant S512x512 .f32 0x00000000#32)
      = stepK (extractStridedSlice S512x256 ![0, 2560] (inBlock x0) slices_S512x3072_o0_2560_S512x256) (wBlock x1) (bBlock x2) := rfl
/-- Store 11's payload is the step function of columns 2816 … 3071 of the input block. -/
theorem pay_step11 (x0 : Vec F S1x512x3072 .f32) (x1 : Vec F S256x256 .bf16) (x2 : Vec F S1x256 .f32) :
    k0_pay1 (k0_pay2 (View.ld x1 r0_0)) (k0_pay3 (View.ld x2 r0_1)) (k0_pay27 (k0_pay4 (View.ld x0 r0_2))) (constant S512x256 .f32 0x00000000#32)
      = stepK (extractStridedSlice S512x256 ![0, 2816] (inBlock x0) slices_S512x3072_o0_2816_S512x256) (wBlock x1) (bBlock x2) := rfl

/-- The zero offsets of a rank-3 rectangle, however spelt. -/
theorem hz3 : (![0, 0, 0] : Fin 3 → Nat) = fun _ => 0 := funext fun a => by fin_cases a <;> rfl
/-- The zero offsets of a rank-2 rectangle. -/
theorem hz2 : (![0, 0] : Fin 2 → Nat) = fun _ => 0 := funext fun a => by fin_cases a <;> rfl

/-- The input block without its unit axis reads the staged block at (0, m, j). -/
theorem inBlock_apply (x0 : Vec F S1x512x3072 .f32) (m : Fin 512) (j : Fin 3072) :
    inBlock x0 (ix2 m j) = x0 (ix3 (0 : Fin 1) m j) := by
  show shapeCast S512x3072 (View.ld x0 r0_2) shapeCasts_S1x512x3072_S512x3072 (ix2 m j) = _
  rw [View.ld_unit_zero (S := S1x512x3072) hz3]
  refine shapeCast_apply _ _ _ _ ?_
  rw [Shape.rowMajor_val_three, Shape.rowMajor_val_two]
  show (0 * 512 + m.val) * 3072 + j.val = m.val * 3072 + j.val
  omega

/-- The staged weights are read as they are. -/
theorem wBlock_eq (x1 : Vec F S256x256 .bf16) : wBlock x1 = x1 := by
  show shapeCast S256x256 (View.ld x1 r0_0) shapeCasts_S256x256_S256x256 = _
  rw [View.ld_unit_zero (S := S256x256) hz2]
  exact shapeCast_self x1 _

/-- The bias without its unit axis reads the staged row at (0, h). -/
theorem bBlock_apply (x2 : Vec F S1x256 .f32) (h : Fin 256) : bBlock x2 (ix1 h) = x2 (ix2 (0 : Fin 1) h) := by
  show shapeCast S256 (View.ld x2 r0_1) shapeCasts_S1x256_S256 (ix1 h) = _
  rw [View.ld_unit_zero (S := S1x256) hz2]
  refine shapeCast_apply _ _ _ _ ?_
  rw [Shape.rowMajor_val_two, Shape.rowMajor_val_one]
  show 0 * 256 + h.val = h.val
  omega

/-- Columns o … o + 255 of the input block, read at (m, d): the staged block at (0, m, o + d). -/
theorem colSlice_apply (x0 : Vec F S1x512x3072 .f32) (o : Nat) (ho : o + 256 ≤ 3072) (hs : S512x3072.Slices ![0, o] S512x256)
    (m : Fin 512) (d : Fin 256) :
    extractStridedSlice S512x256 ![0, o] (inBlock x0) hs (ix2 m d) = x0 (ix3 (0 : Fin 1) m ⟨o + d.val, by omega⟩) := by
  refine (extractStridedSlice_apply _ _ _ (ix2 m d) (ix2 m ⟨o + d.val, by omega⟩) fun a => ?_).trans (inBlock_apply x0 m _)
  match a with
  | ⟨0, _⟩ => show m.val = 0 + m.val; omega
  | ⟨1, _⟩ => show o + d.val = o + d.val; rfl

end Payloads

/-! ## The staging buffer after the body as one function of its index -/

/-- Column block t of a staged input block: entry (m, d) is the block's (0, m, 256 t + d). -/
def colBlock (x0 : S1x512x3072.Idx → EReal) (t : Fin 12) : Fin 512 → Fin 256 → EReal :=
  fun m d => x0 (ix3 (0 : Fin 1) m ⟨256 * t.val + d.val, by omega⟩)

/-- What the body leaves in the output's staging buffer, index by index: at (0, n, j) the layer of column block
    j / 256 of the input block, read at node n and feature j % 256. -/
def blockG (x0 : Vec Ideal S1x512x3072 .f32) (x1 : Vec Ideal S256x256 .bf16) (x2 : Vec Ideal S1x256 .f32) :
    S1x512x3072.Idx → EReal := fun y =>
  Cert.Gcn.gcnK (colBlock x0 ⟨(y 2).val / 256, by have h : (y 2).val < 3072 := (y 2).isLt; omega⟩)
    (Ideal.ofBits .bf16 0x3D80#16) (fun d h => x1 (ix2 d h)) (fun h => x2 (ix2 (0 : Fin 1) h))
    ⟨(y 1).val, (y 1).isLt⟩ ⟨(y 2).val % 256, Nat.mod_lt _ (by decide)⟩

/-- The block function at an index whose coordinates are given: node n, column 256 t + h. -/
theorem blockG_at (x0 : Vec Ideal S1x512x3072 .f32) (x1 : Vec Ideal S256x256 .bf16) (x2 : Vec Ideal S1x256 .f32)
    (t : Fin 12) (n : Fin 512) (h : Fin 256) (y : S1x512x3072.Idx) (hy1 : (y 1).val = n.val)
    (hy2 : (y 2).val = 256 * t.val + h.val) :
    blockG x0 x1 x2 y
      = Cert.Gcn.gcnK (colBlock x0 t) (Ideal.ofBits .bf16 0x3D80#16) (fun d h' => x1 (ix2 d h'))
          (fun h' => x2 (ix2 (0 : Fin 1) h')) n h := by
  have e0 : (⟨(y 2).val / 256, by have h : (y 2).val < 3072 := (y 2).isLt; omega⟩ : Fin 12) = t :=
    Fin.ext (by show (y 2).val / 256 = t.val; omega)
  have e1 : (⟨(y 1).val, (y 1).isLt⟩ : Fin 512) = n := Fin.ext hy1
  have e2 : (⟨(y 2).val % 256, Nat.mod_lt _ (by decide)⟩ : Fin 256) = h :=
    Fin.ext (by show (y 2).val % 256 = h.val; omega)
  unfold blockG
  rw [e0, e1, e2]

/-- A store's payload is its block of the block function: the step function of columns o = 256 t … read at a local
    index is the block function at the index the store's rectangle sends it to. -/
theorem piece_eq (x0 : Vec Ideal S1x512x3072 .f32) (x1 : Vec Ideal S256x256 .bf16) (x2 : Vec Ideal S1x256 .f32)
    (o : Nat) (t : Fin 12) (ho : o = 256 * t.val) (hs : S512x3072.Slices ![0, o] S512x256)
    (inb : ∀ a, (![0, 0, o] : Fin 3 → Nat) a + S1x512x256.size a ≤ S1x512x3072.size a) (x : S1x512x256.Idx) :
    stepK (F := Ideal) (extractStridedSlice S512x256 ![0, o] (inBlock x0) hs) (wBlock x1) (bBlock x2) x
      = blockG x0 x1 x2 ((Rect.unit (s := S1x512x3072) ![0, 0, o] S1x512x256.size inb).emb x) := by
  subst ho
  obtain ⟨z, n, h, rfl⟩ : ∃ (z : Fin 1) (n : Fin 512) (h : Fin 256), x = ix3 z n h := ⟨x 0, x 1, x 2, eq_ix3 x⟩
  obtain rfl : z = 0 := Subsingleton.elim _ _
  rw [stepK_apply, wBlock_eq]
  rw [blockG_at x0 x1 x2 t n h _ (by rw [Rect.emb_apply]; show 0 + 1 * n.val = n.val; omega)
    (by rw [Rect.emb_apply]; show 256 * t.val + 1 * h.val = 256 * t.val + h.val; omega)]
  have hc : (fun m d => extractStridedSlice S512x256 ![0, 256 * t.val] (inBlock x0) hs (ix2 m d)) = colBlock x0 t :=
    funext fun m => funext fun d => colSlice_apply x0 _ (by have := t.isLt; omega) hs m d
  have hb : (fun h' => bBlock x2 (ix1 h')) = fun h' => x2 (ix2 (0 : Fin 1) h') := funext fun h' => bBlock_apply x2 h'
  rw [hc, hb]

/-- After the body the output's staging buffer IS the block function: each of the twelve stores holds its block of it,
    and the stores tile the buffer. -/
theorem out_eq (x0 : Vec Ideal S1x512x3072 .f32) (x1 : Vec Ideal S256x256 .bf16) (x2 : Vec Ideal S1x256 .f32) :
    out0_3 x0 x1 x2 = blockG x0 x1 x2 := by
  funext y
  unfold out0_3
  refine View.canon_apply_of_pieces (Val := Elt Ideal) (S := S1x512x3072) (e := .f32) (blockG x0 x1 x2) _ ?_ y (cover0_3 _ _ _ _ _ _ _ _ _ _ _ _ y)
  intro p hp
  simp only [List.mem_cons, List.mem_nil_iff, or_false] at hp
  rcases hp with rfl | rfl | rfl | rfl | rfl | rfl | rfl | rfl | rfl | rfl | rfl | rfl
  · exact fun x => (congrFun (pay_step11 x0 x1 x2) x).trans (piece_eq x0 x1 x2 2816 11 rfl slices_S512x3072_o0_2816_S512x256 inb_S1x512x3072_S1x512x256_0_0_2816 x)
  · exact fun x => (congrFun (pay_step10 x0 x1 x2) x).trans (piece_eq x0 x1 x2 2560 10 rfl slices_S512x3072_o0_2560_S512x256 inb_S1x512x3072_S1x512x256_0_0_2560 x)
  · exact fun x => (congrFun (pay_step9 x0 x1 x2) x).trans (piece_eq x0 x1 x2 2304 9 rfl slices_S512x3072_o0_2304_S512x256 inb_S1x512x3072_S1x512x256_0_0_2304 x)
  · exact fun x => (congrFun (pay_step8 x0 x1 x2) x).trans (piece_eq x0 x1 x2 2048 8 rfl slices_S512x3072_o0_2048_S512x256 inb_S1x512x3072_S1x512x256_0_0_2048 x)
  · exact fun x => (congrFun (pay_step7 x0 x1 x2) x).trans (piece_eq x0 x1 x2 1792 7 rfl slices_S512x3072_o0_1792_S512x256 inb_S1x512x3072_S1x512x256_0_0_1792 x)
  · exact fun x => (congrFun (pay_step6 x0 x1 x2) x).trans (piece_eq x0 x1 x2 1536 6 rfl slices_S512x3072_o0_1536_S512x256 inb_S1x512x3072_S1x512x256_0_0_1536 x)
  · exact fun x => (congrFun (pay_step5 x0 x1 x2) x).trans (piece_eq x0 x1 x2 1280 5 rfl slices_S512x3072_o0_1280_S512x256 inb_S1x512x3072_S1x512x256_0_0_1280 x)
  · exact fun x => (congrFun (pay_step4 x0 x1 x2) x).trans (piece_eq x0 x1 x2 1024 4 rfl slices_S512x3072_o0_1024_S512x256 inb_S1x512x3072_S1x512x256_0_0_1024 x)
  · exact fun x => (congrFun (pay_step3 x0 x1 x2) x).trans (piece_eq x0 x1 x2 768 3 rfl slices_S512x3072_o0_768_S512x256 inb_S1x512x3072_S1x512x256_0_0_768 x)
  · exact fun x => (congrFun (pay_step2 x0 x1 x2) x).trans (piece_eq x0 x1 x2 512 2 rfl slices_S512x3072_o0_512_S512x256 inb_S1x512x3072_S1x512x256_0_0_512 x)
  · exact fun x => (congrFun (pay_step1 x0 x1 x2) x).trans (piece_eq x0 x1 x2 256 1 rfl slices_S512x3072_o0_256_S512x256 inb_S1x512x3072_S1x512x256_0_0_256 x)
  · exact fun x => (congrFun (pay_step0 x0 x1 x2) x).trans (piece_eq x0 x1 x2 0 0 rfl slices_S512x3072_o0_0_S512x256 inb_S1x512x3072_S1x512x256_0_0_0 x)

/-! ## The region's result array as one function of the arrays it finds -/

/-- The slice of batch row b at time step t of an array viewed [16, 512, 3072]: entry (n, d) is the array's
    (b, n, 256 t + d). -/
def rowSlice (a0 : S16x512x3072.Idx → EReal) (b : Fin 16) (t : Fin 12) : Fin 512 → Fin 256 → EReal :=
  fun n d => a0 (ix3 b n ⟨256 * t.val + d.val, by omega⟩)

/-- The region's whole result, index by index: at (b, n, j) the layer of the slice of batch row b at time step
    j / 256, read at node n and feature j % 256. -/
def arrG (a0 : S16x512x3072.Idx → EReal) (a1 : S256x256.Idx → EReal) (a2 : S1x256.Idx → EReal) :
    S16x512x3072.Idx → EReal := fun i =>
  Cert.Gcn.gcnK (rowSlice a0 ⟨(i 0).val, (i 0).isLt⟩ ⟨(i 2).val / 256, by have h : (i 2).val < 3072 := (i 2).isLt; omega⟩)
    (Ideal.ofBits .bf16 0x3D80#16) (fun d h => a1 (ix2 d h)) (fun h => a2 (ix2 (0 : Fin 1) h))
    ⟨(i 1).val, (i 1).isLt⟩ ⟨(i 2).val % 256, Nat.mod_lt _ (by decide)⟩

/-- The array function at an index whose coordinates are given: batch row b, node n, column 256 t + h. -/
theorem arrG_at (a0 : S16x512x3072.Idx → EReal) (a1 : S256x256.Idx → EReal) (a2 : S1x256.Idx → EReal)
    (b : Fin 16) (t : Fin 12) (n : Fin 512) (h : Fin 256) (i : S16x512x3072.Idx) (hi0 : (i 0).val = b.val)
    (hi1 : (i 1).val = n.val) (hi2 : (i 2).val = 256 * t.val + h.val) :
    arrG a0 a1 a2 i
      = Cert.Gcn.gcnK (rowSlice a0 b t) (Ideal.ofBits .bf16 0x3D80#16) (fun d h' => a1 (ix2 d h'))
          (fun h' => a2 (ix2 (0 : Fin 1) h')) n h := by
  have e0 : (⟨(i 0).val, (i 0).isLt⟩ : Fin 16) = b := Fin.ext hi0
  have e1 : (⟨(i 1).val, (i 1).isLt⟩ : Fin 512) = n := Fin.ext hi1
  have e2 : (⟨(i 2).val % 256, Nat.mod_lt _ (by decide)⟩ : Fin 256) = h :=
    Fin.ext (by show (i 2).val % 256 = h.val; omega)
  have e3 : (⟨(i 2).val / 256, by have h : (i 2).val < 3072 := (i 2).isLt; omega⟩ : Fin 12) = t :=
    Fin.ext (by show (i 2).val / 256 = t.val; omega)
  unfold arrG
  rw [e0, e1, e2, e3]

/-- The block function of blocks that are batch row b of three arrays is the array function on that row: for a
    staged input block reading row b of a0, weights reading a1 and a bias row reading a2, the block function at y is
    the array function at (b, y 1, y 2). -/
theorem blockG_eq_arrG (a0 : S16x512x3072.Idx → EReal) (a1 : S256x256.Idx → EReal) (a2 : S1x256.Idx → EReal)
    (x0 : Vec Ideal S1x512x3072 .f32) (x1 : Vec Ideal S256x256 .bf16) (x2 : Vec Ideal S1x256 .f32) (b : Fin 16)
    (h0 : ∀ (n : Fin 512) (j : Fin 3072), x0 (ix3 (0 : Fin 1) n j) = a0 (ix3 b n j))
    (h1 : ∀ d h : Fin 256, x1 (ix2 d h) = a1 (ix2 d h))
    (h2 : ∀ h : Fin 256, x2 (ix2 (0 : Fin 1) h) = a2 (ix2 (0 : Fin 1) h))
    (y : S1x512x3072.Idx) (i : S16x512x3072.Idx) (hi0 : (i 0).val = b.val) (hi1 : (i 1).val = (y 1).val)
    (hi2 : (i 2).val = (y 2).val) :
    blockG x0 x1 x2 y = arrG a0 a1 a2 i := by
  have hy2 : (y 2).val < 3072 := (y 2).isLt
  rw [blockG_at x0 x1 x2 ⟨(y 2).val / 256, by omega⟩ ⟨(y 1).val, (y 1).isLt⟩ ⟨(y 2).val % 256, Nat.mod_lt _ (by decide)⟩ y rfl
      (by show (y 2).val = 256 * ((y 2).val / 256) + (y 2).val % 256; omega),
    arrG_at a0 a1 a2 b ⟨(y 2).val / 256, by omega⟩ ⟨(y 1).val, (y 1).isLt⟩ ⟨(y 2).val % 256, Nat.mod_lt _ (by decide)⟩ i hi0 hi1
      (by show (i 2).val = 256 * ((y 2).val / 256) + (y 2).val % 256; omega)]
  have hs : colBlock x0 ⟨(y 2).val / 256, by omega⟩ = rowSlice a0 b ⟨(y 2).val / 256, by omega⟩ :=
    funext fun n => funext fun d => h0 n _
  have hw : (fun d h' => x1 (ix2 d h')) = fun d h' => a1 (ix2 d h') := funext fun d => funext fun h' => h1 d h'
  have hb : (fun h' => x2 (ix2 (0 : Fin 1) h')) = fun h' => a2 (ix2 (0 : Fin 1) h') := funext fun h' => h2 h'
  rw [hs, hw, hb]

/-- The index maps over the grid: the input and the output blocks are batch row t at point t, the weights and
    the bias the one block of their arrays. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The input window's block at point t is batch row t of the array the region finds. -/
theorem iblk0_apply (c : Dev nD) (t : Fin cfg0.N) (n : Fin 512) (j : Fin 3072) :
    (iblk m c 0 t : Vec Ideal S1x512x3072 .f32) (ix3 (0 : Fin 1) n j)
      = (V m c main_v0 : S16x512x3072.Idx → EReal) (ix3 (Fin.cast N_0 t) n j) := by
  obtain ⟨e0, e1, e2, -⟩ := idx_facts t
  unfold iblk
  rw [View.read_apply]
  refine congrArg (V m c main_v0 : S16x512x3072.Idx → EReal) (funext fun a => Fin.ext ?_)
  match a with
  | ⟨0, _⟩ => show win0_0.index t (0 : Fin 3) * 1 + 1 * 0 = t.val; omega
  | ⟨1, _⟩ => show win0_0.index t (1 : Fin 3) * 512 + 1 * n.val = n.val; omega
  | ⟨2, _⟩ => show win0_0.index t (2 : Fin 3) * 3072 + 1 * j.val = j.val; omega

/-- The weights' block is the whole array the region finds. -/
theorem iblk1_apply (c : Dev nD) (t : Fin cfg0.N) (d h : Fin 256) :
    (iblk m c 1 t : Vec Ideal S256x256 .bf16) (ix2 d h) = (V m c main_v1 : S256x256.Idx → EReal) (ix2 d h) := by
  obtain ⟨-, -, -, e0, e1, -⟩ := idx_facts t
  unfold iblk
  rw [View.read_apply]
  refine congrArg (V m c main_v1 : S256x256.Idx → EReal) (funext fun a => Fin.ext ?_)
  match a with
  | ⟨0, _⟩ => show win0_1.index t (0 : Fin 2) * 256 + 1 * d.val = d.val; omega
  | ⟨1, _⟩ => show win0_1.index t (1 : Fin 2) * 256 + 1 * h.val = h.val; omega

/-- The bias's block is the whole row the region finds. -/
theorem iblk2_apply (c : Dev nD) (t : Fin cfg0.N) (h : Fin 256) :
    (iblk m c 2 t : Vec Ideal S1x256 .f32) (ix2 (0 : Fin 1) h) = (V m c main_v2 : S1x256.Idx → EReal) (ix2 (0 : Fin 1) h) := by
  obtain ⟨-, -, -, -, -, e0, e1, -⟩ := idx_facts t
  unfold iblk
  rw [View.read_apply]
  refine congrArg (V m c main_v2 : S1x256.Idx → EReal) (funext fun a => Fin.ext ?_)
  match a with
  | ⟨0, _⟩ => show win0_2.index t (0 : Fin 2) * 1 + 1 * 0 = 0; omega
  | ⟨1, _⟩ => show win0_2.index t (1 : Fin 2) * 256 + 1 * h.val = h.val; omega

/-- What point t writes back is block t of the array function of the arrays the region finds. -/
theorem flushed_eq (c : Dev nD) (t : Fin cfg0.N) :
    (dats m 0 c).flushed 3 t = ((cfg0.win 3).blk t).view.read (Elt Ideal)
      (arrG (V m c main_v0) (V m c main_v1) (V m c main_v2)) := by
  show (cfg0.win 3).cut (grid0.coords t) ((dats m 0 c).after 3 t) = _
  rw [after0_3]
  obtain ⟨-, -, -, -, -, -, -, e0, e1, e2⟩ := idx_facts t
  funext y
  show out0_3 (iblk m c 0 t) (iblk m c 1 t) (iblk m c 2 t) y
    = arrG (V m c main_v0) (V m c main_v1) (V m c main_v2) (((cfg0.win 3).blk t).view.emb y)
  refine (congrFun (out_eq (iblk m c 0 t) (iblk m c 1 t) (iblk m c 2 t)) y).trans ?_
  refine blockG_eq_arrG (V m c main_v0) (V m c main_v1) (V m c main_v2) (iblk m c 0 t) (iblk m c 1 t) (iblk m c 2 t)
    (Fin.cast N_0 t) (iblk0_apply m c t) (iblk1_apply m c t) (iblk2_apply m c t) y _ ?_ ?_ ?_
  · show win0_3.index t (0 : Fin 3) * 1 + 1 * (y 0).val = t.val
    have h : (y 0).val < 1 := (y 0).isLt
    omega
  · show win0_3.index t (1 : Fin 3) * 512 + 1 * (y 1).val = (y 1).val; omega
  · show win0_3.index t (2 : Fin 3) * 3072 + 1 * (y 2).val = (y 2).val; omega

/-- An index of the array is in point t's block iff each coordinate is in the block's range on its axis. -/
theorem mem_blk (t : Fin cfg0.N) (i : S16x512x3072.Idx) :
    i ∈ ((cfg0.win 3).blk t).view.set ↔ ∀ a : Fin 3, win0_3.index t a * S1x512x3072.size a ≤ (i a).val
      ∧ (i a).val < win0_3.index t a * S1x512x3072.size a + S1x512x3072.size a := by
  show i ∈ ((View.whole main_v3).slice (win0_3.rect t)).set ↔ _
  rw [View.set_slice_whole, Rect.mem_set_unit]
  exact Iff.rfl

/-- Every index of the array is in the block of the point its batch row names. -/
theorem cover (i : S16x512x3072.Idx) :
    ∃ t : Fin cfg0.N, (cfg0.win 3).flush t = true ∧ i ∈ ((cfg0.win 3).blk t).view.set := by
  have hi0 : (i 0).val < 16 := (i 0).isLt
  have hi1 : (i 1).val < 512 := (i 1).isLt
  have hi2 : (i 2).val < 3072 := (i 2).isLt
  have hN : grid0.N = 16 := N_0
  obtain ⟨t, ht⟩ : ∃ t : Fin cfg0.N, t.val = (i 0).val := ⟨⟨(i 0).val, by show (i 0).val < grid0.N; omega⟩, rfl⟩
  obtain ⟨-, -, -, -, -, -, -, e0, e1, e2⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 3072 ≤ (i 2).val ∧ (i 2).val < win0_3.index t (2 : Fin 3) * 3072 + 3072; omega

/-- The region's result array after the run is the array function of the arrays the region finds. -/
theorem final (c : Dev nD) :
    (dats m 0 c).arrAt 3 cfg0.N = arrG (V m c main_v0) (V m c main_v1) (V m c main_v2) :=
  (dats m 0 c).arrAt_eq_of_cover 3 (arrG (V m c main_v0) (V m c main_v1) (V m c main_v2))
    (fun t _ => flushed_eq m c t) cover

/-! ## The arrays the region finds, and the reshape after it -/

/-- The region's input array is the first argument with time step and feature merged. -/
theorem V_main_v0 (c : Dev nD) :
    (V m c main_v0 : S16x512x3072.Idx → EReal)
      = shapeCast (s := S16x512x12x256) (α := EReal) S16x512x3072 (m ((c.tc : Thread nD τ).loc main_arg0))
          shapeCasts_S16x512x12x256_S16x512x3072 := by
  show StableHlo.after hostOps0 (fun b => m (c, b)) (Proc.devRef .tc main_v0) = _
  after_results
  rfl

/-- The region's weights are the second argument in the narrower format: the same extended reals. -/
theorem V_main_v1 (c : Dev nD) :
    (V m c main_v1 : S256x256.Idx → EReal)
      = truncf (F := Ideal) .bf16 (m ((c.tc : Thread nD τ).loc main_arg1) : FVec Ideal S256x256 .f32) bitsLt_bf16_f32 := by
  show StableHlo.after hostOps0 (fun b => m (c, b)) (Proc.devRef .tc main_v1) = _
  after_results

/-- The region's bias row is the third argument with a leading unit axis. -/
theorem V_main_v2 (c : Dev nD) :
    (V m c main_v2 : S1x256.Idx → EReal)
      = shapeCast (s := S256) (α := EReal) S1x256 (m ((c.tc : Thread nD τ).loc main_arg2)) shapeCasts_S256_S1x256 := by
  show StableHlo.after hostOps0 (fun b => m (c, b)) (Proc.devRef .tc main_v2) = _
  after_results
  rfl

/-- The input array at (b, n, 256 t + d) is the first argument at (b, n, t, d). -/
theorem V0_apply (c : Dev nD) (b : Fin 16) (n : Fin 512) (t : Fin 12) (d : Fin 256) :
    (V m c main_v0 : S16x512x3072.Idx → EReal) (ix3 b n ⟨256 * t.val + d.val, by omega⟩)
      = (m ((c.tc : Thread nD τ).loc main_arg0) : S16x512x12x256.Idx → EReal) (ix4 b n t d) := by
  rw [V_main_v0]
  refine shapeCast_apply _ _ _ _ ?_
  rw [Shape.rowMajor_val_four, Shape.rowMajor_val_three]
  show ((b.val * 512 + n.val) * 12 + t.val) * 256 + d.val = (b.val * 512 + n.val) * 3072 + (256 * t.val + d.val)
  omega

/-- The bias row at (0, h) is the third argument at h. -/
theorem V2_apply (c : Dev nD) (h : Fin 256) :
    (V m c main_v2 : S1x256.Idx → EReal) (ix2 (0 : Fin 1) h)
      = (m ((c.tc : Thread nD τ).loc main_arg2) : S256.Idx → EReal) (ix1 h) := by
  rw [V_main_v2]
  refine shapeCast_apply _ _ _ _ ?_
  rw [Shape.rowMajor_val_one, Shape.rowMajor_val_two]
  show h.val = 0 * 256 + h.val
  omega

/-- The program's result after the run: the region's result array with the merged axis split again. -/
theorem tail_v4 (c : Dev nD) :
    (Pipeline.afterTail₀ cfgs (dats m) 0 (V0 m) [hostOps1] c main_v4 : S16x512x12x256.Idx → EReal)
      = shapeCast S16x512x12x256 (arrG (V m c main_v0) (V m c main_v1) (V m c main_v2))
          shapeCasts_S16x512x3072_S16x512x12x256 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = arrG (V m c main_v0) (V m c main_v1) (V m c main_v2) :=
    (Pipeline.withArrays_arr spec0 launch0.win.arr_inj c _ _ 3).trans (final m c)
  exact congrArg (fun X : S16x512x3072.Idx → EReal =>
    shapeCast S16x512x12x256 X shapeCasts_S16x512x3072_S16x512x12x256) e

/-- The program's result after the run is the layer over the whole arrays, in the first arrangement. -/
theorem result_eq (c : Dev nD) :
    (Pipeline.afterTail₀ cfgs (dats m) 0 (V0 m) [hostOps1] c main_v4 : S16x512x12x256.Idx → EReal)
      = Cert.Gcn.arrK (m ((c.tc : Thread nD τ).loc main_arg0)) (m ((c.tc : Thread nD τ).loc main_arg1))
          (m ((c.tc : Thread nD τ).loc main_arg2)) := by
  rw [tail_v4]
  funext i
  obtain ⟨b, n, t, h, rfl⟩ : ∃ (b : Fin 16) (n : Fin 512) (t : Fin 12) (h : Fin 256), i = ix4 b n t h :=
    ⟨i 0, i 1, i 2, i 3, eq_ix4 i⟩
  rw [Cert.Gcn.arrK_apply]
  refine (shapeCast_apply _ _ (ix4 b n t h) (ix3 b n ⟨256 * t.val + h.val, by omega⟩) ?_).trans ?_
  · rw [Shape.rowMajor_val_three, Shape.rowMajor_val_four]
    show (b.val * 512 + n.val) * 3072 + (256 * t.val + h.val) = ((b.val * 512 + n.val) * 12 + t.val) * 256 + h.val
    omega
  rw [arrG_at _ _ _ b t n h _ rfl rfl rfl]
  have hs : rowSlice (V m c main_v0) b t = Cert.Gcn.sliceAt (m ((c.tc : Thread nD τ).loc main_arg0)) b t :=
    funext fun n' => funext fun d => V0_apply m c b n' t d
  have hw : (fun d h' => (V m c main_v1 : S256x256.Idx → EReal) (ix2 d h'))
      = Cert.Gcn.mat (m ((c.tc : Thread nD τ).loc main_arg1)) := by
    rw [V_main_v1]; rfl
  have hb : (fun h' => (V m c main_v2 : S1x256.Idx → EReal) (ix2 (0 : Fin 1) h'))
      = Cert.Gcn.vec (m ((c.tc : Thread nD τ).loc main_arg2)) := funext fun h' => V2_apply m c h'
  rw [hs, hw, hb]

/-- Every weakly fair execution of the idealized kernel program terminates with its result at `arrK` of the argument
    arrays, the arguments unchanged. -/
theorem run :
    θ_run (defs (F := Ideal)) (onTc (τ := τ) (main (F := Ideal))) ⟨m, fun _ => 0, ρ⟩ fun r => ∀ c : Dev nD,
      r.2.mem ((c.tc : Thread nD τ).loc main_v4)
          = Cert.Gcn.arrK (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Arr

end
-- ==== Proof.RefOps.lean ====
/- A table, nothing proved: the reference program's 375 host operations in program order, each line copied
   unchanged from the generated run module's one operation list, as shorter lists cut two ways. `win0` … `win5`
   are the six windows the printed program is cut in. `pre` is the scale (the constant 256 and its square root),
   `step0` … `step11` are the twelve time steps (30 operations each: the slice, the similarities, the softmax,
   the two products, the bias and the clip), `tail` stacks the twelve results along the time axis. -/
import proofs.«152771_g54185307406482_cont_9to1_m_905_3_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Window 0 of the printed program: operations 0 to 69. -/
abbrev win0 : List (HloOp τ sig (Elt F)) :=
  [ nullary main_cst (constant S_ .f32 0x43800000#32),
    unary main_cst main_v0 (Host.sqrt : (⟨S_, .f32⟩ : BufTy).Contents (Elt F) → (⟨S_, .f32⟩ : BufTy).Contents (Elt F)),
    unary main_arg0 main_v1 ((extractStridedSlice S16x512x1x256 ![0, 0, 0, 0] · slices_S16x512x12x256_S16x512x1x256_0_0_0_0) : (⟨S16x512x12x256, .f32⟩ : BufTy).Contents (Elt F) → (⟨S16x512x1x256, .f32⟩ : BufTy).Contents (Elt F)),
    reshape main_v1 main_v2 rfl shapeCasts_S16x512x1x256_S16x512x256,
    binary main_v2 main_v2 main_v3 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v4 (broadcastInDim S16x512x512 ![] bcast_S_S16x512x512 : (⟨S_, .f32⟩ : BufTy).Contents (Elt F) → (⟨S16x512x512, .f32⟩ : BufTy).Contents (Elt F)),
    binary main_v3 main_v4 main_v5 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16x512x512, .f32⟩) main_call0_v0) (broadcastInDim S16x512x512 ![] bcast_S_S16x512x512),
    TRef.binary (TRef.of (T := ⟨S16x512x512, .f32⟩) main_v5) (TRef.of (T := ⟨S16x512x512, .f32⟩) main_call0_v0) (TRef.of (T := ⟨S16x512x512, .f32⟩) main_v6) maximumf,
    nullary main_cst_0 (constant S_ .f32 0xFF800000#32),
    binary main_v6 main_cst_0 main_v7 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_1 (constant S_ .f32 0xFF800000#32),
    unary main_cst_1 main_v8 (broadcastInDim S16x512 ![] bcast_S_S16x512 : (⟨S_, .f32⟩ : BufTy).Contents (Elt F) → (⟨S16x512, .f32⟩ : BufTy).Contents (Elt F)),
    binary main_v8 main_v7 main_v9 (maximumf : (⟨S16x512, .f32⟩ : BufTy).Contents (Elt F) → (⟨S16x512, .f32⟩ : BufTy).Contents (Elt F) → (⟨S16x512, .f32⟩ : BufTy).Contents (Elt F)),
    unary main_v9 main_v10 (broadcastInDim S16x512x1 ![0, 1] bcast_S16x512_S16x512x1_0_1 : (⟨S16x512, .f32⟩ : BufTy).Contents (Elt F) → (⟨S16x512x1, .f32⟩ : BufTy).Contents (Elt F)),
    unary main_v10 main_v11 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v6 main_v11 main_v12 (subf : (⟨S16x512x512, .f32⟩ : BufTy).Contents (Elt F) → (⟨S16x512x512, .f32⟩ : BufTy).Contents (Elt F) → (⟨S16x512x512, .f32⟩ : BufTy).Contents (Elt F)),
    unary main_v12 main_v13 (Host.exp : (⟨S16x512x512, .f32⟩ : BufTy).Contents (Elt F) → (⟨S16x512x512, .f32⟩ : BufTy).Contents (Elt F)),
    nullary main_cst_2 (constant S_ .f32 0x00000000#32),
    binary main_v13 main_cst_2 main_v14 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v14 main_v15 (broadcastInDim S16x512x1 ![0, 1] bcast_S16x512_S16x512x1_0_1 : (⟨S16x512, .f32⟩ : BufTy).Contents (Elt F) → (⟨S16x512x1, .f32⟩ : BufTy).Contents (Elt F)),
    unary main_v15 main_v16 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v13 main_v16 main_v17 (Host.divf : (⟨S16x512x512, .f32⟩ : BufTy).Contents (Elt F) → (⟨S16x512x512, .f32⟩ : BufTy).Contents (Elt F) → (⟨S16x512x512, .f32⟩ : BufTy).Contents (Elt F)),
    binary main_v17 main_v2 main_v18 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v18 main_arg1 main_v19 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v20 (broadcastInDim S1x1x256 ![2] bcast_S256_S1x1x256_2 : (⟨S256, .f32⟩ : BufTy).Contents (Elt F) → (⟨S1x1x256, .f32⟩ : BufTy).Contents (Elt F)),
    unary main_v20 main_v21 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v19 main_v21 main_v22 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16x512x256, .f32⟩) main_call1_v0) (broadcastInDim S16x512x256 ![] bcast_S_S16x512x256),
    TRef.binary (TRef.of (T := ⟨S16x512x256, .f32⟩) main_v22) (TRef.of (T := ⟨S16x512x256, .f32⟩) main_call1_v0) (TRef.of (T := ⟨S16x512x256, .f32⟩) main_v23) maximumf,
    unary main_arg0 main_v24 ((extractStridedSlice S16x512x1x256 ![0, 0, 1, 0] · slices_S16x512x12x256_S16x512x1x256_0_0_1_0) : (⟨S16x512x12x256, .f32⟩ : BufTy).Contents (Elt F) → (⟨S16x512x1x256, .f32⟩ : BufTy).Contents (Elt F)),
    reshape main_v24 main_v25 rfl shapeCasts_S16x512x1x256_S16x512x256,
    binary main_v25 main_v25 main_v26 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v27 (broadcastInDim S16x512x512 ![] bcast_S_S16x512x512 : (⟨S_, .f32⟩ : BufTy).Contents (Elt F) → (⟨S16x512x512, .f32⟩ : BufTy).Contents (Elt F)),
    binary main_v26 main_v27 main_v28 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16x512x512, .f32⟩) main_call2_v0) (broadcastInDim S16x512x512 ![] bcast_S_S16x512x512),
    TRef.binary (TRef.of (T := ⟨S16x512x512, .f32⟩) main_v28) (TRef.of (T := ⟨S16x512x512, .f32⟩) main_call2_v0) (TRef.of (T := ⟨S16x512x512, .f32⟩) main_v29) maximumf,
    nullary main_cst_3 (constant S_ .f32 0xFF800000#32),
    binary main_v29 main_cst_3 main_v30 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_4 (constant S_ .f32 0xFF800000#32),
    unary main_cst_4 main_v31 (broadcastInDim S16x512 ![] bcast_S_S16x512 : (⟨S_, .f32⟩ : BufTy).Contents (Elt F) → (⟨S16x512, .f32⟩ : BufTy).Contents (Elt F)),
    binary main_v31 main_v30 main_v32 (maximumf : (⟨S16x512, .f32⟩ : BufTy).Contents (Elt F) → (⟨S16x512, .f32⟩ : BufTy).Contents (Elt F) → (⟨S16x512, .f32⟩ : BufTy).Contents (Elt F)),
    unary main_v32 main_v33 (broadcastInDim S16x512x1 ![0, 1] bcast_S16x512_S16x512x1_0_1 : (⟨S16x512, .f32⟩ : BufTy).Contents (Elt F) → (⟨S16x512x1, .f32⟩ : BufTy).Contents (Elt F)),
    unary main_v33 main_v34 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v29 main_v34 main_v35 (subf : (⟨S16x512x512, .f32⟩ : BufTy).Contents (Elt F) → (⟨S16x512x512, .f32⟩ : BufTy).Contents (Elt F) → (⟨S16x512x512, .f32⟩ : BufTy).Contents (Elt F)),
    unary main_v35 main_v36 (Host.exp : (⟨S16x512x512, .f32⟩ : BufTy).Contents (Elt F) → (⟨S16x512x512, .f32⟩ : BufTy).Contents (Elt F)),
    nullary main_cst_5 (constant S_ .f32 0x00000000#32),
    binary main_v36 main_cst_5 main_v37 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v37 main_v38 (broadcastInDim S16x512x1 ![0, 1] bcast_S16x512_S16x512x1_0_1 : (⟨S16x512, .f32⟩ : BufTy).Contents (Elt F) → (⟨S16x512x1, .f32⟩ : BufTy).Contents (Elt F)),
    unary main_v38 main_v39 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v36 main_v39 main_v40 (Host.divf : (⟨S16x512x512, .f32⟩ : BufTy).Contents (Elt F) → (⟨S16x512x512, .f32⟩ : BufTy).Contents (Elt F) → (⟨S16x512x512, .f32⟩ : BufTy).Contents (Elt F)),
    binary main_v40 main_v25 main_v41 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v41 main_arg1 main_v42 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v43 (broadcastInDim S1x1x256 ![2] bcast_S256_S1x1x256_2 : (⟨S256, .f32⟩ : BufTy).Contents (Elt F) → (⟨S1x1x256, .f32⟩ : BufTy).Contents (Elt F)),
    unary main_v43 main_v44 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v42 main_v44 main_v45 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S16x512x256, .f32⟩) main_call3_v0) (broadcastInDim S16x512x256 ![] bcast_S_S16x512x256),
    TRef.binary (TRef.of (T := ⟨S16x512x256, .f32⟩) main_v45) (TRef.of (T := ⟨S16x512x256, .f32⟩) main_call3_v0) (TRef.of (T := ⟨S16x512x256, .f32⟩) main_v46) maximumf,
    unary main_arg0 main_v47 ((extractStridedSlice S16x512x1x256 ![0, 0, 2, 0] · slices_S16x512x12x256_S16x512x1x256_0_0_2_0) : (⟨S16x512x12x256, .f32⟩ : BufTy).Contents (Elt F) → (⟨S16x512x1x256, .f32⟩ : BufTy).Contents (Elt F)),
    reshape main_v47 main_v48 rfl shapeCasts_S16x512x1x256_S16x512x256,
    binary main_v48 main_v48 main_v49 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v50 (broadcastInDim S16x512x512 ![] bcast_S_S16x512x512 : (⟨S_, .f32⟩ : BufTy).Contents (Elt F) → (⟨S16x512x512, .f32⟩ : BufTy).Contents (Elt F)),
    binary main_v49 main_v50 main_v51 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S16x512x512, .f32⟩) main_call4_v0) (broadcastInDim S16x512x512 ![] bcast_S_S16x512x512),
    TRef.binary (TRef.of (T := ⟨S16x512x512, .f32⟩) main_v51) (TRef.of (T := ⟨S16x512x512, .f32⟩) main_call4_v0) (TRef.of (T := ⟨S16x512x512, .f32⟩) main_v52) maximumf ]

/-- Window 1 of the printed program: operations 70 to 137. -/
abbrev win1 : List (HloOp τ sig (Elt F)) :=
  [ nullary main_cst_6 (constant S_ .f32 0xFF800000#32),
    binary main_v52 main_cst_6 main_v53 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_7 (constant S_ .f32 0xFF800000#32),
    unary main_cst_7 main_v54 (broadcastInDim S16x512 ![] bcast_S_S16x512 : (⟨S_, .f32⟩ : BufTy).Contents (Elt F) → (⟨S16x512, .f32⟩ : BufTy).Contents (Elt F)),
    binary main_v54 main_v53 main_v55 (maximumf : (⟨S16x512, .f32⟩ : BufTy).Contents (Elt F) → (⟨S16x512, .f32⟩ : BufTy).Contents (Elt F) → (⟨S16x512, .f32⟩ : BufTy).Contents (Elt F)),
    unary main_v55 main_v56 (broadcastInDim S16x512x1 ![0, 1] bcast_S16x512_S16x512x1_0_1 : (⟨S16x512, .f32⟩ : BufTy).Contents (Elt F) → (⟨S16x512x1, .f32⟩ : BufTy).Contents (Elt F)),
    unary main_v56 main_v57 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v52 main_v57 main_v58 (subf : (⟨S16x512x512, .f32⟩ : BufTy).Contents (Elt F) → (⟨S16x512x512, .f32⟩ : BufTy).Contents (Elt F) → (⟨S16x512x512, .f32⟩ : BufTy).Contents (Elt F)),
    unary main_v58 main_v59 (Host.exp : (⟨S16x512x512, .f32⟩ : BufTy).Contents (Elt F) → (⟨S16x512x512, .f32⟩ : BufTy).Contents (Elt F)),
    nullary main_cst_8 (constant S_ .f32 0x00000000#32),
    binary main_v59 main_cst_8 main_v60 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v60 main_v61 (broadcastInDim S16x512x1 ![0, 1] bcast_S16x512_S16x512x1_0_1 : (⟨S16x512, .f32⟩ : BufTy).Contents (Elt F) → (⟨S16x512x1, .f32⟩ : BufTy).Contents (Elt F)),
    unary main_v61 main_v62 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v59 main_v62 main_v63 (Host.divf : (⟨S16x512x512, .f32⟩ : BufTy).Contents (Elt F) → (⟨S16x512x512, .f32⟩ : BufTy).Contents (Elt F) → (⟨S16x512x512, .f32⟩ : BufTy).Contents (Elt F)),
    binary main_v63 main_v48 main_v64 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v64 main_arg1 main_v65 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v66 (broadcastInDim S1x1x256 ![2] bcast_S256_S1x1x256_2 : (⟨S256, .f32⟩ : BufTy).Contents (Elt F) → (⟨S1x1x256, .f32⟩ : BufTy).Contents (Elt F)),
    unary main_v66 main_v67 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v65 main_v67 main_v68 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S16x512x256, .f32⟩) main_call5_v0) (broadcastInDim S16x512x256 ![] bcast_S_S16x512x256),
    TRef.binary (TRef.of (T := ⟨S16x512x256, .f32⟩) main_v68) (TRef.of (T := ⟨S16x512x256, .f32⟩) main_call5_v0) (TRef.of (T := ⟨S16x512x256, .f32⟩) main_v69) maximumf,
    unary main_arg0 main_v70 ((extractStridedSlice S16x512x1x256 ![0, 0, 3, 0] · slices_S16x512x12x256_S16x512x1x256_0_0_3_0) : (⟨S16x512x12x256, .f32⟩ : BufTy).Contents (Elt F) → (⟨S16x512x1x256, .f32⟩ : BufTy).Contents (Elt F)),
    reshape main_v70 main_v71 rfl shapeCasts_S16x512x1x256_S16x512x256,
    binary main_v71 main_v71 main_v72 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v73 (broadcastInDim S16x512x512 ![] bcast_S_S16x512x512 : (⟨S_, .f32⟩ : BufTy).Contents (Elt F) → (⟨S16x512x512, .f32⟩ : BufTy).Contents (Elt F)),
    binary main_v72 main_v73 main_v74 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S16x512x512, .f32⟩) main_call6_v0) (broadcastInDim S16x512x512 ![] bcast_S_S16x512x512),
    TRef.binary (TRef.of (T := ⟨S16x512x512, .f32⟩) main_v74) (TRef.of (T := ⟨S16x512x512, .f32⟩) main_call6_v0) (TRef.of (T := ⟨S16x512x512, .f32⟩) main_v75) maximumf,
    nullary main_cst_9 (constant S_ .f32 0xFF800000#32),
    binary main_v75 main_cst_9 main_v76 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_10 (constant S_ .f32 0xFF800000#32),
    unary main_cst_10 main_v77 (broadcastInDim S16x512 ![] bcast_S_S16x512 : (⟨S_, .f32⟩ : BufTy).Contents (Elt F) → (⟨S16x512, .f32⟩ : BufTy).Contents (Elt F)),
    binary main_v77 main_v76 main_v78 (maximumf : (⟨S16x512, .f32⟩ : BufTy).Contents (Elt F) → (⟨S16x512, .f32⟩ : BufTy).Contents (Elt F) → (⟨S16x512, .f32⟩ : BufTy).Contents (Elt F)),
    unary main_v78 main_v79 (broadcastInDim S16x512x1 ![0, 1] bcast_S16x512_S16x512x1_0_1 : (⟨S16x512, .f32⟩ : BufTy).Contents (Elt F) → (⟨S16x512x1, .f32⟩ : BufTy).Contents (Elt F)),
    unary main_v79 main_v80 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v75 main_v80 main_v81 (subf : (⟨S16x512x512, .f32⟩ : BufTy).Contents (Elt F) → (⟨S16x512x512, .f32⟩ : BufTy).Contents (Elt F) → (⟨S16x512x512, .f32⟩ : BufTy).Contents (Elt F)),
    unary main_v81 main_v82 (Host.exp : (⟨S16x512x512, .f32⟩ : BufTy).Contents (Elt F) → (⟨S16x512x512, .f32⟩ : BufTy).Contents (Elt F)),
    nullary main_cst_11 (constant S_ .f32 0x00000000#32),
    binary main_v82 main_cst_11 main_v83 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v83 main_v84 (broadcastInDim S16x512x1 ![0, 1] bcast_S16x512_S16x512x1_0_1 : (⟨S16x512, .f32⟩ : BufTy).Contents (Elt F) → (⟨S16x512x1, .f32⟩ : BufTy).Contents (Elt F)),
    unary main_v84 main_v85 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v82 main_v85 main_v86 (Host.divf : (⟨S16x512x512, .f32⟩ : BufTy).Contents (Elt F) → (⟨S16x512x512, .f32⟩ : BufTy).Contents (Elt F) → (⟨S16x512x512, .f32⟩ : BufTy).Contents (Elt F)),
    binary main_v86 main_v71 main_v87 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v87 main_arg1 main_v88 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v89 (broadcastInDim S1x1x256 ![2] bcast_S256_S1x1x256_2 : (⟨S256, .f32⟩ : BufTy).Contents (Elt F) → (⟨S1x1x256, .f32⟩ : BufTy).Contents (Elt F)),
    unary main_v89 main_v90 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v88 main_v90 main_v91 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S16x512x256, .f32⟩) main_call7_v0) (broadcastInDim S16x512x256 ![] bcast_S_S16x512x256),
    TRef.binary (TRef.of (T := ⟨S16x512x256, .f32⟩) main_v91) (TRef.of (T := ⟨S16x512x256, .f32⟩) main_call7_v0) (TRef.of (T := ⟨S16x512x256, .f32⟩) main_v92) maximumf,
    unary main_arg0 main_v93 ((extractStridedSlice S16x512x1x256 ![0, 0, 4, 0] · slices_S16x512x12x256_S16x512x1x256_0_0_4_0) : (⟨S16x512x12x256, .f32⟩ : BufTy).Contents (Elt F) → (⟨S16x512x1x256, .f32⟩ : BufTy).Contents (Elt F)),
    reshape main_v93 main_v94 rfl shapeCasts_S16x512x1x256_S16x512x256,
    binary main_v94 main_v94 main_v95 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v96 (broadcastInDim S16x512x512 ![] bcast_S_S16x512x512 : (⟨S_, .f32⟩ : BufTy).Contents (Elt F) → (⟨S16x512x512, .f32⟩ : BufTy).Contents (Elt F)),
    binary main_v95 main_v96 main_v97 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S16x512x512, .f32⟩) main_call8_v0) (broadcastInDim S16x512x512 ![] bcast_S_S16x512x512),
    TRef.binary (TRef.of (T := ⟨S16x512x512, .f32⟩) main_v97) (TRef.of (T := ⟨S16x512x512, .f32⟩) main_call8_v0) (TRef.of (T := ⟨S16x512x512, .f32⟩) main_v98) maximumf,
    nullary main_cst_12 (constant S_ .f32 0xFF800000#32),
    binary main_v98 main_cst_12 main_v99 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_13 (constant S_ .f32 0xFF800000#32),
    unary main_cst_13 main_v100 (broadcastInDim S16x512 ![] bcast_S_S16x512 : (⟨S_, .f32⟩ : BufTy).Contents (Elt F) → (⟨S16x512, .f32⟩ : BufTy).Contents (Elt F)),
    binary main_v100 main_v99 main_v101 (maximumf : (⟨S16x512, .f32⟩ : BufTy).Contents (Elt F) → (⟨S16x512, .f32⟩ : BufTy).Contents (Elt F) → (⟨S16x512, .f32⟩ : BufTy).Contents (Elt F)),
    unary main_v101 main_v102 (broadcastInDim S16x512x1 ![0, 1] bcast_S16x512_S16x512x1_0_1 : (⟨S16x512, .f32⟩ : BufTy).Contents (Elt F) → (⟨S16x512x1, .f32⟩ : BufTy).Contents (Elt F)),
    unary main_v102 main_v103 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v98 main_v103 main_v104 (subf : (⟨S16x512x512, .f32⟩ : BufTy).Contents (Elt F) → (⟨S16x512x512, .f32⟩ : BufTy).Contents (Elt F) → (⟨S16x512x512, .f32⟩ : BufTy).Contents (Elt F)) ]

/-- Window 2 of the printed program: operations 138 to 205. -/
abbrev win2 : List (HloOp τ sig (Elt F)) :=
  [ unary main_v104 main_v105 (Host.exp : (⟨S16x512x512, .f32⟩ : BufTy).Contents (Elt F) → (⟨S16x512x512, .f32⟩ : BufTy).Contents (Elt F)),
    nullary main_cst_14 (constant S_ .f32 0x00000000#32),
    binary main_v105 main_cst_14 main_v106 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v106 main_v107 (broadcastInDim S16x512x1 ![0, 1] bcast_S16x512_S16x512x1_0_1 : (⟨S16x512, .f32⟩ : BufTy).Contents (Elt F) → (⟨S16x512x1, .f32⟩ : BufTy).Contents (Elt F)),
    unary main_v107 main_v108 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v105 main_v108 main_v109 (Host.divf : (⟨S16x512x512, .f32⟩ : BufTy).Contents (Elt F) → (⟨S16x512x512, .f32⟩ : BufTy).Contents (Elt F) → (⟨S16x512x512, .f32⟩ : BufTy).Contents (Elt F)),
    binary main_v109 main_v94 main_v110 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v110 main_arg1 main_v111 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v112 (broadcastInDim S1x1x256 ![2] bcast_S256_S1x1x256_2 : (⟨S256, .f32⟩ : BufTy).Contents (Elt F) → (⟨S1x1x256, .f32⟩ : BufTy).Contents (Elt F)),
    unary main_v112 main_v113 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v111 main_v113 main_v114 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S16x512x256, .f32⟩) main_call9_v0) (broadcastInDim S16x512x256 ![] bcast_S_S16x512x256),
    TRef.binary (TRef.of (T := ⟨S16x512x256, .f32⟩) main_v114) (TRef.of (T := ⟨S16x512x256, .f32⟩) main_call9_v0) (TRef.of (T := ⟨S16x512x256, .f32⟩) main_v115) maximumf,
    unary main_arg0 main_v116 ((extractStridedSlice S16x512x1x256 ![0, 0, 5, 0] · slices_S16x512x12x256_S16x512x1x256_0_0_5_0) : (⟨S16x512x12x256, .f32⟩ : BufTy).Contents (Elt F) → (⟨S16x512x1x256, .f32⟩ : BufTy).Contents (Elt F)),
    reshape main_v116 main_v117 rfl shapeCasts_S16x512x1x256_S16x512x256,
    binary main_v117 main_v117 main_v118 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v119 (broadcastInDim S16x512x512 ![] bcast_S_S16x512x512 : (⟨S_, .f32⟩ : BufTy).Contents (Elt F) → (⟨S16x512x512, .f32⟩ : BufTy).Contents (Elt F)),
    binary main_v118 main_v119 main_v120 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S16x512x512, .f32⟩) main_call10_v0) (broadcastInDim S16x512x512 ![] bcast_S_S16x512x512),
    TRef.binary (TRef.of (T := ⟨S16x512x512, .f32⟩) main_v120) (TRef.of (T := ⟨S16x512x512, .f32⟩) main_call10_v0) (TRef.of (T := ⟨S16x512x512, .f32⟩) main_v121) maximumf,
    nullary main_cst_15 (constant S_ .f32 0xFF800000#32),
    binary main_v121 main_cst_15 main_v122 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_16 (constant S_ .f32 0xFF800000#32),
    unary main_cst_16 main_v123 (broadcastInDim S16x512 ![] bcast_S_S16x512 : (⟨S_, .f32⟩ : BufTy).Contents (Elt F) → (⟨S16x512, .f32⟩ : BufTy).Contents (Elt F)),
    binary main_v123 main_v122 main_v124 (maximumf : (⟨S16x512, .f32⟩ : BufTy).Contents (Elt F) → (⟨S16x512, .f32⟩ : BufTy).Contents (Elt F) → (⟨S16x512, .f32⟩ : BufTy).Contents (Elt F)),
    unary main_v124 main_v125 (broadcastInDim S16x512x1 ![0, 1] bcast_S16x512_S16x512x1_0_1 : (⟨S16x512, .f32⟩ : BufTy).Contents (Elt F) → (⟨S16x512x1, .f32⟩ : BufTy).Contents (Elt F)),
    unary main_v125 main_v126 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v121 main_v126 main_v127 (subf : (⟨S16x512x512, .f32⟩ : BufTy).Contents (Elt F) → (⟨S16x512x512, .f32⟩ : BufTy).Contents (Elt F) → (⟨S16x512x512, .f32⟩ : BufTy).Contents (Elt F)),
    unary main_v127 main_v128 (Host.exp : (⟨S16x512x512, .f32⟩ : BufTy).Contents (Elt F) → (⟨S16x512x512, .f32⟩ : BufTy).Contents (Elt F)),
    nullary main_cst_17 (constant S_ .f32 0x00000000#32),
    binary main_v128 main_cst_17 main_v129 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v129 main_v130 (broadcastInDim S16x512x1 ![0, 1] bcast_S16x512_S16x512x1_0_1 : (⟨S16x512, .f32⟩ : BufTy).Contents (Elt F) → (⟨S16x512x1, .f32⟩ : BufTy).Contents (Elt F)),
    unary main_v130 main_v131 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v128 main_v131 main_v132 (Host.divf : (⟨S16x512x512, .f32⟩ : BufTy).Contents (Elt F) → (⟨S16x512x512, .f32⟩ : BufTy).Contents (Elt F) → (⟨S16x512x512, .f32⟩ : BufTy).Contents (Elt F)),
    binary main_v132 main_v117 main_v133 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v133 main_arg1 main_v134 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v135 (broadcastInDim S1x1x256 ![2] bcast_S256_S1x1x256_2 : (⟨S256, .f32⟩ : BufTy).Contents (Elt F) → (⟨S1x1x256, .f32⟩ : BufTy).Contents (Elt F)),
    unary main_v135 main_v136 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v134 main_v136 main_v137 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S16x512x256, .f32⟩) main_call11_v0) (broadcastInDim S16x512x256 ![] bcast_S_S16x512x256),
    TRef.binary (TRef.of (T := ⟨S16x512x256, .f32⟩) main_v137) (TRef.of (T := ⟨S16x512x256, .f32⟩) main_call11_v0) (TRef.of (T := ⟨S16x512x256, .f32⟩) main_v138) maximumf,
    unary main_arg0 main_v139 ((extractStridedSlice S16x512x1x256 ![0, 0, 6, 0] · slices_S16x512x12x256_S16x512x1x256_0_0_6_0) : (⟨S16x512x12x256, .f32⟩ : BufTy).Contents (Elt F) → (⟨S16x512x1x256, .f32⟩ : BufTy).Contents (Elt F)),
    reshape main_v139 main_v140 rfl shapeCasts_S16x512x1x256_S16x512x256,
    binary main_v140 main_v140 main_v141 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v142 (broadcastInDim S16x512x512 ![] bcast_S_S16x512x512 : (⟨S_, .f32⟩ : BufTy).Contents (Elt F) → (⟨S16x512x512, .f32⟩ : BufTy).Contents (Elt F)),
    binary main_v141 main_v142 main_v143 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S16x512x512, .f32⟩) main_call12_v0) (broadcastInDim S16x512x512 ![] bcast_S_S16x512x512),
    TRef.binary (TRef.of (T := ⟨S16x512x512, .f32⟩) main_v143) (TRef.of (T := ⟨S16x512x512, .f32⟩) main_call12_v0) (TRef.of (T := ⟨S16x512x512, .f32⟩) main_v144) maximumf,
    nullary main_cst_18 (constant S_ .f32 0xFF800000#32),
    binary main_v144 main_cst_18 main_v145 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_19 (constant S_ .f32 0xFF800000#32),
    unary main_cst_19 main_v146 (broadcastInDim S16x512 ![] bcast_S_S16x512 : (⟨S_, .f32⟩ : BufTy).Contents (Elt F) → (⟨S16x512, .f32⟩ : BufTy).Contents (Elt F)),
    binary main_v146 main_v145 main_v147 (maximumf : (⟨S16x512, .f32⟩ : BufTy).Contents (Elt F) → (⟨S16x512, .f32⟩ : BufTy).Contents (Elt F) → (⟨S16x512, .f32⟩ : BufTy).Contents (Elt F)),
    unary main_v147 main_v148 (broadcastInDim S16x512x1 ![0, 1] bcast_S16x512_S16x512x1_0_1 : (⟨S16x512, .f32⟩ : BufTy).Contents (Elt F) → (⟨S16x512x1, .f32⟩ : BufTy).Contents (Elt F)),
    unary main_v148 main_v149 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v144 main_v149 main_v150 (subf : (⟨S16x512x512, .f32⟩ : BufTy).Contents (Elt F) → (⟨S16x512x512, .f32⟩ : BufTy).Contents (Elt F) → (⟨S16x512x512, .f32⟩ : BufTy).Contents (Elt F)),
    unary main_v150 main_v151 (Host.exp : (⟨S16x512x512, .f32⟩ : BufTy).Contents (Elt F) → (⟨S16x512x512, .f32⟩ : BufTy).Contents (Elt F)),
    nullary main_cst_20 (constant S_ .f32 0x00000000#32),
    binary main_v151 main_cst_20 main_v152 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v152 main_v153 (broadcastInDim S16x512x1 ![0, 1] bcast_S16x512_S16x512x1_0_1 : (⟨S16x512, .f32⟩ : BufTy).Contents (Elt F) → (⟨S16x512x1, .f32⟩ : BufTy).Contents (Elt F)),
    unary main_v153 main_v154 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v151 main_v154 main_v155 (Host.divf : (⟨S16x512x512, .f32⟩ : BufTy).Contents (Elt F) → (⟨S16x512x512, .f32⟩ : BufTy).Contents (Elt F) → (⟨S16x512x512, .f32⟩ : BufTy).Contents (Elt F)),
    binary main_v155 main_v140 main_v156 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v156 main_arg1 main_v157 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)) ]

/-- Window 3 of the printed program: operations 206 to 275. -/
abbrev win3 : List (HloOp τ sig (Elt F)) :=
  [ unary main_arg2 main_v158 (broadcastInDim S1x1x256 ![2] bcast_S256_S1x1x256_2 : (⟨S256, .f32⟩ : BufTy).Contents (Elt F) → (⟨S1x1x256, .f32⟩ : BufTy).Contents (Elt F)),
    unary main_v158 main_v159 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v157 main_v159 main_v160 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S16x512x256, .f32⟩) main_call13_v0) (broadcastInDim S16x512x256 ![] bcast_S_S16x512x256),
    TRef.binary (TRef.of (T := ⟨S16x512x256, .f32⟩) main_v160) (TRef.of (T := ⟨S16x512x256, .f32⟩) main_call13_v0) (TRef.of (T := ⟨S16x512x256, .f32⟩) main_v161) maximumf,
    unary main_arg0 main_v162 ((extractStridedSlice S16x512x1x256 ![0, 0, 7, 0] · slices_S16x512x12x256_S16x512x1x256_0_0_7_0) : (⟨S16x512x12x256, .f32⟩ : BufTy).Contents (Elt F) → (⟨S16x512x1x256, .f32⟩ : BufTy).Contents (Elt F)),
    reshape main_v162 main_v163 rfl shapeCasts_S16x512x1x256_S16x512x256,
    binary main_v163 main_v163 main_v164 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v165 (broadcastInDim S16x512x512 ![] bcast_S_S16x512x512 : (⟨S_, .f32⟩ : BufTy).Contents (Elt F) → (⟨S16x512x512, .f32⟩ : BufTy).Contents (Elt F)),
    binary main_v164 main_v165 main_v166 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S16x512x512, .f32⟩) main_call14_v0) (broadcastInDim S16x512x512 ![] bcast_S_S16x512x512),
    TRef.binary (TRef.of (T := ⟨S16x512x512, .f32⟩) main_v166) (TRef.of (T := ⟨S16x512x512, .f32⟩) main_call14_v0) (TRef.of (T := ⟨S16x512x512, .f32⟩) main_v167) maximumf,
    nullary main_cst_21 (constant S_ .f32 0xFF800000#32),
    binary main_v167 main_cst_21 main_v168 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_22 (constant S_ .f32 0xFF800000#32),
    unary main_cst_22 main_v169 (broadcastInDim S16x512 ![] bcast_S_S16x512 : (⟨S_, .f32⟩ : BufTy).Contents (Elt F) → (⟨S16x512, .f32⟩ : BufTy).Contents (Elt F)),
    binary main_v169 main_v168 main_v170 (maximumf : (⟨S16x512, .f32⟩ : BufTy).Contents (Elt F) → (⟨S16x512, .f32⟩ : BufTy).Contents (Elt F) → (⟨S16x512, .f32⟩ : BufTy).Contents (Elt F)),
    unary main_v170 main_v171 (broadcastInDim S16x512x1 ![0, 1] bcast_S16x512_S16x512x1_0_1 : (⟨S16x512, .f32⟩ : BufTy).Contents (Elt F) → (⟨S16x512x1, .f32⟩ : BufTy).Contents (Elt F)),
    unary main_v171 main_v172 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v167 main_v172 main_v173 (subf : (⟨S16x512x512, .f32⟩ : BufTy).Contents (Elt F) → (⟨S16x512x512, .f32⟩ : BufTy).Contents (Elt F) → (⟨S16x512x512, .f32⟩ : BufTy).Contents (Elt F)),
    unary main_v173 main_v174 (Host.exp : (⟨S16x512x512, .f32⟩ : BufTy).Contents (Elt F) → (⟨S16x512x512, .f32⟩ : BufTy).Contents (Elt F)),
    nullary main_cst_23 (constant S_ .f32 0x00000000#32),
    binary main_v174 main_cst_23 main_v175 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v175 main_v176 (broadcastInDim S16x512x1 ![0, 1] bcast_S16x512_S16x512x1_0_1 : (⟨S16x512, .f32⟩ : BufTy).Contents (Elt F) → (⟨S16x512x1, .f32⟩ : BufTy).Contents (Elt F)),
    unary main_v176 main_v177 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v174 main_v177 main_v178 (Host.divf : (⟨S16x512x512, .f32⟩ : BufTy).Contents (Elt F) → (⟨S16x512x512, .f32⟩ : BufTy).Contents (Elt F) → (⟨S16x512x512, .f32⟩ : BufTy).Contents (Elt F)),
    binary main_v178 main_v163 main_v179 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v179 main_arg1 main_v180 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v181 (broadcastInDim S1x1x256 ![2] bcast_S256_S1x1x256_2 : (⟨S256, .f32⟩ : BufTy).Contents (Elt F) → (⟨S1x1x256, .f32⟩ : BufTy).Contents (Elt F)),
    unary main_v181 main_v182 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v180 main_v182 main_v183 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S16x512x256, .f32⟩) main_call15_v0) (broadcastInDim S16x512x256 ![] bcast_S_S16x512x256),
    TRef.binary (TRef.of (T := ⟨S16x512x256, .f32⟩) main_v183) (TRef.of (T := ⟨S16x512x256, .f32⟩) main_call15_v0) (TRef.of (T := ⟨S16x512x256, .f32⟩) main_v184) maximumf,
    unary main_arg0 main_v185 ((extractStridedSlice S16x512x1x256 ![0, 0, 8, 0] · slices_S16x512x12x256_S16x512x1x256_0_0_8_0) : (⟨S16x512x12x256, .f32⟩ : BufTy).Contents (Elt F) → (⟨S16x512x1x256, .f32⟩ : BufTy).Contents (Elt F)),
    reshape main_v185 main_v186 rfl shapeCasts_S16x512x1x256_S16x512x256,
    binary main_v186 main_v186 main_v187 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v188 (broadcastInDim S16x512x512 ![] bcast_S_S16x512x512 : (⟨S_, .f32⟩ : BufTy).Contents (Elt F) → (⟨S16x512x512, .f32⟩ : BufTy).Contents (Elt F)),
    binary main_v187 main_v188 main_v189 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S16x512x512, .f32⟩) main_call16_v0) (broadcastInDim S16x512x512 ![] bcast_S_S16x512x512),
    TRef.binary (TRef.of (T := ⟨S16x512x512, .f32⟩) main_v189) (TRef.of (T := ⟨S16x512x512, .f32⟩) main_call16_v0) (TRef.of (T := ⟨S16x512x512, .f32⟩) main_v190) maximumf,
    nullary main_cst_24 (constant S_ .f32 0xFF800000#32),
    binary main_v190 main_cst_24 main_v191 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_25 (constant S_ .f32 0xFF800000#32),
    unary main_cst_25 main_v192 (broadcastInDim S16x512 ![] bcast_S_S16x512 : (⟨S_, .f32⟩ : BufTy).Contents (Elt F) → (⟨S16x512, .f32⟩ : BufTy).Contents (Elt F)),
    binary main_v192 main_v191 main_v193 (maximumf : (⟨S16x512, .f32⟩ : BufTy).Contents (Elt F) → (⟨S16x512, .f32⟩ : BufTy).Contents (Elt F) → (⟨S16x512, .f32⟩ : BufTy).Contents (Elt F)),
    unary main_v193 main_v194 (broadcastInDim S16x512x1 ![0, 1] bcast_S16x512_S16x512x1_0_1 : (⟨S16x512, .f32⟩ : BufTy).Contents (Elt F) → (⟨S16x512x1, .f32⟩ : BufTy).Contents (Elt F)),
    unary main_v194 main_v195 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v190 main_v195 main_v196 (subf : (⟨S16x512x512, .f32⟩ : BufTy).Contents (Elt F) → (⟨S16x512x512, .f32⟩ : BufTy).Contents (Elt F) → (⟨S16x512x512, .f32⟩ : BufTy).Contents (Elt F)),
    unary main_v196 main_v197 (Host.exp : (⟨S16x512x512, .f32⟩ : BufTy).Contents (Elt F) → (⟨S16x512x512, .f32⟩ : BufTy).Contents (Elt F)),
    nullary main_cst_26 (constant S_ .f32 0x00000000#32),
    binary main_v197 main_cst_26 main_v198 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v198 main_v199 (broadcastInDim S16x512x1 ![0, 1] bcast_S16x512_S16x512x1_0_1 : (⟨S16x512, .f32⟩ : BufTy).Contents (Elt F) → (⟨S16x512x1, .f32⟩ : BufTy).Contents (Elt F)),
    unary main_v199 main_v200 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v197 main_v200 main_v201 (Host.divf : (⟨S16x512x512, .f32⟩ : BufTy).Contents (Elt F) → (⟨S16x512x512, .f32⟩ : BufTy).Contents (Elt F) → (⟨S16x512x512, .f32⟩ : BufTy).Contents (Elt F)),
    binary main_v201 main_v186 main_v202 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v202 main_arg1 main_v203 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v204 (broadcastInDim S1x1x256 ![2] bcast_S256_S1x1x256_2 : (⟨S256, .f32⟩ : BufTy).Contents (Elt F) → (⟨S1x1x256, .f32⟩ : BufTy).Contents (Elt F)),
    unary main_v204 main_v205 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v203 main_v205 main_v206 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S16x512x256, .f32⟩) main_call17_v0) (broadcastInDim S16x512x256 ![] bcast_S_S16x512x256),
    TRef.binary (TRef.of (T := ⟨S16x512x256, .f32⟩) main_v206) (TRef.of (T := ⟨S16x512x256, .f32⟩) main_call17_v0) (TRef.of (T := ⟨S16x512x256, .f32⟩) main_v207) maximumf,
    unary main_arg0 main_v208 ((extractStridedSlice S16x512x1x256 ![0, 0, 9, 0] · slices_S16x512x12x256_S16x512x1x256_0_0_9_0) : (⟨S16x512x12x256, .f32⟩ : BufTy).Contents (Elt F) → (⟨S16x512x1x256, .f32⟩ : BufTy).Contents (Elt F)),
    reshape main_v208 main_v209 rfl shapeCasts_S16x512x1x256_S16x512x256,
    binary main_v209 main_v209 main_v210 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v211 (broadcastInDim S16x512x512 ![] bcast_S_S16x512x512 : (⟨S_, .f32⟩ : BufTy).Contents (Elt F) → (⟨S16x512x512, .f32⟩ : BufTy).Contents (Elt F)) ]

/-- Window 4 of the printed program: operations 276 to 345. -/
abbrev win4 : List (HloOp τ sig (Elt F)) :=
  [ binary main_v210 main_v211 main_v212 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S16x512x512, .f32⟩) main_call18_v0) (broadcastInDim S16x512x512 ![] bcast_S_S16x512x512),
    TRef.binary (TRef.of (T := ⟨S16x512x512, .f32⟩) main_v212) (TRef.of (T := ⟨S16x512x512, .f32⟩) main_call18_v0) (TRef.of (T := ⟨S16x512x512, .f32⟩) main_v213) maximumf,
    nullary main_cst_27 (constant S_ .f32 0xFF800000#32),
    binary main_v213 main_cst_27 main_v214 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_28 (constant S_ .f32 0xFF800000#32),
    unary main_cst_28 main_v215 (broadcastInDim S16x512 ![] bcast_S_S16x512 : (⟨S_, .f32⟩ : BufTy).Contents (Elt F) → (⟨S16x512, .f32⟩ : BufTy).Contents (Elt F)),
    binary main_v215 main_v214 main_v216 (maximumf : (⟨S16x512, .f32⟩ : BufTy).Contents (Elt F) → (⟨S16x512, .f32⟩ : BufTy).Contents (Elt F) → (⟨S16x512, .f32⟩ : BufTy).Contents (Elt F)),
    unary main_v216 main_v217 (broadcastInDim S16x512x1 ![0, 1] bcast_S16x512_S16x512x1_0_1 : (⟨S16x512, .f32⟩ : BufTy).Contents (Elt F) → (⟨S16x512x1, .f32⟩ : BufTy).Contents (Elt F)),
    unary main_v217 main_v218 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v213 main_v218 main_v219 (subf : (⟨S16x512x512, .f32⟩ : BufTy).Contents (Elt F) → (⟨S16x512x512, .f32⟩ : BufTy).Contents (Elt F) → (⟨S16x512x512, .f32⟩ : BufTy).Contents (Elt F)),
    unary main_v219 main_v220 (Host.exp : (⟨S16x512x512, .f32⟩ : BufTy).Contents (Elt F) → (⟨S16x512x512, .f32⟩ : BufTy).Contents (Elt F)),
    nullary main_cst_29 (constant S_ .f32 0x00000000#32),
    binary main_v220 main_cst_29 main_v221 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v221 main_v222 (broadcastInDim S16x512x1 ![0, 1] bcast_S16x512_S16x512x1_0_1 : (⟨S16x512, .f32⟩ : BufTy).Contents (Elt F) → (⟨S16x512x1, .f32⟩ : BufTy).Contents (Elt F)),
    unary main_v222 main_v223 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v220 main_v223 main_v224 (Host.divf : (⟨S16x512x512, .f32⟩ : BufTy).Contents (Elt F) → (⟨S16x512x512, .f32⟩ : BufTy).Contents (Elt F) → (⟨S16x512x512, .f32⟩ : BufTy).Contents (Elt F)),
    binary main_v224 main_v209 main_v225 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v225 main_arg1 main_v226 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v227 (broadcastInDim S1x1x256 ![2] bcast_S256_S1x1x256_2 : (⟨S256, .f32⟩ : BufTy).Contents (Elt F) → (⟨S1x1x256, .f32⟩ : BufTy).Contents (Elt F)),
    unary main_v227 main_v228 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v226 main_v228 main_v229 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call19_cst) (constant S_ .f32 0x00000000#32),
    TRef.unary (TRef.of (T := ⟨S_, .f32⟩) main_call19_cst) (TRef.of (T := ⟨S16x512x256, .f32⟩) main_call19_v0) (broadcastInDim S16x512x256 ![] bcast_S_S16x512x256),
    TRef.binary (TRef.of (T := ⟨S16x512x256, .f32⟩) main_v229) (TRef.of (T := ⟨S16x512x256, .f32⟩) main_call19_v0) (TRef.of (T := ⟨S16x512x256, .f32⟩) main_v230) maximumf,
    unary main_arg0 main_v231 ((extractStridedSlice S16x512x1x256 ![0, 0, 10, 0] · slices_S16x512x12x256_S16x512x1x256_0_0_10_0) : (⟨S16x512x12x256, .f32⟩ : BufTy).Contents (Elt F) → (⟨S16x512x1x256, .f32⟩ : BufTy).Contents (Elt F)),
    reshape main_v231 main_v232 rfl shapeCasts_S16x512x1x256_S16x512x256,
    binary main_v232 main_v232 main_v233 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v234 (broadcastInDim S16x512x512 ![] bcast_S_S16x512x512 : (⟨S_, .f32⟩ : BufTy).Contents (Elt F) → (⟨S16x512x512, .f32⟩ : BufTy).Contents (Elt F)),
    binary main_v233 main_v234 main_v235 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call20_cst) (constant S_ .f32 0x00000000#32),
    TRef.unary (TRef.of (T := ⟨S_, .f32⟩) main_call20_cst) (TRef.of (T := ⟨S16x512x512, .f32⟩) main_call20_v0) (broadcastInDim S16x512x512 ![] bcast_S_S16x512x512),
    TRef.binary (TRef.of (T := ⟨S16x512x512, .f32⟩) main_v235) (TRef.of (T := ⟨S16x512x512, .f32⟩) main_call20_v0) (TRef.of (T := ⟨S16x512x512, .f32⟩) main_v236) maximumf,
    nullary main_cst_30 (constant S_ .f32 0xFF800000#32),
    binary main_v236 main_cst_30 main_v237 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_31 (constant S_ .f32 0xFF800000#32),
    unary main_cst_31 main_v238 (broadcastInDim S16x512 ![] bcast_S_S16x512 : (⟨S_, .f32⟩ : BufTy).Contents (Elt F) → (⟨S16x512, .f32⟩ : BufTy).Contents (Elt F)),
    binary main_v238 main_v237 main_v239 (maximumf : (⟨S16x512, .f32⟩ : BufTy).Contents (Elt F) → (⟨S16x512, .f32⟩ : BufTy).Contents (Elt F) → (⟨S16x512, .f32⟩ : BufTy).Contents (Elt F)),
    unary main_v239 main_v240 (broadcastInDim S16x512x1 ![0, 1] bcast_S16x512_S16x512x1_0_1 : (⟨S16x512, .f32⟩ : BufTy).Contents (Elt F) → (⟨S16x512x1, .f32⟩ : BufTy).Contents (Elt F)),
    unary main_v240 main_v241 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v236 main_v241 main_v242 (subf : (⟨S16x512x512, .f32⟩ : BufTy).Contents (Elt F) → (⟨S16x512x512, .f32⟩ : BufTy).Contents (Elt F) → (⟨S16x512x512, .f32⟩ : BufTy).Contents (Elt F)),
    unary main_v242 main_v243 (Host.exp : (⟨S16x512x512, .f32⟩ : BufTy).Contents (Elt F) → (⟨S16x512x512, .f32⟩ : BufTy).Contents (Elt F)),
    nullary main_cst_32 (constant S_ .f32 0x00000000#32),
    binary main_v243 main_cst_32 main_v244 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v244 main_v245 (broadcastInDim S16x512x1 ![0, 1] bcast_S16x512_S16x512x1_0_1 : (⟨S16x512, .f32⟩ : BufTy).Contents (Elt F) → (⟨S16x512x1, .f32⟩ : BufTy).Contents (Elt F)),
    unary main_v245 main_v246 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v243 main_v246 main_v247 (Host.divf : (⟨S16x512x512, .f32⟩ : BufTy).Contents (Elt F) → (⟨S16x512x512, .f32⟩ : BufTy).Contents (Elt F) → (⟨S16x512x512, .f32⟩ : BufTy).Contents (Elt F)),
    binary main_v247 main_v232 main_v248 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v248 main_arg1 main_v249 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v250 (broadcastInDim S1x1x256 ![2] bcast_S256_S1x1x256_2 : (⟨S256, .f32⟩ : BufTy).Contents (Elt F) → (⟨S1x1x256, .f32⟩ : BufTy).Contents (Elt F)),
    unary main_v250 main_v251 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v249 main_v251 main_v252 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call21_cst) (constant S_ .f32 0x00000000#32),
    TRef.unary (TRef.of (T := ⟨S_, .f32⟩) main_call21_cst) (TRef.of (T := ⟨S16x512x256, .f32⟩) main_call21_v0) (broadcastInDim S16x512x256 ![] bcast_S_S16x512x256),
    TRef.binary (TRef.of (T := ⟨S16x512x256, .f32⟩) main_v252) (TRef.of (T := ⟨S16x512x256, .f32⟩) main_call21_v0) (TRef.of (T := ⟨S16x512x256, .f32⟩) main_v253) maximumf,
    unary main_arg0 main_v254 ((extractStridedSlice S16x512x1x256 ![0, 0, 11, 0] · slices_S16x512x12x256_S16x512x1x256_0_0_11_0) : (⟨S16x512x12x256, .f32⟩ : BufTy).Contents (Elt F) → (⟨S16x512x1x256, .f32⟩ : BufTy).Contents (Elt F)),
    reshape main_v254 main_v255 rfl shapeCasts_S16x512x1x256_S16x512x256,
    binary main_v255 main_v255 main_v256 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v257 (broadcastInDim S16x512x512 ![] bcast_S_S16x512x512 : (⟨S_, .f32⟩ : BufTy).Contents (Elt F) → (⟨S16x512x512, .f32⟩ : BufTy).Contents (Elt F)),
    binary main_v256 main_v257 main_v258 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call22_cst) (constant S_ .f32 0x00000000#32),
    TRef.unary (TRef.of (T := ⟨S_, .f32⟩) main_call22_cst) (TRef.of (T := ⟨S16x512x512, .f32⟩) main_call22_v0) (broadcastInDim S16x512x512 ![] bcast_S_S16x512x512),
    TRef.binary (TRef.of (T := ⟨S16x512x512, .f32⟩) main_v258) (TRef.of (T := ⟨S16x512x512, .f32⟩) main_call22_v0) (TRef.of (T := ⟨S16x512x512, .f32⟩) main_v259) maximumf,
    nullary main_cst_33 (constant S_ .f32 0xFF800000#32),
    binary main_v259 main_cst_33 main_v260 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_34 (constant S_ .f32 0xFF800000#32),
    unary main_cst_34 main_v261 (broadcastInDim S16x512 ![] bcast_S_S16x512 : (⟨S_, .f32⟩ : BufTy).Contents (Elt F) → (⟨S16x512, .f32⟩ : BufTy).Contents (Elt F)),
    binary main_v261 main_v260 main_v262 (maximumf : (⟨S16x512, .f32⟩ : BufTy).Contents (Elt F) → (⟨S16x512, .f32⟩ : BufTy).Contents (Elt F) → (⟨S16x512, .f32⟩ : BufTy).Contents (Elt F)),
    unary main_v262 main_v263 (broadcastInDim S16x512x1 ![0, 1] bcast_S16x512_S16x512x1_0_1 : (⟨S16x512, .f32⟩ : BufTy).Contents (Elt F) → (⟨S16x512x1, .f32⟩ : BufTy).Contents (Elt F)) ]

/-- Window 5 of the printed program: operations 346 to 374. -/
abbrev win5 : List (HloOp τ sig (Elt F)) :=
  [ unary main_v263 main_v264 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v259 main_v264 main_v265 (subf : (⟨S16x512x512, .f32⟩ : BufTy).Contents (Elt F) → (⟨S16x512x512, .f32⟩ : BufTy).Contents (Elt F) → (⟨S16x512x512, .f32⟩ : BufTy).Contents (Elt F)),
    unary main_v265 main_v266 (Host.exp : (⟨S16x512x512, .f32⟩ : BufTy).Contents (Elt F) → (⟨S16x512x512, .f32⟩ : BufTy).Contents (Elt F)),
    nullary main_cst_35 (constant S_ .f32 0x00000000#32),
    binary main_v266 main_cst_35 main_v267 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v267 main_v268 (broadcastInDim S16x512x1 ![0, 1] bcast_S16x512_S16x512x1_0_1 : (⟨S16x512, .f32⟩ : BufTy).Contents (Elt F) → (⟨S16x512x1, .f32⟩ : BufTy).Contents (Elt F)),
    unary main_v268 main_v269 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v266 main_v269 main_v270 (Host.divf : (⟨S16x512x512, .f32⟩ : BufTy).Contents (Elt F) → (⟨S16x512x512, .f32⟩ : BufTy).Contents (Elt F) → (⟨S16x512x512, .f32⟩ : BufTy).Contents (Elt F)),
    binary main_v270 main_v255 main_v271 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v271 main_arg1 main_v272 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v273 (broadcastInDim S1x1x256 ![2] bcast_S256_S1x1x256_2 : (⟨S256, .f32⟩ : BufTy).Contents (Elt F) → (⟨S1x1x256, .f32⟩ : BufTy).Contents (Elt F)),
    unary main_v273 main_v274 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v272 main_v274 main_v275 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call23_cst) (constant S_ .f32 0x00000000#32),
    TRef.unary (TRef.of (T := ⟨S_, .f32⟩) main_call23_cst) (TRef.of (T := ⟨S16x512x256, .f32⟩) main_call23_v0) (broadcastInDim S16x512x256 ![] bcast_S_S16x512x256),
    TRef.binary (TRef.of (T := ⟨S16x512x256, .f32⟩) main_v275) (TRef.of (T := ⟨S16x512x256, .f32⟩) main_call23_v0) (TRef.of (T := ⟨S16x512x256, .f32⟩) main_v276) maximumf,
    unary main_v23 main_v277 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v46 main_v278 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v69 main_v279 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v92 main_v280 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v115 main_v281 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v138 main_v282 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v161 main_v283 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v184 main_v284 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v207 main_v285 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v230 main_v286 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v253 main_v287 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v276 main_v288 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    nary ![main_v277, main_v278, main_v279, main_v280, main_v281, main_v282, main_v283, main_v284, main_v285, main_v286, main_v287, main_v288] main_v289 (fun u => concatenate S16x512x12x256 2 [⟨S16x512x1x256, u 0⟩, ⟨S16x512x1x256, u 1⟩, ⟨S16x512x1x256, u 2⟩, ⟨S16x512x1x256, u 3⟩, ⟨S16x512x1x256, u 4⟩, ⟨S16x512x1x256, u 5⟩, ⟨S16x512x1x256, u 6⟩, ⟨S16x512x1x256, u 7⟩, ⟨S16x512x1x256, u 8⟩, ⟨S16x512x1x256, u 9⟩, ⟨S16x512x1x256, u 10⟩, ⟨S16x512x1x256, u 11⟩] concatenates_S16x512x1x256_S16x512x1x256_S16x512x1x256_S16x512x1x256_S16x512x1x256_S16x512x1x256_S16x512x1x256_S16x512x1x256_S16x512x1x256_S16x512x1x256_S16x512x1x256_S16x512x1x256_S16x512x12x256_d2) ]

/-- The scale: the constant 256 and its square root. -/
abbrev pre : List (HloOp τ sig (Elt F)) :=
  [ nullary main_cst (constant S_ .f32 0x43800000#32),
    unary main_cst main_v0 (Host.sqrt : (⟨S_, .f32⟩ : BufTy).Contents (Elt F) → (⟨S_, .f32⟩ : BufTy).Contents (Elt F)) ]

/-- Time step 0: operations 2 to 31. -/
abbrev step0 : List (HloOp τ sig (Elt F)) :=
  [ unary main_arg0 main_v1 ((extractStridedSlice S16x512x1x256 ![0, 0, 0, 0] · slices_S16x512x12x256_S16x512x1x256_0_0_0_0) : (⟨S16x512x12x256, .f32⟩ : BufTy).Contents (Elt F) → (⟨S16x512x1x256, .f32⟩ : BufTy).Contents (Elt F)),
    reshape main_v1 main_v2 rfl shapeCasts_S16x512x1x256_S16x512x256,
    binary main_v2 main_v2 main_v3 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v4 (broadcastInDim S16x512x512 ![] bcast_S_S16x512x512 : (⟨S_, .f32⟩ : BufTy).Contents (Elt F) → (⟨S16x512x512, .f32⟩ : BufTy).Contents (Elt F)),
    binary main_v3 main_v4 main_v5 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16x512x512, .f32⟩) main_call0_v0) (broadcastInDim S16x512x512 ![] bcast_S_S16x512x512),
    TRef.binary (TRef.of (T := ⟨S16x512x512, .f32⟩) main_v5) (TRef.of (T := ⟨S16x512x512, .f32⟩) main_call0_v0) (TRef.of (T := ⟨S16x512x512, .f32⟩) main_v6) maximumf,
    nullary main_cst_0 (constant S_ .f32 0xFF800000#32),
    binary main_v6 main_cst_0 main_v7 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_1 (constant S_ .f32 0xFF800000#32),
    unary main_cst_1 main_v8 (broadcastInDim S16x512 ![] bcast_S_S16x512 : (⟨S_, .f32⟩ : BufTy).Contents (Elt F) → (⟨S16x512, .f32⟩ : BufTy).Contents (Elt F)),
    binary main_v8 main_v7 main_v9 (maximumf : (⟨S16x512, .f32⟩ : BufTy).Contents (Elt F) → (⟨S16x512, .f32⟩ : BufTy).Contents (Elt F) → (⟨S16x512, .f32⟩ : BufTy).Contents (Elt F)),
    unary main_v9 main_v10 (broadcastInDim S16x512x1 ![0, 1] bcast_S16x512_S16x512x1_0_1 : (⟨S16x512, .f32⟩ : BufTy).Contents (Elt F) → (⟨S16x512x1, .f32⟩ : BufTy).Contents (Elt F)),
    unary main_v10 main_v11 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v6 main_v11 main_v12 (subf : (⟨S16x512x512, .f32⟩ : BufTy).Contents (Elt F) → (⟨S16x512x512, .f32⟩ : BufTy).Contents (Elt F) → (⟨S16x512x512, .f32⟩ : BufTy).Contents (Elt F)),
    unary main_v12 main_v13 (Host.exp : (⟨S16x512x512, .f32⟩ : BufTy).Contents (Elt F) → (⟨S16x512x512, .f32⟩ : BufTy).Contents (Elt F)),
    nullary main_cst_2 (constant S_ .f32 0x00000000#32),
    binary main_v13 main_cst_2 main_v14 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v14 main_v15 (broadcastInDim S16x512x1 ![0, 1] bcast_S16x512_S16x512x1_0_1 : (⟨S16x512, .f32⟩ : BufTy).Contents (Elt F) → (⟨S16x512x1, .f32⟩ : BufTy).Contents (Elt F)),
    unary main_v15 main_v16 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v13 main_v16 main_v17 (Host.divf : (⟨S16x512x512, .f32⟩ : BufTy).Contents (Elt F) → (⟨S16x512x512, .f32⟩ : BufTy).Contents (Elt F) → (⟨S16x512x512, .f32⟩ : BufTy).Contents (Elt F)),
    binary main_v17 main_v2 main_v18 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v18 main_arg1 main_v19 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v20 (broadcastInDim S1x1x256 ![2] bcast_S256_S1x1x256_2 : (⟨S256, .f32⟩ : BufTy).Contents (Elt F) → (⟨S1x1x256, .f32⟩ : BufTy).Contents (Elt F)),
    unary main_v20 main_v21 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v19 main_v21 main_v22 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16x512x256, .f32⟩) main_call1_v0) (broadcastInDim S16x512x256 ![] bcast_S_S16x512x256),
    TRef.binary (TRef.of (T := ⟨S16x512x256, .f32⟩) main_v22) (TRef.of (T := ⟨S16x512x256, .f32⟩) main_call1_v0) (TRef.of (T := ⟨S16x512x256, .f32⟩) main_v23) maximumf ]

/-- Time step 1: operations 32 to 61. -/
abbrev step1 : List (HloOp τ sig (Elt F)) :=
  [ unary main_arg0 main_v24 ((extractStridedSlice S16x512x1x256 ![0, 0, 1, 0] · slices_S16x512x12x256_S16x512x1x256_0_0_1_0) : (⟨S16x512x12x256, .f32⟩ : BufTy).Contents (Elt F) → (⟨S16x512x1x256, .f32⟩ : BufTy).Contents (Elt F)),
    reshape main_v24 main_v25 rfl shapeCasts_S16x512x1x256_S16x512x256,
    binary main_v25 main_v25 main_v26 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v27 (broadcastInDim S16x512x512 ![] bcast_S_S16x512x512 : (⟨S_, .f32⟩ : BufTy).Contents (Elt F) → (⟨S16x512x512, .f32⟩ : BufTy).Contents (Elt F)),
    binary main_v26 main_v27 main_v28 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16x512x512, .f32⟩) main_call2_v0) (broadcastInDim S16x512x512 ![] bcast_S_S16x512x512),
    TRef.binary (TRef.of (T := ⟨S16x512x512, .f32⟩) main_v28) (TRef.of (T := ⟨S16x512x512, .f32⟩) main_call2_v0) (TRef.of (T := ⟨S16x512x512, .f32⟩) main_v29) maximumf,
    nullary main_cst_3 (constant S_ .f32 0xFF800000#32),
    binary main_v29 main_cst_3 main_v30 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_4 (constant S_ .f32 0xFF800000#32),
    unary main_cst_4 main_v31 (broadcastInDim S16x512 ![] bcast_S_S16x512 : (⟨S_, .f32⟩ : BufTy).Contents (Elt F) → (⟨S16x512, .f32⟩ : BufTy).Contents (Elt F)),
    binary main_v31 main_v30 main_v32 (maximumf : (⟨S16x512, .f32⟩ : BufTy).Contents (Elt F) → (⟨S16x512, .f32⟩ : BufTy).Contents (Elt F) → (⟨S16x512, .f32⟩ : BufTy).Contents (Elt F)),
    unary main_v32 main_v33 (broadcastInDim S16x512x1 ![0, 1] bcast_S16x512_S16x512x1_0_1 : (⟨S16x512, .f32⟩ : BufTy).Contents (Elt F) → (⟨S16x512x1, .f32⟩ : BufTy).Contents (Elt F)),
    unary main_v33 main_v34 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v29 main_v34 main_v35 (subf : (⟨S16x512x512, .f32⟩ : BufTy).Contents (Elt F) → (⟨S16x512x512, .f32⟩ : BufTy).Contents (Elt F) → (⟨S16x512x512, .f32⟩ : BufTy).Contents (Elt F)),
    unary main_v35 main_v36 (Host.exp : (⟨S16x512x512, .f32⟩ : BufTy).Contents (Elt F) → (⟨S16x512x512, .f32⟩ : BufTy).Contents (Elt F)),
    nullary main_cst_5 (constant S_ .f32 0x00000000#32),
    binary main_v36 main_cst_5 main_v37 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v37 main_v38 (broadcastInDim S16x512x1 ![0, 1] bcast_S16x512_S16x512x1_0_1 : (⟨S16x512, .f32⟩ : BufTy).Contents (Elt F) → (⟨S16x512x1, .f32⟩ : BufTy).Contents (Elt F)),
    unary main_v38 main_v39 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v36 main_v39 main_v40 (Host.divf : (⟨S16x512x512, .f32⟩ : BufTy).Contents (Elt F) → (⟨S16x512x512, .f32⟩ : BufTy).Contents (Elt F) → (⟨S16x512x512, .f32⟩ : BufTy).Contents (Elt F)),
    binary main_v40 main_v25 main_v41 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v41 main_arg1 main_v42 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v43 (broadcastInDim S1x1x256 ![2] bcast_S256_S1x1x256_2 : (⟨S256, .f32⟩ : BufTy).Contents (Elt F) → (⟨S1x1x256, .f32⟩ : BufTy).Contents (Elt F)),
    unary main_v43 main_v44 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v42 main_v44 main_v45 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S16x512x256, .f32⟩) main_call3_v0) (broadcastInDim S16x512x256 ![] bcast_S_S16x512x256),
    TRef.binary (TRef.of (T := ⟨S16x512x256, .f32⟩) main_v45) (TRef.of (T := ⟨S16x512x256, .f32⟩) main_call3_v0) (TRef.of (T := ⟨S16x512x256, .f32⟩) main_v46) maximumf ]

/-- Time step 2: operations 62 to 91. -/
abbrev step2 : List (HloOp τ sig (Elt F)) :=
  [ unary main_arg0 main_v47 ((extractStridedSlice S16x512x1x256 ![0, 0, 2, 0] · slices_S16x512x12x256_S16x512x1x256_0_0_2_0) : (⟨S16x512x12x256, .f32⟩ : BufTy).Contents (Elt F) → (⟨S16x512x1x256, .f32⟩ : BufTy).Contents (Elt F)),
    reshape main_v47 main_v48 rfl shapeCasts_S16x512x1x256_S16x512x256,
    binary main_v48 main_v48 main_v49 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v50 (broadcastInDim S16x512x512 ![] bcast_S_S16x512x512 : (⟨S_, .f32⟩ : BufTy).Contents (Elt F) → (⟨S16x512x512, .f32⟩ : BufTy).Contents (Elt F)),
    binary main_v49 main_v50 main_v51 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S16x512x512, .f32⟩) main_call4_v0) (broadcastInDim S16x512x512 ![] bcast_S_S16x512x512),
    TRef.binary (TRef.of (T := ⟨S16x512x512, .f32⟩) main_v51) (TRef.of (T := ⟨S16x512x512, .f32⟩) main_call4_v0) (TRef.of (T := ⟨S16x512x512, .f32⟩) main_v52) maximumf,
    nullary main_cst_6 (constant S_ .f32 0xFF800000#32),
    binary main_v52 main_cst_6 main_v53 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_7 (constant S_ .f32 0xFF800000#32),
    unary main_cst_7 main_v54 (broadcastInDim S16x512 ![] bcast_S_S16x512 : (⟨S_, .f32⟩ : BufTy).Contents (Elt F) → (⟨S16x512, .f32⟩ : BufTy).Contents (Elt F)),
    binary main_v54 main_v53 main_v55 (maximumf : (⟨S16x512, .f32⟩ : BufTy).Contents (Elt F) → (⟨S16x512, .f32⟩ : BufTy).Contents (Elt F) → (⟨S16x512, .f32⟩ : BufTy).Contents (Elt F)),
    unary main_v55 main_v56 (broadcastInDim S16x512x1 ![0, 1] bcast_S16x512_S16x512x1_0_1 : (⟨S16x512, .f32⟩ : BufTy).Contents (Elt F) → (⟨S16x512x1, .f32⟩ : BufTy).Contents (Elt F)),
    unary main_v56 main_v57 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v52 main_v57 main_v58 (subf : (⟨S16x512x512, .f32⟩ : BufTy).Contents (Elt F) → (⟨S16x512x512, .f32⟩ : BufTy).Contents (Elt F) → (⟨S16x512x512, .f32⟩ : BufTy).Contents (Elt F)),
    unary main_v58 main_v59 (Host.exp : (⟨S16x512x512, .f32⟩ : BufTy).Contents (Elt F) → (⟨S16x512x512, .f32⟩ : BufTy).Contents (Elt F)),
    nullary main_cst_8 (constant S_ .f32 0x00000000#32),
    binary main_v59 main_cst_8 main_v60 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v60 main_v61 (broadcastInDim S16x512x1 ![0, 1] bcast_S16x512_S16x512x1_0_1 : (⟨S16x512, .f32⟩ : BufTy).Contents (Elt F) → (⟨S16x512x1, .f32⟩ : BufTy).Contents (Elt F)),
    unary main_v61 main_v62 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v59 main_v62 main_v63 (Host.divf : (⟨S16x512x512, .f32⟩ : BufTy).Contents (Elt F) → (⟨S16x512x512, .f32⟩ : BufTy).Contents (Elt F) → (⟨S16x512x512, .f32⟩ : BufTy).Contents (Elt F)),
    binary main_v63 main_v48 main_v64 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v64 main_arg1 main_v65 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v66 (broadcastInDim S1x1x256 ![2] bcast_S256_S1x1x256_2 : (⟨S256, .f32⟩ : BufTy).Contents (Elt F) → (⟨S1x1x256, .f32⟩ : BufTy).Contents (Elt F)),
    unary main_v66 main_v67 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v65 main_v67 main_v68 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S16x512x256, .f32⟩) main_call5_v0) (broadcastInDim S16x512x256 ![] bcast_S_S16x512x256),
    TRef.binary (TRef.of (T := ⟨S16x512x256, .f32⟩) main_v68) (TRef.of (T := ⟨S16x512x256, .f32⟩) main_call5_v0) (TRef.of (T := ⟨S16x512x256, .f32⟩) main_v69) maximumf ]

/-- Time step 3: operations 92 to 121. -/
abbrev step3 : List (HloOp τ sig (Elt F)) :=
  [ unary main_arg0 main_v70 ((extractStridedSlice S16x512x1x256 ![0, 0, 3, 0] · slices_S16x512x12x256_S16x512x1x256_0_0_3_0) : (⟨S16x512x12x256, .f32⟩ : BufTy).Contents (Elt F) → (⟨S16x512x1x256, .f32⟩ : BufTy).Contents (Elt F)),
    reshape main_v70 main_v71 rfl shapeCasts_S16x512x1x256_S16x512x256,
    binary main_v71 main_v71 main_v72 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v73 (broadcastInDim S16x512x512 ![] bcast_S_S16x512x512 : (⟨S_, .f32⟩ : BufTy).Contents (Elt F) → (⟨S16x512x512, .f32⟩ : BufTy).Contents (Elt F)),
    binary main_v72 main_v73 main_v74 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S16x512x512, .f32⟩) main_call6_v0) (broadcastInDim S16x512x512 ![] bcast_S_S16x512x512),
    TRef.binary (TRef.of (T := ⟨S16x512x512, .f32⟩) main_v74) (TRef.of (T := ⟨S16x512x512, .f32⟩) main_call6_v0) (TRef.of (T := ⟨S16x512x512, .f32⟩) main_v75) maximumf,
    nullary main_cst_9 (constant S_ .f32 0xFF800000#32),
    binary main_v75 main_cst_9 main_v76 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_10 (constant S_ .f32 0xFF800000#32),
    unary main_cst_10 main_v77 (broadcastInDim S16x512 ![] bcast_S_S16x512 : (⟨S_, .f32⟩ : BufTy).Contents (Elt F) → (⟨S16x512, .f32⟩ : BufTy).Contents (Elt F)),
    binary main_v77 main_v76 main_v78 (maximumf : (⟨S16x512, .f32⟩ : BufTy).Contents (Elt F) → (⟨S16x512, .f32⟩ : BufTy).Contents (Elt F) → (⟨S16x512, .f32⟩ : BufTy).Contents (Elt F)),
    unary main_v78 main_v79 (broadcastInDim S16x512x1 ![0, 1] bcast_S16x512_S16x512x1_0_1 : (⟨S16x512, .f32⟩ : BufTy).Contents (Elt F) → (⟨S16x512x1, .f32⟩ : BufTy).Contents (Elt F)),
    unary main_v79 main_v80 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v75 main_v80 main_v81 (subf : (⟨S16x512x512, .f32⟩ : BufTy).Contents (Elt F) → (⟨S16x512x512, .f32⟩ : BufTy).Contents (Elt F) → (⟨S16x512x512, .f32⟩ : BufTy).Contents (Elt F)),
    unary main_v81 main_v82 (Host.exp : (⟨S16x512x512, .f32⟩ : BufTy).Contents (Elt F) → (⟨S16x512x512, .f32⟩ : BufTy).Contents (Elt F)),
    nullary main_cst_11 (constant S_ .f32 0x00000000#32),
    binary main_v82 main_cst_11 main_v83 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v83 main_v84 (broadcastInDim S16x512x1 ![0, 1] bcast_S16x512_S16x512x1_0_1 : (⟨S16x512, .f32⟩ : BufTy).Contents (Elt F) → (⟨S16x512x1, .f32⟩ : BufTy).Contents (Elt F)),
    unary main_v84 main_v85 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v82 main_v85 main_v86 (Host.divf : (⟨S16x512x512, .f32⟩ : BufTy).Contents (Elt F) → (⟨S16x512x512, .f32⟩ : BufTy).Contents (Elt F) → (⟨S16x512x512, .f32⟩ : BufTy).Contents (Elt F)),
    binary main_v86 main_v71 main_v87 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v87 main_arg1 main_v88 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v89 (broadcastInDim S1x1x256 ![2] bcast_S256_S1x1x256_2 : (⟨S256, .f32⟩ : BufTy).Contents (Elt F) → (⟨S1x1x256, .f32⟩ : BufTy).Contents (Elt F)),
    unary main_v89 main_v90 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v88 main_v90 main_v91 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S16x512x256, .f32⟩) main_call7_v0) (broadcastInDim S16x512x256 ![] bcast_S_S16x512x256),
    TRef.binary (TRef.of (T := ⟨S16x512x256, .f32⟩) main_v91) (TRef.of (T := ⟨S16x512x256, .f32⟩) main_call7_v0) (TRef.of (T := ⟨S16x512x256, .f32⟩) main_v92) maximumf ]

/-- Time step 4: operations 122 to 151. -/
abbrev step4 : List (HloOp τ sig (Elt F)) :=
  [ unary main_arg0 main_v93 ((extractStridedSlice S16x512x1x256 ![0, 0, 4, 0] · slices_S16x512x12x256_S16x512x1x256_0_0_4_0) : (⟨S16x512x12x256, .f32⟩ : BufTy).Contents (Elt F) → (⟨S16x512x1x256, .f32⟩ : BufTy).Contents (Elt F)),
    reshape main_v93 main_v94 rfl shapeCasts_S16x512x1x256_S16x512x256,
    binary main_v94 main_v94 main_v95 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v96 (broadcastInDim S16x512x512 ![] bcast_S_S16x512x512 : (⟨S_, .f32⟩ : BufTy).Contents (Elt F) → (⟨S16x512x512, .f32⟩ : BufTy).Contents (Elt F)),
    binary main_v95 main_v96 main_v97 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S16x512x512, .f32⟩) main_call8_v0) (broadcastInDim S16x512x512 ![] bcast_S_S16x512x512),
    TRef.binary (TRef.of (T := ⟨S16x512x512, .f32⟩) main_v97) (TRef.of (T := ⟨S16x512x512, .f32⟩) main_call8_v0) (TRef.of (T := ⟨S16x512x512, .f32⟩) main_v98) maximumf,
    nullary main_cst_12 (constant S_ .f32 0xFF800000#32),
    binary main_v98 main_cst_12 main_v99 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_13 (constant S_ .f32 0xFF800000#32),
    unary main_cst_13 main_v100 (broadcastInDim S16x512 ![] bcast_S_S16x512 : (⟨S_, .f32⟩ : BufTy).Contents (Elt F) → (⟨S16x512, .f32⟩ : BufTy).Contents (Elt F)),
    binary main_v100 main_v99 main_v101 (maximumf : (⟨S16x512, .f32⟩ : BufTy).Contents (Elt F) → (⟨S16x512, .f32⟩ : BufTy).Contents (Elt F) → (⟨S16x512, .f32⟩ : BufTy).Contents (Elt F)),
    unary main_v101 main_v102 (broadcastInDim S16x512x1 ![0, 1] bcast_S16x512_S16x512x1_0_1 : (⟨S16x512, .f32⟩ : BufTy).Contents (Elt F) → (⟨S16x512x1, .f32⟩ : BufTy).Contents (Elt F)),
    unary main_v102 main_v103 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v98 main_v103 main_v104 (subf : (⟨S16x512x512, .f32⟩ : BufTy).Contents (Elt F) → (⟨S16x512x512, .f32⟩ : BufTy).Contents (Elt F) → (⟨S16x512x512, .f32⟩ : BufTy).Contents (Elt F)),
    unary main_v104 main_v105 (Host.exp : (⟨S16x512x512, .f32⟩ : BufTy).Contents (Elt F) → (⟨S16x512x512, .f32⟩ : BufTy).Contents (Elt F)),
    nullary main_cst_14 (constant S_ .f32 0x00000000#32),
    binary main_v105 main_cst_14 main_v106 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v106 main_v107 (broadcastInDim S16x512x1 ![0, 1] bcast_S16x512_S16x512x1_0_1 : (⟨S16x512, .f32⟩ : BufTy).Contents (Elt F) → (⟨S16x512x1, .f32⟩ : BufTy).Contents (Elt F)),
    unary main_v107 main_v108 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v105 main_v108 main_v109 (Host.divf : (⟨S16x512x512, .f32⟩ : BufTy).Contents (Elt F) → (⟨S16x512x512, .f32⟩ : BufTy).Contents (Elt F) → (⟨S16x512x512, .f32⟩ : BufTy).Contents (Elt F)),
    binary main_v109 main_v94 main_v110 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v110 main_arg1 main_v111 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v112 (broadcastInDim S1x1x256 ![2] bcast_S256_S1x1x256_2 : (⟨S256, .f32⟩ : BufTy).Contents (Elt F) → (⟨S1x1x256, .f32⟩ : BufTy).Contents (Elt F)),
    unary main_v112 main_v113 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v111 main_v113 main_v114 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S16x512x256, .f32⟩) main_call9_v0) (broadcastInDim S16x512x256 ![] bcast_S_S16x512x256),
    TRef.binary (TRef.of (T := ⟨S16x512x256, .f32⟩) main_v114) (TRef.of (T := ⟨S16x512x256, .f32⟩) main_call9_v0) (TRef.of (T := ⟨S16x512x256, .f32⟩) main_v115) maximumf ]

/-- Time step 5: operations 152 to 181. -/
abbrev step5 : List (HloOp τ sig (Elt F)) :=
  [ unary main_arg0 main_v116 ((extractStridedSlice S16x512x1x256 ![0, 0, 5, 0] · slices_S16x512x12x256_S16x512x1x256_0_0_5_0) : (⟨S16x512x12x256, .f32⟩ : BufTy).Contents (Elt F) → (⟨S16x512x1x256, .f32⟩ : BufTy).Contents (Elt F)),
    reshape main_v116 main_v117 rfl shapeCasts_S16x512x1x256_S16x512x256,
    binary main_v117 main_v117 main_v118 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v119 (broadcastInDim S16x512x512 ![] bcast_S_S16x512x512 : (⟨S_, .f32⟩ : BufTy).Contents (Elt F) → (⟨S16x512x512, .f32⟩ : BufTy).Contents (Elt F)),
    binary main_v118 main_v119 main_v120 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S16x512x512, .f32⟩) main_call10_v0) (broadcastInDim S16x512x512 ![] bcast_S_S16x512x512),
    TRef.binary (TRef.of (T := ⟨S16x512x512, .f32⟩) main_v120) (TRef.of (T := ⟨S16x512x512, .f32⟩) main_call10_v0) (TRef.of (T := ⟨S16x512x512, .f32⟩) main_v121) maximumf,
    nullary main_cst_15 (constant S_ .f32 0xFF800000#32),
    binary main_v121 main_cst_15 main_v122 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_16 (constant S_ .f32 0xFF800000#32),
    unary main_cst_16 main_v123 (broadcastInDim S16x512 ![] bcast_S_S16x512 : (⟨S_, .f32⟩ : BufTy).Contents (Elt F) → (⟨S16x512, .f32⟩ : BufTy).Contents (Elt F)),
    binary main_v123 main_v122 main_v124 (maximumf : (⟨S16x512, .f32⟩ : BufTy).Contents (Elt F) → (⟨S16x512, .f32⟩ : BufTy).Contents (Elt F) → (⟨S16x512, .f32⟩ : BufTy).Contents (Elt F)),
    unary main_v124 main_v125 (broadcastInDim S16x512x1 ![0, 1] bcast_S16x512_S16x512x1_0_1 : (⟨S16x512, .f32⟩ : BufTy).Contents (Elt F) → (⟨S16x512x1, .f32⟩ : BufTy).Contents (Elt F)),
    unary main_v125 main_v126 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v121 main_v126 main_v127 (subf : (⟨S16x512x512, .f32⟩ : BufTy).Contents (Elt F) → (⟨S16x512x512, .f32⟩ : BufTy).Contents (Elt F) → (⟨S16x512x512, .f32⟩ : BufTy).Contents (Elt F)),
    unary main_v127 main_v128 (Host.exp : (⟨S16x512x512, .f32⟩ : BufTy).Contents (Elt F) → (⟨S16x512x512, .f32⟩ : BufTy).Contents (Elt F)),
    nullary main_cst_17 (constant S_ .f32 0x00000000#32),
    binary main_v128 main_cst_17 main_v129 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v129 main_v130 (broadcastInDim S16x512x1 ![0, 1] bcast_S16x512_S16x512x1_0_1 : (⟨S16x512, .f32⟩ : BufTy).Contents (Elt F) → (⟨S16x512x1, .f32⟩ : BufTy).Contents (Elt F)),
    unary main_v130 main_v131 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v128 main_v131 main_v132 (Host.divf : (⟨S16x512x512, .f32⟩ : BufTy).Contents (Elt F) → (⟨S16x512x512, .f32⟩ : BufTy).Contents (Elt F) → (⟨S16x512x512, .f32⟩ : BufTy).Contents (Elt F)),
    binary main_v132 main_v117 main_v133 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v133 main_arg1 main_v134 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v135 (broadcastInDim S1x1x256 ![2] bcast_S256_S1x1x256_2 : (⟨S256, .f32⟩ : BufTy).Contents (Elt F) → (⟨S1x1x256, .f32⟩ : BufTy).Contents (Elt F)),
    unary main_v135 main_v136 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v134 main_v136 main_v137 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S16x512x256, .f32⟩) main_call11_v0) (broadcastInDim S16x512x256 ![] bcast_S_S16x512x256),
    TRef.binary (TRef.of (T := ⟨S16x512x256, .f32⟩) main_v137) (TRef.of (T := ⟨S16x512x256, .f32⟩) main_call11_v0) (TRef.of (T := ⟨S16x512x256, .f32⟩) main_v138) maximumf ]

/-- Time step 6: operations 182 to 211. -/
abbrev step6 : List (HloOp τ sig (Elt F)) :=
  [ unary main_arg0 main_v139 ((extractStridedSlice S16x512x1x256 ![0, 0, 6, 0] · slices_S16x512x12x256_S16x512x1x256_0_0_6_0) : (⟨S16x512x12x256, .f32⟩ : BufTy).Contents (Elt F) → (⟨S16x512x1x256, .f32⟩ : BufTy).Contents (Elt F)),
    reshape main_v139 main_v140 rfl shapeCasts_S16x512x1x256_S16x512x256,
    binary main_v140 main_v140 main_v141 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v142 (broadcastInDim S16x512x512 ![] bcast_S_S16x512x512 : (⟨S_, .f32⟩ : BufTy).Contents (Elt F) → (⟨S16x512x512, .f32⟩ : BufTy).Contents (Elt F)),
    binary main_v141 main_v142 main_v143 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S16x512x512, .f32⟩) main_call12_v0) (broadcastInDim S16x512x512 ![] bcast_S_S16x512x512),
    TRef.binary (TRef.of (T := ⟨S16x512x512, .f32⟩) main_v143) (TRef.of (T := ⟨S16x512x512, .f32⟩) main_call12_v0) (TRef.of (T := ⟨S16x512x512, .f32⟩) main_v144) maximumf,
    nullary main_cst_18 (constant S_ .f32 0xFF800000#32),
    binary main_v144 main_cst_18 main_v145 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_19 (constant S_ .f32 0xFF800000#32),
    unary main_cst_19 main_v146 (broadcastInDim S16x512 ![] bcast_S_S16x512 : (⟨S_, .f32⟩ : BufTy).Contents (Elt F) → (⟨S16x512, .f32⟩ : BufTy).Contents (Elt F)),
    binary main_v146 main_v145 main_v147 (maximumf : (⟨S16x512, .f32⟩ : BufTy).Contents (Elt F) → (⟨S16x512, .f32⟩ : BufTy).Contents (Elt F) → (⟨S16x512, .f32⟩ : BufTy).Contents (Elt F)),
    unary main_v147 main_v148 (broadcastInDim S16x512x1 ![0, 1] bcast_S16x512_S16x512x1_0_1 : (⟨S16x512, .f32⟩ : BufTy).Contents (Elt F) → (⟨S16x512x1, .f32⟩ : BufTy).Contents (Elt F)),
    unary main_v148 main_v149 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v144 main_v149 main_v150 (subf : (⟨S16x512x512, .f32⟩ : BufTy).Contents (Elt F) → (⟨S16x512x512, .f32⟩ : BufTy).Contents (Elt F) → (⟨S16x512x512, .f32⟩ : BufTy).Contents (Elt F)),
    unary main_v150 main_v151 (Host.exp : (⟨S16x512x512, .f32⟩ : BufTy).Contents (Elt F) → (⟨S16x512x512, .f32⟩ : BufTy).Contents (Elt F)),
    nullary main_cst_20 (constant S_ .f32 0x00000000#32),
    binary main_v151 main_cst_20 main_v152 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v152 main_v153 (broadcastInDim S16x512x1 ![0, 1] bcast_S16x512_S16x512x1_0_1 : (⟨S16x512, .f32⟩ : BufTy).Contents (Elt F) → (⟨S16x512x1, .f32⟩ : BufTy).Contents (Elt F)),
    unary main_v153 main_v154 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v151 main_v154 main_v155 (Host.divf : (⟨S16x512x512, .f32⟩ : BufTy).Contents (Elt F) → (⟨S16x512x512, .f32⟩ : BufTy).Contents (Elt F) → (⟨S16x512x512, .f32⟩ : BufTy).Contents (Elt F)),
    binary main_v155 main_v140 main_v156 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v156 main_arg1 main_v157 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v158 (broadcastInDim S1x1x256 ![2] bcast_S256_S1x1x256_2 : (⟨S256, .f32⟩ : BufTy).Contents (Elt F) → (⟨S1x1x256, .f32⟩ : BufTy).Contents (Elt F)),
    unary main_v158 main_v159 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v157 main_v159 main_v160 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S16x512x256, .f32⟩) main_call13_v0) (broadcastInDim S16x512x256 ![] bcast_S_S16x512x256),
    TRef.binary (TRef.of (T := ⟨S16x512x256, .f32⟩) main_v160) (TRef.of (T := ⟨S16x512x256, .f32⟩) main_call13_v0) (TRef.of (T := ⟨S16x512x256, .f32⟩) main_v161) maximumf ]

/-- Time step 7: operations 212 to 241. -/
abbrev step7 : List (HloOp τ sig (Elt F)) :=
  [ unary main_arg0 main_v162 ((extractStridedSlice S16x512x1x256 ![0, 0, 7, 0] · slices_S16x512x12x256_S16x512x1x256_0_0_7_0) : (⟨S16x512x12x256, .f32⟩ : BufTy).Contents (Elt F) → (⟨S16x512x1x256, .f32⟩ : BufTy).Contents (Elt F)),
    reshape main_v162 main_v163 rfl shapeCasts_S16x512x1x256_S16x512x256,
    binary main_v163 main_v163 main_v164 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v165 (broadcastInDim S16x512x512 ![] bcast_S_S16x512x512 : (⟨S_, .f32⟩ : BufTy).Contents (Elt F) → (⟨S16x512x512, .f32⟩ : BufTy).Contents (Elt F)),
    binary main_v164 main_v165 main_v166 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S16x512x512, .f32⟩) main_call14_v0) (broadcastInDim S16x512x512 ![] bcast_S_S16x512x512),
    TRef.binary (TRef.of (T := ⟨S16x512x512, .f32⟩) main_v166) (TRef.of (T := ⟨S16x512x512, .f32⟩) main_call14_v0) (TRef.of (T := ⟨S16x512x512, .f32⟩) main_v167) maximumf,
    nullary main_cst_21 (constant S_ .f32 0xFF800000#32),
    binary main_v167 main_cst_21 main_v168 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_22 (constant S_ .f32 0xFF800000#32),
    unary main_cst_22 main_v169 (broadcastInDim S16x512 ![] bcast_S_S16x512 : (⟨S_, .f32⟩ : BufTy).Contents (Elt F) → (⟨S16x512, .f32⟩ : BufTy).Contents (Elt F)),
    binary main_v169 main_v168 main_v170 (maximumf : (⟨S16x512, .f32⟩ : BufTy).Contents (Elt F) → (⟨S16x512, .f32⟩ : BufTy).Contents (Elt F) → (⟨S16x512, .f32⟩ : BufTy).Contents (Elt F)),
    unary main_v170 main_v171 (broadcastInDim S16x512x1 ![0, 1] bcast_S16x512_S16x512x1_0_1 : (⟨S16x512, .f32⟩ : BufTy).Contents (Elt F) → (⟨S16x512x1, .f32⟩ : BufTy).Contents (Elt F)),
    unary main_v171 main_v172 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v167 main_v172 main_v173 (subf : (⟨S16x512x512, .f32⟩ : BufTy).Contents (Elt F) → (⟨S16x512x512, .f32⟩ : BufTy).Contents (Elt F) → (⟨S16x512x512, .f32⟩ : BufTy).Contents (Elt F)),
    unary main_v173 main_v174 (Host.exp : (⟨S16x512x512, .f32⟩ : BufTy).Contents (Elt F) → (⟨S16x512x512, .f32⟩ : BufTy).Contents (Elt F)),
    nullary main_cst_23 (constant S_ .f32 0x00000000#32),
    binary main_v174 main_cst_23 main_v175 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v175 main_v176 (broadcastInDim S16x512x1 ![0, 1] bcast_S16x512_S16x512x1_0_1 : (⟨S16x512, .f32⟩ : BufTy).Contents (Elt F) → (⟨S16x512x1, .f32⟩ : BufTy).Contents (Elt F)),
    unary main_v176 main_v177 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v174 main_v177 main_v178 (Host.divf : (⟨S16x512x512, .f32⟩ : BufTy).Contents (Elt F) → (⟨S16x512x512, .f32⟩ : BufTy).Contents (Elt F) → (⟨S16x512x512, .f32⟩ : BufTy).Contents (Elt F)),
    binary main_v178 main_v163 main_v179 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v179 main_arg1 main_v180 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v181 (broadcastInDim S1x1x256 ![2] bcast_S256_S1x1x256_2 : (⟨S256, .f32⟩ : BufTy).Contents (Elt F) → (⟨S1x1x256, .f32⟩ : BufTy).Contents (Elt F)),
    unary main_v181 main_v182 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v180 main_v182 main_v183 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S16x512x256, .f32⟩) main_call15_v0) (broadcastInDim S16x512x256 ![] bcast_S_S16x512x256),
    TRef.binary (TRef.of (T := ⟨S16x512x256, .f32⟩) main_v183) (TRef.of (T := ⟨S16x512x256, .f32⟩) main_call15_v0) (TRef.of (T := ⟨S16x512x256, .f32⟩) main_v184) maximumf ]

/-- Time step 8: operations 242 to 271. -/
abbrev step8 : List (HloOp τ sig (Elt F)) :=
  [ unary main_arg0 main_v185 ((extractStridedSlice S16x512x1x256 ![0, 0, 8, 0] · slices_S16x512x12x256_S16x512x1x256_0_0_8_0) : (⟨S16x512x12x256, .f32⟩ : BufTy).Contents (Elt F) → (⟨S16x512x1x256, .f32⟩ : BufTy).Contents (Elt F)),
    reshape main_v185 main_v186 rfl shapeCasts_S16x512x1x256_S16x512x256,
    binary main_v186 main_v186 main_v187 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v188 (broadcastInDim S16x512x512 ![] bcast_S_S16x512x512 : (⟨S_, .f32⟩ : BufTy).Contents (Elt F) → (⟨S16x512x512, .f32⟩ : BufTy).Contents (Elt F)),
    binary main_v187 main_v188 main_v189 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S16x512x512, .f32⟩) main_call16_v0) (broadcastInDim S16x512x512 ![] bcast_S_S16x512x512),
    TRef.binary (TRef.of (T := ⟨S16x512x512, .f32⟩) main_v189) (TRef.of (T := ⟨S16x512x512, .f32⟩) main_call16_v0) (TRef.of (T := ⟨S16x512x512, .f32⟩) main_v190) maximumf,
    nullary main_cst_24 (constant S_ .f32 0xFF800000#32),
    binary main_v190 main_cst_24 main_v191 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_25 (constant S_ .f32 0xFF800000#32),
    unary main_cst_25 main_v192 (broadcastInDim S16x512 ![] bcast_S_S16x512 : (⟨S_, .f32⟩ : BufTy).Contents (Elt F) → (⟨S16x512, .f32⟩ : BufTy).Contents (Elt F)),
    binary main_v192 main_v191 main_v193 (maximumf : (⟨S16x512, .f32⟩ : BufTy).Contents (Elt F) → (⟨S16x512, .f32⟩ : BufTy).Contents (Elt F) → (⟨S16x512, .f32⟩ : BufTy).Contents (Elt F)),
    unary main_v193 main_v194 (broadcastInDim S16x512x1 ![0, 1] bcast_S16x512_S16x512x1_0_1 : (⟨S16x512, .f32⟩ : BufTy).Contents (Elt F) → (⟨S16x512x1, .f32⟩ : BufTy).Contents (Elt F)),
    unary main_v194 main_v195 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v190 main_v195 main_v196 (subf : (⟨S16x512x512, .f32⟩ : BufTy).Contents (Elt F) → (⟨S16x512x512, .f32⟩ : BufTy).Contents (Elt F) → (⟨S16x512x512, .f32⟩ : BufTy).Contents (Elt F)),
    unary main_v196 main_v197 (Host.exp : (⟨S16x512x512, .f32⟩ : BufTy).Contents (Elt F) → (⟨S16x512x512, .f32⟩ : BufTy).Contents (Elt F)),
    nullary main_cst_26 (constant S_ .f32 0x00000000#32),
    binary main_v197 main_cst_26 main_v198 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v198 main_v199 (broadcastInDim S16x512x1 ![0, 1] bcast_S16x512_S16x512x1_0_1 : (⟨S16x512, .f32⟩ : BufTy).Contents (Elt F) → (⟨S16x512x1, .f32⟩ : BufTy).Contents (Elt F)),
    unary main_v199 main_v200 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v197 main_v200 main_v201 (Host.divf : (⟨S16x512x512, .f32⟩ : BufTy).Contents (Elt F) → (⟨S16x512x512, .f32⟩ : BufTy).Contents (Elt F) → (⟨S16x512x512, .f32⟩ : BufTy).Contents (Elt F)),
    binary main_v201 main_v186 main_v202 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v202 main_arg1 main_v203 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v204 (broadcastInDim S1x1x256 ![2] bcast_S256_S1x1x256_2 : (⟨S256, .f32⟩ : BufTy).Contents (Elt F) → (⟨S1x1x256, .f32⟩ : BufTy).Contents (Elt F)),
    unary main_v204 main_v205 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v203 main_v205 main_v206 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S16x512x256, .f32⟩) main_call17_v0) (broadcastInDim S16x512x256 ![] bcast_S_S16x512x256),
    TRef.binary (TRef.of (T := ⟨S16x512x256, .f32⟩) main_v206) (TRef.of (T := ⟨S16x512x256, .f32⟩) main_call17_v0) (TRef.of (T := ⟨S16x512x256, .f32⟩) main_v207) maximumf ]

/-- Time step 9: operations 272 to 301. -/
abbrev step9 : List (HloOp τ sig (Elt F)) :=
  [ unary main_arg0 main_v208 ((extractStridedSlice S16x512x1x256 ![0, 0, 9, 0] · slices_S16x512x12x256_S16x512x1x256_0_0_9_0) : (⟨S16x512x12x256, .f32⟩ : BufTy).Contents (Elt F) → (⟨S16x512x1x256, .f32⟩ : BufTy).Contents (Elt F)),
    reshape main_v208 main_v209 rfl shapeCasts_S16x512x1x256_S16x512x256,
    binary main_v209 main_v209 main_v210 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v211 (broadcastInDim S16x512x512 ![] bcast_S_S16x512x512 : (⟨S_, .f32⟩ : BufTy).Contents (Elt F) → (⟨S16x512x512, .f32⟩ : BufTy).Contents (Elt F)),
    binary main_v210 main_v211 main_v212 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S16x512x512, .f32⟩) main_call18_v0) (broadcastInDim S16x512x512 ![] bcast_S_S16x512x512),
    TRef.binary (TRef.of (T := ⟨S16x512x512, .f32⟩) main_v212) (TRef.of (T := ⟨S16x512x512, .f32⟩) main_call18_v0) (TRef.of (T := ⟨S16x512x512, .f32⟩) main_v213) maximumf,
    nullary main_cst_27 (constant S_ .f32 0xFF800000#32),
    binary main_v213 main_cst_27 main_v214 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_28 (constant S_ .f32 0xFF800000#32),
    unary main_cst_28 main_v215 (broadcastInDim S16x512 ![] bcast_S_S16x512 : (⟨S_, .f32⟩ : BufTy).Contents (Elt F) → (⟨S16x512, .f32⟩ : BufTy).Contents (Elt F)),
    binary main_v215 main_v214 main_v216 (maximumf : (⟨S16x512, .f32⟩ : BufTy).Contents (Elt F) → (⟨S16x512, .f32⟩ : BufTy).Contents (Elt F) → (⟨S16x512, .f32⟩ : BufTy).Contents (Elt F)),
    unary main_v216 main_v217 (broadcastInDim S16x512x1 ![0, 1] bcast_S16x512_S16x512x1_0_1 : (⟨S16x512, .f32⟩ : BufTy).Contents (Elt F) → (⟨S16x512x1, .f32⟩ : BufTy).Contents (Elt F)),
    unary main_v217 main_v218 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v213 main_v218 main_v219 (subf : (⟨S16x512x512, .f32⟩ : BufTy).Contents (Elt F) → (⟨S16x512x512, .f32⟩ : BufTy).Contents (Elt F) → (⟨S16x512x512, .f32⟩ : BufTy).Contents (Elt F)),
    unary main_v219 main_v220 (Host.exp : (⟨S16x512x512, .f32⟩ : BufTy).Contents (Elt F) → (⟨S16x512x512, .f32⟩ : BufTy).Contents (Elt F)),
    nullary main_cst_29 (constant S_ .f32 0x00000000#32),
    binary main_v220 main_cst_29 main_v221 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v221 main_v222 (broadcastInDim S16x512x1 ![0, 1] bcast_S16x512_S16x512x1_0_1 : (⟨S16x512, .f32⟩ : BufTy).Contents (Elt F) → (⟨S16x512x1, .f32⟩ : BufTy).Contents (Elt F)),
    unary main_v222 main_v223 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v220 main_v223 main_v224 (Host.divf : (⟨S16x512x512, .f32⟩ : BufTy).Contents (Elt F) → (⟨S16x512x512, .f32⟩ : BufTy).Contents (Elt F) → (⟨S16x512x512, .f32⟩ : BufTy).Contents (Elt F)),
    binary main_v224 main_v209 main_v225 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v225 main_arg1 main_v226 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v227 (broadcastInDim S1x1x256 ![2] bcast_S256_S1x1x256_2 : (⟨S256, .f32⟩ : BufTy).Contents (Elt F) → (⟨S1x1x256, .f32⟩ : BufTy).Contents (Elt F)),
    unary main_v227 main_v228 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v226 main_v228 main_v229 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call19_cst) (constant S_ .f32 0x00000000#32),
    TRef.unary (TRef.of (T := ⟨S_, .f32⟩) main_call19_cst) (TRef.of (T := ⟨S16x512x256, .f32⟩) main_call19_v0) (broadcastInDim S16x512x256 ![] bcast_S_S16x512x256),
    TRef.binary (TRef.of (T := ⟨S16x512x256, .f32⟩) main_v229) (TRef.of (T := ⟨S16x512x256, .f32⟩) main_call19_v0) (TRef.of (T := ⟨S16x512x256, .f32⟩) main_v230) maximumf ]

/-- Time step 10: operations 302 to 331. -/
abbrev step10 : List (HloOp τ sig (Elt F)) :=
  [ unary main_arg0 main_v231 ((extractStridedSlice S16x512x1x256 ![0, 0, 10, 0] · slices_S16x512x12x256_S16x512x1x256_0_0_10_0) : (⟨S16x512x12x256, .f32⟩ : BufTy).Contents (Elt F) → (⟨S16x512x1x256, .f32⟩ : BufTy).Contents (Elt F)),
    reshape main_v231 main_v232 rfl shapeCasts_S16x512x1x256_S16x512x256,
    binary main_v232 main_v232 main_v233 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v234 (broadcastInDim S16x512x512 ![] bcast_S_S16x512x512 : (⟨S_, .f32⟩ : BufTy).Contents (Elt F) → (⟨S16x512x512, .f32⟩ : BufTy).Contents (Elt F)),
    binary main_v233 main_v234 main_v235 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call20_cst) (constant S_ .f32 0x00000000#32),
    TRef.unary (TRef.of (T := ⟨S_, .f32⟩) main_call20_cst) (TRef.of (T := ⟨S16x512x512, .f32⟩) main_call20_v0) (broadcastInDim S16x512x512 ![] bcast_S_S16x512x512),
    TRef.binary (TRef.of (T := ⟨S16x512x512, .f32⟩) main_v235) (TRef.of (T := ⟨S16x512x512, .f32⟩) main_call20_v0) (TRef.of (T := ⟨S16x512x512, .f32⟩) main_v236) maximumf,
    nullary main_cst_30 (constant S_ .f32 0xFF800000#32),
    binary main_v236 main_cst_30 main_v237 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_31 (constant S_ .f32 0xFF800000#32),
    unary main_cst_31 main_v238 (broadcastInDim S16x512 ![] bcast_S_S16x512 : (⟨S_, .f32⟩ : BufTy).Contents (Elt F) → (⟨S16x512, .f32⟩ : BufTy).Contents (Elt F)),
    binary main_v238 main_v237 main_v239 (maximumf : (⟨S16x512, .f32⟩ : BufTy).Contents (Elt F) → (⟨S16x512, .f32⟩ : BufTy).Contents (Elt F) → (⟨S16x512, .f32⟩ : BufTy).Contents (Elt F)),
    unary main_v239 main_v240 (broadcastInDim S16x512x1 ![0, 1] bcast_S16x512_S16x512x1_0_1 : (⟨S16x512, .f32⟩ : BufTy).Contents (Elt F) → (⟨S16x512x1, .f32⟩ : BufTy).Contents (Elt F)),
    unary main_v240 main_v241 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v236 main_v241 main_v242 (subf : (⟨S16x512x512, .f32⟩ : BufTy).Contents (Elt F) → (⟨S16x512x512, .f32⟩ : BufTy).Contents (Elt F) → (⟨S16x512x512, .f32⟩ : BufTy).Contents (Elt F)),
    unary main_v242 main_v243 (Host.exp : (⟨S16x512x512, .f32⟩ : BufTy).Contents (Elt F) → (⟨S16x512x512, .f32⟩ : BufTy).Contents (Elt F)),
    nullary main_cst_32 (constant S_ .f32 0x00000000#32),
    binary main_v243 main_cst_32 main_v244 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v244 main_v245 (broadcastInDim S16x512x1 ![0, 1] bcast_S16x512_S16x512x1_0_1 : (⟨S16x512, .f32⟩ : BufTy).Contents (Elt F) → (⟨S16x512x1, .f32⟩ : BufTy).Contents (Elt F)),
    unary main_v245 main_v246 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v243 main_v246 main_v247 (Host.divf : (⟨S16x512x512, .f32⟩ : BufTy).Contents (Elt F) → (⟨S16x512x512, .f32⟩ : BufTy).Contents (Elt F) → (⟨S16x512x512, .f32⟩ : BufTy).Contents (Elt F)),
    binary main_v247 main_v232 main_v248 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v248 main_arg1 main_v249 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v250 (broadcastInDim S1x1x256 ![2] bcast_S256_S1x1x256_2 : (⟨S256, .f32⟩ : BufTy).Contents (Elt F) → (⟨S1x1x256, .f32⟩ : BufTy).Contents (Elt F)),
    unary main_v250 main_v251 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v249 main_v251 main_v252 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call21_cst) (constant S_ .f32 0x00000000#32),
    TRef.unary (TRef.of (T := ⟨S_, .f32⟩) main_call21_cst) (TRef.of (T := ⟨S16x512x256, .f32⟩) main_call21_v0) (broadcastInDim S16x512x256 ![] bcast_S_S16x512x256),
    TRef.binary (TRef.of (T := ⟨S16x512x256, .f32⟩) main_v252) (TRef.of (T := ⟨S16x512x256, .f32⟩) main_call21_v0) (TRef.of (T := ⟨S16x512x256, .f32⟩) main_v253) maximumf ]

/-- Time step 11: operations 332 to 361. -/
abbrev step11 : List (HloOp τ sig (Elt F)) :=
  [ unary main_arg0 main_v254 ((extractStridedSlice S16x512x1x256 ![0, 0, 11, 0] · slices_S16x512x12x256_S16x512x1x256_0_0_11_0) : (⟨S16x512x12x256, .f32⟩ : BufTy).Contents (Elt F) → (⟨S16x512x1x256, .f32⟩ : BufTy).Contents (Elt F)),
    reshape main_v254 main_v255 rfl shapeCasts_S16x512x1x256_S16x512x256,
    binary main_v255 main_v255 main_v256 ((fun l r => Host.dotGeneral dot_S16x512x256_S16x512x256_S16x512x512_2_2_1_1_0_0 none l r) : (⟨S16x512x256, .f32⟩ : BufTy).Contents (Elt F) → (⟨S16x512x256, .f32⟩ : BufTy).Contents (Elt F) → (⟨S16x512x512, .f32⟩ : BufTy).Contents (Elt F)),
    unary main_v0 main_v257 (broadcastInDim S16x512x512 ![] bcast_S_S16x512x512 : (⟨S_, .f32⟩ : BufTy).Contents (Elt F) → (⟨S16x512x512, .f32⟩ : BufTy).Contents (Elt F)),
    binary main_v256 main_v257 main_v258 (Host.divf : (⟨S16x512x512, .f32⟩ : BufTy).Contents (Elt F) → (⟨S16x512x512, .f32⟩ : BufTy).Contents (Elt F) → (⟨S16x512x512, .f32⟩ : BufTy).Contents (Elt F)),
    TRef.nullary (TRef.of (T := ⟨S_, .f32⟩) main_call22_cst) (constant S_ .f32 0x00000000#32),
    TRef.unary (TRef.of (T := ⟨S_, .f32⟩) main_call22_cst) (TRef.of (T := ⟨S16x512x512, .f32⟩) main_call22_v0) (broadcastInDim S16x512x512 ![] bcast_S_S16x512x512),
    TRef.binary (TRef.of (T := ⟨S16x512x512, .f32⟩) main_v258) (TRef.of (T := ⟨S16x512x512, .f32⟩) main_call22_v0) (TRef.of (T := ⟨S16x512x512, .f32⟩) main_v259) maximumf,
    nullary main_cst_33 (constant S_ .f32 0xFF800000#32),
    binary main_v259 main_cst_33 main_v260 ((fun x v => Host.reduce FloatOps.maximumf x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    nullary main_cst_34 (constant S_ .f32 0xFF800000#32),
    unary main_cst_34 main_v261 (broadcastInDim S16x512 ![] bcast_S_S16x512 : (⟨S_, .f32⟩ : BufTy).Contents (Elt F) → (⟨S16x512, .f32⟩ : BufTy).Contents (Elt F)),
    binary main_v261 main_v260 main_v262 (maximumf : (⟨S16x512, .f32⟩ : BufTy).Contents (Elt F) → (⟨S16x512, .f32⟩ : BufTy).Contents (Elt F) → (⟨S16x512, .f32⟩ : BufTy).Contents (Elt F)),
    unary main_v262 main_v263 (broadcastInDim S16x512x1 ![0, 1] bcast_S16x512_S16x512x1_0_1 : (⟨S16x512, .f32⟩ : BufTy).Contents (Elt F) → (⟨S16x512x1, .f32⟩ : BufTy).Contents (Elt F)),
    unary main_v263 main_v264 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v259 main_v264 main_v265 (subf : (⟨S16x512x512, .f32⟩ : BufTy).Contents (Elt F) → (⟨S16x512x512, .f32⟩ : BufTy).Contents (Elt F) → (⟨S16x512x512, .f32⟩ : BufTy).Contents (Elt F)),
    unary main_v265 main_v266 (Host.exp : (⟨S16x512x512, .f32⟩ : BufTy).Contents (Elt F) → (⟨S16x512x512, .f32⟩ : BufTy).Contents (Elt F)),
    nullary main_cst_35 (constant S_ .f32 0x00000000#32),
    binary main_v266 main_cst_35 main_v267 ((fun x v => Host.reduceAdd x v reducesTo_S16x512x512_S16x512_d2 h_S_) : (⟨S16x512x512, .f32⟩ : BufTy).Contents (Elt F) → (⟨S_, .f32⟩ : BufTy).Contents (Elt F) → (⟨S16x512, .f32⟩ : BufTy).Contents (Elt F)),
    unary main_v267 main_v268 (broadcastInDim S16x512x1 ![0, 1] bcast_S16x512_S16x512x1_0_1 : (⟨S16x512, .f32⟩ : BufTy).Contents (Elt F) → (⟨S16x512x1, .f32⟩ : BufTy).Contents (Elt F)),
    unary main_v268 main_v269 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_v266 main_v269 main_v270 (Host.divf : (⟨S16x512x512, .f32⟩ : BufTy).Contents (Elt F) → (⟨S16x512x512, .f32⟩ : BufTy).Contents (Elt F) → (⟨S16x512x512, .f32⟩ : BufTy).Contents (Elt F)),
    binary main_v270 main_v255 main_v271 ((fun l r => Host.dotGeneral dot_S16x512x512_S16x512x256_S16x512x256_2_1_1_2_0_0 none l r) : (⟨S16x512x512, .f32⟩ : BufTy).Contents (Elt F) → (⟨S16x512x256, .f32⟩ : BufTy).Contents (Elt F) → (⟨S16x512x256, .f32⟩ : BufTy).Contents (Elt F)),
    binary main_v271 main_arg1 main_v272 ((fun l r => Host.dotGeneral dot_S16x512x256_S256x256_S16x512x256_2_0_01_1_n_n none l r) : (⟨S16x512x256, .f32⟩ : BufTy).Contents (Elt F) → (⟨S256x256, .f32⟩ : BufTy).Contents (Elt F) → (⟨S16x512x256, .f32⟩ : BufTy).Contents (Elt F)),
    unary main_arg2 main_v273 (broadcastInDim S1x1x256 ![2] bcast_S256_S1x1x256_2 : (⟨S256, .f32⟩ : BufTy).Contents (Elt F) → (⟨S1x1x256, .f32⟩ : BufTy).Contents (Elt F)),
    unary main_v273 main_v274 (broadcastInDim S16x512x256 ![0, 1, 2] bcast_S1x1x256_S16x512x256_0_1_2 : (⟨S1x1x256, .f32⟩ : BufTy).Contents (Elt F) → (⟨S16x512x256, .f32⟩ : BufTy).Contents (Elt F)),
    binary main_v272 main_v274 main_v275 (addf : (⟨S16x512x256, .f32⟩ : BufTy).Contents (Elt F) → (⟨S16x512x256, .f32⟩ : BufTy).Contents (Elt F) → (⟨S16x512x256, .f32⟩ : BufTy).Contents (Elt F)),
    TRef.nullary (TRef.of (T := ⟨S_, .f32⟩) main_call23_cst) (constant S_ .f32 0x00000000#32),
    TRef.unary (TRef.of (T := ⟨S_, .f32⟩) main_call23_cst) (TRef.of (T := ⟨S16x512x256, .f32⟩) main_call23_v0) (broadcastInDim S16x512x256 ![] bcast_S_S16x512x256),
    TRef.binary (TRef.of (T := ⟨S16x512x256, .f32⟩) main_v275) (TRef.of (T := ⟨S16x512x256, .f32⟩) main_call23_v0) (TRef.of (T := ⟨S16x512x256, .f32⟩) main_v276) maximumf ]

/-- The twelve results given a unit time axis and stacked along it. -/
abbrev tail : List (HloOp τ sig (Elt F)) :=
  [ unary main_v23 main_v277 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v46 main_v278 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v69 main_v279 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v92 main_v280 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v115 main_v281 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v138 main_v282 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v161 main_v283 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v184 main_v284 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v207 main_v285 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v230 main_v286 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v253 main_v287 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    unary main_v276 main_v288 (broadcastInDim S16x512x1x256 ![0, 1, 3] bcast_S16x512x256_S16x512x1x256_0_1_3 : (⟨S16x512x256, .f32⟩ : BufTy).Contents (Elt F) → (⟨S16x512x1x256, .f32⟩ : BufTy).Contents (Elt F)),
    nary ![main_v277, main_v278, main_v279, main_v280, main_v281, main_v282, main_v283, main_v284, main_v285, main_v286, main_v287, main_v288] main_v289 (fun u => concatenate S16x512x12x256 2 [⟨S16x512x1x256, u 0⟩, ⟨S16x512x1x256, u 1⟩, ⟨S16x512x1x256, u 2⟩, ⟨S16x512x1x256, u 3⟩, ⟨S16x512x1x256, u 4⟩, ⟨S16x512x1x256, u 5⟩, ⟨S16x512x1x256, u 6⟩, ⟨S16x512x1x256, u 7⟩, ⟨S16x512x1x256, u 8⟩, ⟨S16x512x1x256, u 9⟩, ⟨S16x512x1x256, u 10⟩, ⟨S16x512x1x256, u 11⟩] concatenates_S16x512x1x256_S16x512x1x256_S16x512x1x256_S16x512x1x256_S16x512x1x256_S16x512x1x256_S16x512x1x256_S16x512x1x256_S16x512x1x256_S16x512x1x256_S16x512x1x256_S16x512x1x256_S16x512x12x256_d2) ]

end Cert.ReferenceIdeal.Ops

end
-- ==== Proof.RefStepDef.lean ====
/-
  One time step of the reference as ONE function of the slice it works on: the definitions.

  `refStep xs q x1 x2` is the chain of host operations the reference applies to a [16, 512, 256] slice `xs` of its
  input (one time step, every batch row), the scale `q` (a rank-0 array), the weights `x1` and the bias `x2`:
  the batched product of the slice with its own transpose, the quotient by `q`, the clip at 0 (`refSim`), the row softmax
  — numerators (`refExp`) over their row sums (`refSoft`) —, the batched product with the slice, the product with the
  weights, the bias and the clip at 0.
-/
import proofs.«152771_g54185307406482_cont_9to1_m_905_3_alg».proof.ReferenceIdeal

noncomputable section

namespace Cert.ReferenceIdeal.Step

open Cert.ReferenceIdeal Idealize.ShloMosaic
open Facts₀ Facts

variable [Facts]

/-- The clipped, scaled similarities of one time step: [16, 512, 512]. -/
def refSim {F : FTy → Type} [FloatOps F] (xs : FVec F S16x512x256 .f32) (q : FVec F S_ .f32) : FVec F S16x512x512 .f32 :=
  maximumf
    (Host.divf (Host.dotGeneral dot_S16x512x256_S16x512x256_S16x512x512_2_2_1_1_0_0 none xs xs)
      (broadcastInDim S16x512x512 ![] bcast_S_S16x512x512 q))
    (broadcastInDim S16x512x512 ![] bcast_S_S16x512x512 (constant S_ .f32 0x00000000#32))

/-- The softmax numerators of a [16, 512, 512] array of similarities, row by row. -/
def refExp {F : FTy → Type} [FloatOps F] (p : FVec F S16x512x512 .f32) : FVec F S16x512x512 .f32 :=
  Host.exp (subf p
    (broadcastInDim S16x512x512 ![0, 1, 2] bcast_S16x512x1_S16x512x512_0_1_2
      (broadcastInDim S16x512x1 ![0, 1] bcast_S16x512_S16x512x1_0_1
        (maximumf (broadcastInDim S16x512 ![] bcast_S_S16x512 (constant S_ .f32 0xFF800000#32))
          (Host.reduce FloatOps.maximumf p (constant S_ .f32 0xFF800000#32) reducesTo_S16x512x512_S16x512_d2 h_S_)))))

/-- The softmax weights: the numerators over their row sums. -/
def refSoft {F : FTy → Type} [FloatOps F] (e : FVec F S16x512x512 .f32) : FVec F S16x512x512 .f32 :=
  Host.divf e
    (broadcastInDim S16x512x512 ![0, 1, 2] bcast_S16x512x1_S16x512x512_0_1_2
      (broadcastInDim S16x512x1 ![0, 1] bcast_S16x512_S16x512x1_0_1
        (Host.reduceAdd e (constant S_ .f32 0x00000000#32) reducesTo_S16x512x512_S16x512_d2 h_S_)))

/-- The reference's operations on one [16, 512, 256] slice. -/
def refStep {F : FTy → Type} [FloatOps F] (xs : FVec F S16x512x256 .f32) (q : FVec F S_ .f32) (x1 : FVec F S256x256 .f32)
    (x2 : FVec F S256 .f32) : FVec F S16x512x256 .f32 :=
  maximumf
    (addf
      (Host.dotGeneral dot_S16x512x256_S256x256_S16x512x256_2_0_01_1_n_n none
        (Host.dotGeneral dot_S16x512x512_S16x512x256_S16x512x256_2_1_1_2_0_0 none (refSoft (refExp (refSim xs q))) xs) x1)
      (broadcastInDim S16x512x256 ![0, 1, 2] bcast_S1x1x256_S16x512x256_0_1_2
        (broadcastInDim S1x1x256 ![2] bcast_S256_S1x1x256_2 x2)))
    (broadcastInDim S16x512x256 ![] bcast_S_S16x512x256 (constant S_ .f32 0x00000000#32))

end Cert.ReferenceIdeal.Step

end
-- ==== Proof.RefStackDef.lean ====
/-
  The reference's whole result as ONE term of its three arguments: the definitions.

  `refSlice t` is the input's slice at time step `t` with the unit time axis dropped, [16, 512, 256]; `refRes t` is the
  step function of that slice at the scale `sqrt 256`, given a unit time axis again; `refStack` stacks the twelve
  along the time axis.
-/
import proofs.«152771_g54185307406482_cont_9to1_m_905_3_alg».proof.Proof.RefStepDef

noncomputable section

namespace Cert.ReferenceIdeal.Step

open Cert.ReferenceIdeal Idealize.ShloMosaic
open Facts₀ Facts

variable [Facts]

/-- The input's slice at time step `t`, the unit time axis dropped. -/
def refSlice {F : FTy → Type} [FloatOps F] (t : Nat) (hs : S16x512x12x256.Slices ![0, 0, t, 0] S16x512x1x256)
    (a0 : FVec F S16x512x12x256 .f32) : FVec F S16x512x256 .f32 :=
  shapeCast S16x512x256 (extractStridedSlice S16x512x1x256 ![0, 0, t, 0] a0 hs) shapeCasts_S16x512x1x256_S16x512x256

/-- The scale: the square root of 256, a rank-0 array. -/
def refScale {F : FTy → Type} [FloatOps F] : FVec F S_ .f32 := Host.sqrt (constant S_ .f32 0x43800000#32)

/-- Time step `t`'s result with a unit time axis. -/
def refRes {F : FTy → Type} [FloatOps F] (t : Nat) (hs : S16x512x12x256.Slices ![0, 0, t, 0] S16x512x1x256)
    (a0 : FVec F S16x512x12x256 .f32) (a1 : FVec F S256x256 .f32) (a2 : FVec F S256 .f32) : FVec F S16x512x1x256 .f32 :=
  broadcastInDim S16x512x1x256 ![0, 1, 3] bcast_S16x512x256_S16x512x1x256_0_1_3
    (refStep (refSlice t hs a0) refScale a1 a2)

/-- The twelve results stacked along the time axis. -/
def refStack {F : FTy → Type} [FloatOps F] (a0 : FVec F S16x512x12x256 .f32) (a1 : FVec F S256x256 .f32)
    (a2 : FVec F S256 .f32) : FVec F S16x512x12x256 .f32 :=
  concatenate S16x512x12x256 2
    [⟨S16x512x1x256, refRes 0 slices_S16x512x12x256_S16x512x1x256_0_0_0_0 a0 a1 a2⟩,
     ⟨S16x512x1x256, refRes 1 slices_S16x512x12x256_S16x512x1x256_0_0_1_0 a0 a1 a2⟩,
     ⟨S16x512x1x256, refRes 2 slices_S16x512x12x256_S16x512x1x256_0_0_2_0 a0 a1 a2⟩,
     ⟨S16x512x1x256, refRes 3 slices_S16x512x12x256_S16x512x1x256_0_0_3_0 a0 a1 a2⟩,
     ⟨S16x512x1x256, refRes 4 slices_S16x512x12x256_S16x512x1x256_0_0_4_0 a0 a1 a2⟩,
     ⟨S16x512x1x256, refRes 5 slices_S16x512x12x256_S16x512x1x256_0_0_5_0 a0 a1 a2⟩,
     ⟨S16x512x1x256, refRes 6 slices_S16x512x12x256_S16x512x1x256_0_0_6_0 a0 a1 a2⟩,
     ⟨S16x512x1x256, refRes 7 slices_S16x512x12x256_S16x512x1x256_0_0_7_0 a0 a1 a2⟩,
     ⟨S16x512x1x256, refRes 8 slices_S16x512x12x256_S16x512x1x256_0_0_8_0 a0 a1 a2⟩,
     ⟨S16x512x1x256, refRes 9 slices_S16x512x12x256_S16x512x1x256_0_0_9_0 a0 a1 a2⟩,
     ⟨S16x512x1x256, refRes 10 slices_S16x512x12x256_S16x512x1x256_0_0_10_0 a0 a1 a2⟩,
     ⟨S16x512x1x256, refRes 11 slices_S16x512x12x256_S16x512x1x256_0_0_11_0 a0 a1 a2⟩]
    concatenates_S16x512x1x256_S16x512x1x256_S16x512x1x256_S16x512x1x256_S16x512x1x256_S16x512x1x256_S16x512x1x256_S16x512x1x256_S16x512x1x256_S16x512x1x256_S16x512x1x256_S16x512x1x256_S16x512x12x256_d2

end Cert.ReferenceIdeal.Step

end
-- ==== Proof.RefBlocks.lean ====
/-
  Lines of host operations as BLOCKS: a list of operations with the list of buffers it writes.

  A buffer outside a block's write list keeps its contents through the block, and blocks in a row write the union of
  their lists. So if a line leaves some function `G` of its starting contents in a buffer `r`, a suffix does not write
  `r`, and `G` reads nothing a prefix writes, then prefix, line and suffix in a row leave `G` of THEIR starting contents
  in `r` (`through`). A time step of the reference is such a line: it reads only the three arguments and the scale
  (`stepVal`), which no time step writes.
-/
import proofs.«152771_g54185307406482_cont_9to1_m_905_3_alg».proof.Proof.RefOps
import proofs.«152771_g54185307406482_cont_9to1_m_905_3_alg».proof.Proof.RefStackDef

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-! ## Blocks of operations -/

/-- Two lines in a row: the contents after the first are what the second starts from. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Two lines in a row write the union of what each writes. -/
theorem writes_app {l₁ l₂ : List (HloOp τ sig (Elt F))} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset :=
  List.forall_iff_forall_mem.mpr fun op hop => by
    rw [List.map_append, List.toFinset_append]
    rcases List.mem_append.mp hop with h | h
    · exact (List.forall_iff_forall_mem.mp h₁ op h).trans Finset.subset_union_left
    · exact (List.forall_iff_forall_mem.mp h₂ op h).trans Finset.subset_union_right

/-- A line of operations with the buffers it writes, and what the run asks of it: TensorCore buffers only, nothing
    allocated. -/
structure Blk (F : FTy → Type) [FloatOps F] where
  l : List (HloOp τ sig (Elt F))
  W : List (Ref sig .tc)
  hW : l.Forall fun op => op.writes ⊆ (W.map (Proc.devRef (τ := τ) .tc)).toFinset
  sub : l.Forall fun op => op.bufs ⊆ tcRefs τ sig
  fresh : ∀ op ∈ l, op.fresh = ∅

/-- The empty line. -/
def Blk.nil : Blk F := ⟨[], [], trivial, trivial, fun _ h => nomatch h⟩

/-- Two blocks in a row. -/
def Blk.app (a b : Blk F) : Blk F where
  l := a.l ++ b.l
  W := a.W ++ b.W
  hW := writes_app a.hW b.hW
  sub := List.forall_iff_forall_mem.mpr fun op hop => (List.mem_append.mp hop).elim
    (List.forall_iff_forall_mem.mp a.sub op) (List.forall_iff_forall_mem.mp b.sub op)
  fresh := fun op hop => (List.mem_append.mp hop).elim (a.fresh op) (b.fresh op)

/-- A buffer a block does not write keeps its contents through it. -/
theorem Blk.keep (b : Blk F) (V : Valuation τ sig (Elt F)) (r : Ref sig .tc) (h : r ∉ b.W) :
    after b.l V (Proc.devRef .tc r) = V (Proc.devRef .tc r) :=
  after_of_writes_sub b.l V b.hW h

/-- A result through a prefix and a suffix: if the line `l` leaves `G` of its starting contents in buffer `r`, the
    suffix does not write `r`, and `G` reads nothing the prefix writes, then prefix, `l` and suffix in a row leave `G` of
    THEIR starting contents in `r`. -/
theorem through (P S : Blk F) (l : List (HloOp τ sig (Elt F))) (r : Ref sig .tc)
    (G : Valuation τ sig (Elt F) → (Proc.devRef (τ := τ) .tc r).ty.Contents (Elt F))
    (hres : ∀ V, after l V (Proc.devRef .tc r) = G V) (hS : r ∉ S.W) (hG : ∀ V, G (after P.l V) = G V)
    (V : Valuation τ sig (Elt F)) : after (P.l ++ (l ++ S.l)) V (Proc.devRef .tc r) = G V := by
  rw [after_app, after_app, S.keep _ r hS, hres, hG]

/-! ## What a time step computes -/

/-- What step `t` computes from contents `V`: the step function of the input's slice `t`, with the scale, the weights
    and the bias read from `V`. -/
def stepVal (t : Nat) (hs : S16x512x12x256.Slices ![0, 0, t, 0] S16x512x1x256) (V : Valuation τ sig (Elt F)) :
    FVec F S16x512x256 .f32 :=
  Step.refStep (Step.refSlice t hs (V (Proc.devRef .tc main_arg0))) (V (Proc.devRef .tc main_v0))
    (V (Proc.devRef .tc main_arg1)) (V (Proc.devRef .tc main_arg2))

/-- It reads only the arguments and the scale: a block writing none of the four does not change it. -/
theorem stepVal_keep (P : Blk F) (h0 : main_arg0 ∉ P.W) (h1 : main_arg1 ∉ P.W) (h2 : main_arg2 ∉ P.W) (hq : main_v0 ∉ P.W)
    (t : Nat) (hs : S16x512x12x256.Slices ![0, 0, t, 0] S16x512x1x256) (V : Valuation τ sig (Elt F)) :
    stepVal t hs (after P.l V) = stepVal t hs V := by
  unfold stepVal
  rw [P.keep V main_arg0 h0, P.keep V main_arg1 h1, P.keep V main_arg2 h2, P.keep V main_v0 hq]

end Cert.ReferenceIdeal.Ops

end
-- ==== Proof.RefChunk0.lean ====
/-
  Time step 0 of the reference, run from any contents of the buffers: its thirty operations touch TensorCore buffers
  only and allocate nothing; they write the step's own thirty buffers and no other; and they leave in the step's last
  buffer the step function of the input's slice at this time step, read with the scale, the weights and the bias as they
  were before the step.
-/
import proofs.«152771_g54185307406482_cont_9to1_m_905_3_alg».proof.Proof.RefOps
import proofs.«152771_g54185307406482_cont_9to1_m_905_3_alg».proof.Proof.RefStackDef

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Every operation of the step touches TensorCore buffers only. -/
theorem step0_sub : (step0 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩

/-- No operation of the step allocates. -/
theorem step0_fresh : ∀ op ∈ (step0 : List (HloOp τ sig (Elt F))), op.fresh = ∅ := by
  intro _ h; (repeat (cases h with | head => rfl | tail _ h => ?_)); exact nomatch h

/-- The buffers the step writes. -/
abbrev step0_W : List (Ref sig .tc) :=
  [main_v1, main_v2, main_v3, main_v4, main_v5, main_call0_cst, main_call0_v0, main_v6, main_cst_0, main_v7, main_cst_1, main_v8, main_v9, main_v10, main_v11, main_v12, main_v13, main_cst_2, main_v14, main_v15, main_v16, main_v17, main_v18, main_v19, main_v20, main_v21, main_v22, main_call1_cst, main_call1_v0, main_v23]

/-- Each operation of the step writes a buffer of that list. -/
theorem step0_writes : (step0 : List (HloOp τ sig (Elt F))).Forall fun op =>
    op.writes ⊆ (step0_W.map (Proc.devRef (τ := τ) .tc)).toFinset := by
  simp only [List.Forall]
  repeat' apply And.intro
  all_goals
    simp only [nullary_writes, unary_writes, binary_writes, reshape_writes, Finset.singleton_subset_iff, List.mem_toFinset]
    exact List.mem_map_of_mem (by decide)

/-- A buffer the step does not write keeps its contents through it. -/
theorem step0_keep (V : Valuation τ sig (Elt F)) (r : Ref sig .tc) (h : r ∉ step0_W) :
    after step0 V (Proc.devRef .tc r) = V (Proc.devRef .tc r) :=
  after_of_writes_sub step0 V step0_writes h

/-- The step's result: the step function of the slice at time step 0. -/
theorem step0_res (V : Valuation τ sig (Elt F)) :
    after step0 V (Proc.devRef .tc main_v23)
      = Step.refStep (Step.refSlice 0 slices_S16x512x12x256_S16x512x1x256_0_0_0_0 (V (Proc.devRef .tc main_arg0)))
          (V (Proc.devRef .tc main_v0)) (V (Proc.devRef .tc main_arg1)) (V (Proc.devRef .tc main_arg2)) := by
  simp only [step0]
  after_results_simp <;> rfl

end Cert.ReferenceIdeal.Ops

end
-- ==== Proof.RefChunk1.lean ====
/- The text of the module for time step 0 with the step's names substituted: value K of step 0 is value K + 23,
   constant j is constant j + 3, the inlined calls 0 and 1 are calls 2 and 3, the slice is at time index 1.
  Time step 1 of the reference, run from any contents of the buffers: its thirty operations touch TensorCore buffers
  only and allocate nothing; they write the step's own thirty buffers and no other; and they leave in the step's last
  buffer the step function of the input's slice at this time step, read with the scale, the weights and the bias as they
  were before the step.
-/
import proofs.«152771_g54185307406482_cont_9to1_m_905_3_alg».proof.Proof.RefOps
import proofs.«152771_g54185307406482_cont_9to1_m_905_3_alg».proof.Proof.RefStackDef

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Every operation of the step touches TensorCore buffers only. -/
theorem step1_sub : (step1 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩

/-- No operation of the step allocates. -/
theorem step1_fresh : ∀ op ∈ (step1 : List (HloOp τ sig (Elt F))), op.fresh = ∅ := by
  intro _ h; (repeat (cases h with | head => rfl | tail _ h => ?_)); exact nomatch h

/-- The buffers the step writes. -/
abbrev step1_W : List (Ref sig .tc) :=
  [main_v24, main_v25, main_v26, main_v27, main_v28, main_call2_cst, main_call2_v0, main_v29, main_cst_3, main_v30, main_cst_4, main_v31, main_v32, main_v33, main_v34, main_v35, main_v36, main_cst_5, main_v37, main_v38, main_v39, main_v40, main_v41, main_v42, main_v43, main_v44, main_v45, main_call3_cst, main_call3_v0, main_v46]

/-- Each operation of the step writes a buffer of that list. -/
theorem step1_writes : (step1 : List (HloOp τ sig (Elt F))).Forall fun op =>
    op.writes ⊆ (step1_W.map (Proc.devRef (τ := τ) .tc)).toFinset := by
  simp only [List.Forall]
  repeat' apply And.intro
  all_goals
    simp only [nullary_writes, unary_writes, binary_writes, reshape_writes, Finset.singleton_subset_iff, List.mem_toFinset]
    exact List.mem_map_of_mem (by decide)

/-- A buffer the step does not write keeps its contents through it. -/
theorem step1_keep (V : Valuation τ sig (Elt F)) (r : Ref sig .tc) (h : r ∉ step1_W) :
    after step1 V (Proc.devRef .tc r) = V (Proc.devRef .tc r) :=
  after_of_writes_sub step1 V step1_writes h

/-- The step's result: the step function of the slice at time step 1. -/
theorem step1_res (V : Valuation τ sig (Elt F)) :
    after step1 V (Proc.devRef .tc main_v46)
      = Step.refStep (Step.refSlice 1 slices_S16x512x12x256_S16x512x1x256_0_0_1_0 (V (Proc.devRef .tc main_arg0)))
          (V (Proc.devRef .tc main_v0)) (V (Proc.devRef .tc main_arg1)) (V (Proc.devRef .tc main_arg2)) := by
  simp only [step1]
  after_results_simp <;> rfl

end Cert.ReferenceIdeal.Ops

end
-- ==== Proof.RefChunk2.lean ====
/- The text of the module for time step 0 with the step's names substituted: value K of step 0 is value K + 46,
   constant j is constant j + 6, the inlined calls 0 and 1 are calls 4 and 5, the slice is at time index 2.
  Time step 2 of the reference, run from any contents of the buffers: its thirty operations touch TensorCore buffers
  only and allocate nothing; they write the step's own thirty buffers and no other; and they leave in the step's last
  buffer the step function of the input's slice at this time step, read with the scale, the weights and the bias as they
  were before the step.
-/
import proofs.«152771_g54185307406482_cont_9to1_m_905_3_alg».proof.Proof.RefOps
import proofs.«152771_g54185307406482_cont_9to1_m_905_3_alg».proof.Proof.RefStackDef

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Every operation of the step touches TensorCore buffers only. -/
theorem step2_sub : (step2 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩

/-- No operation of the step allocates. -/
theorem step2_fresh : ∀ op ∈ (step2 : List (HloOp τ sig (Elt F))), op.fresh = ∅ := by
  intro _ h; (repeat (cases h with | head => rfl | tail _ h => ?_)); exact nomatch h

/-- The buffers the step writes. -/
abbrev step2_W : List (Ref sig .tc) :=
  [main_v47, main_v48, main_v49, main_v50, main_v51, main_call4_cst, main_call4_v0, main_v52, main_cst_6, main_v53, main_cst_7, main_v54, main_v55, main_v56, main_v57, main_v58, main_v59, main_cst_8, main_v60, main_v61, main_v62, main_v63, main_v64, main_v65, main_v66, main_v67, main_v68, main_call5_cst, main_call5_v0, main_v69]

/-- Each operation of the step writes a buffer of that list. -/
theorem step2_writes : (step2 : List (HloOp τ sig (Elt F))).Forall fun op =>
    op.writes ⊆ (step2_W.map (Proc.devRef (τ := τ) .tc)).toFinset := by
  simp only [List.Forall]
  repeat' apply And.intro
  all_goals
    simp only [nullary_writes, unary_writes, binary_writes, reshape_writes, Finset.singleton_subset_iff, List.mem_toFinset]
    exact List.mem_map_of_mem (by decide)

/-- A buffer the step does not write keeps its contents through it. -/
theorem step2_keep (V : Valuation τ sig (Elt F)) (r : Ref sig .tc) (h : r ∉ step2_W) :
    after step2 V (Proc.devRef .tc r) = V (Proc.devRef .tc r) :=
  after_of_writes_sub step2 V step2_writes h

/-- The step's result: the step function of the slice at time step 2. -/
theorem step2_res (V : Valuation τ sig (Elt F)) :
    after step2 V (Proc.devRef .tc main_v69)
      = Step.refStep (Step.refSlice 2 slices_S16x512x12x256_S16x512x1x256_0_0_2_0 (V (Proc.devRef .tc main_arg0)))
          (V (Proc.devRef .tc main_v0)) (V (Proc.devRef .tc main_arg1)) (V (Proc.devRef .tc main_arg2)) := by
  simp only [step2]
  after_results_simp <;> rfl

end Cert.ReferenceIdeal.Ops

end
-- ==== Proof.RefChunk3.lean ====
/- The text of the module for time step 0 with the step's names substituted: value K of step 0 is value K + 69,
   constant j is constant j + 9, the inlined calls 0 and 1 are calls 6 and 7, the slice is at time index 3.
  Time step 3 of the reference, run from any contents of the buffers: its thirty operations touch TensorCore buffers
  only and allocate nothing; they write the step's own thirty buffers and no other; and they leave in the step's last
  buffer the step function of the input's slice at this time step, read with the scale, the weights and the bias as they
  were before the step.
-/
import proofs.«152771_g54185307406482_cont_9to1_m_905_3_alg».proof.Proof.RefOps
import proofs.«152771_g54185307406482_cont_9to1_m_905_3_alg».proof.Proof.RefStackDef

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Every operation of the step touches TensorCore buffers only. -/
theorem step3_sub : (step3 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩

/-- No operation of the step allocates. -/
theorem step3_fresh : ∀ op ∈ (step3 : List (HloOp τ sig (Elt F))), op.fresh = ∅ := by
  intro _ h; (repeat (cases h with | head => rfl | tail _ h => ?_)); exact nomatch h

/-- The buffers the step writes. -/
abbrev step3_W : List (Ref sig .tc) :=
  [main_v70, main_v71, main_v72, main_v73, main_v74, main_call6_cst, main_call6_v0, main_v75, main_cst_9, main_v76, main_cst_10, main_v77, main_v78, main_v79, main_v80, main_v81, main_v82, main_cst_11, main_v83, main_v84, main_v85, main_v86, main_v87, main_v88, main_v89, main_v90, main_v91, main_call7_cst, main_call7_v0, main_v92]

/-- Each operation of the step writes a buffer of that list. -/
theorem step3_writes : (step3 : List (HloOp τ sig (Elt F))).Forall fun op =>
    op.writes ⊆ (step3_W.map (Proc.devRef (τ := τ) .tc)).toFinset := by
  simp only [List.Forall]
  repeat' apply And.intro
  all_goals
    simp only [nullary_writes, unary_writes, binary_writes, reshape_writes, Finset.singleton_subset_iff, List.mem_toFinset]
    exact List.mem_map_of_mem (by decide)

/-- A buffer the step does not write keeps its contents through it. -/
theorem step3_keep (V : Valuation τ sig (Elt F)) (r : Ref sig .tc) (h : r ∉ step3_W) :
    after step3 V (Proc.devRef .tc r) = V (Proc.devRef .tc r) :=
  after_of_writes_sub step3 V step3_writes h

/-- The step's result: the step function of the slice at time step 3. -/
theorem step3_res (V : Valuation τ sig (Elt F)) :
    after step3 V (Proc.devRef .tc main_v92)
      = Step.refStep (Step.refSlice 3 slices_S16x512x12x256_S16x512x1x256_0_0_3_0 (V (Proc.devRef .tc main_arg0)))
          (V (Proc.devRef .tc main_v0)) (V (Proc.devRef .tc main_arg1)) (V (Proc.devRef .tc main_arg2)) := by
  simp only [step3]
  after_results_simp <;> rfl

end Cert.ReferenceIdeal.Ops

end
-- ==== Proof.RefChunk4.lean ====
/- The text of the module for time step 0 with the step's names substituted: value K of step 0 is value K + 92,
   constant j is constant j + 12, the inlined calls 0 and 1 are calls 8 and 9, the slice is at time index 4.
  Time step 4 of the reference, run from any contents of the buffers: its thirty operations touch TensorCore buffers
  only and allocate nothing; they write the step's own thirty buffers and no other; and they leave in the step's last
  buffer the step function of the input's slice at this time step, read with the scale, the weights and the bias as they
  were before the step.
-/
import proofs.«152771_g54185307406482_cont_9to1_m_905_3_alg».proof.Proof.RefOps
import proofs.«152771_g54185307406482_cont_9to1_m_905_3_alg».proof.Proof.RefStackDef

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Every operation of the step touches TensorCore buffers only. -/
theorem step4_sub : (step4 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩

/-- No operation of the step allocates. -/
theorem step4_fresh : ∀ op ∈ (step4 : List (HloOp τ sig (Elt F))), op.fresh = ∅ := by
  intro _ h; (repeat (cases h with | head => rfl | tail _ h => ?_)); exact nomatch h

/-- The buffers the step writes. -/
abbrev step4_W : List (Ref sig .tc) :=
  [main_v93, main_v94, main_v95, main_v96, main_v97, main_call8_cst, main_call8_v0, main_v98, main_cst_12, main_v99, main_cst_13, main_v100, main_v101, main_v102, main_v103, main_v104, main_v105, main_cst_14, main_v106, main_v107, main_v108, main_v109, main_v110, main_v111, main_v112, main_v113, main_v114, main_call9_cst, main_call9_v0, main_v115]

/-- Each operation of the step writes a buffer of that list. -/
theorem step4_writes : (step4 : List (HloOp τ sig (Elt F))).Forall fun op =>
    op.writes ⊆ (step4_W.map (Proc.devRef (τ := τ) .tc)).toFinset := by
  simp only [List.Forall]
  repeat' apply And.intro
  all_goals
    simp only [nullary_writes, unary_writes, binary_writes, reshape_writes, Finset.singleton_subset_iff, List.mem_toFinset]
    exact List.mem_map_of_mem (by decide)

/-- A buffer the step does not write keeps its contents through it. -/
theorem step4_keep (V : Valuation τ sig (Elt F)) (r : Ref sig .tc) (h : r ∉ step4_W) :
    after step4 V (Proc.devRef .tc r) = V (Proc.devRef .tc r) :=
  after_of_writes_sub step4 V step4_writes h

/-- The step's result: the step function of the slice at time step 4. -/
theorem step4_res (V : Valuation τ sig (Elt F)) :
    after step4 V (Proc.devRef .tc main_v115)
      = Step.refStep (Step.refSlice 4 slices_S16x512x12x256_S16x512x1x256_0_0_4_0 (V (Proc.devRef .tc main_arg0)))
          (V (Proc.devRef .tc main_v0)) (V (Proc.devRef .tc main_arg1)) (V (Proc.devRef .tc main_arg2)) := by
  simp only [step4]
  after_results_simp <;> rfl

end Cert.ReferenceIdeal.Ops

end
-- ==== Proof.RefChunk5.lean ====
/- The text of the module for time step 0 with the step's names substituted: value K of step 0 is value K + 115,
   constant j is constant j + 15, the inlined calls 0 and 1 are calls 10 and 11, the slice is at time index 5.
  Time step 5 of the reference, run from any contents of the buffers: its thirty operations touch TensorCore buffers
  only and allocate nothing; they write the step's own thirty buffers and no other; and they leave in the step's last
  buffer the step function of the input's slice at this time step, read with the scale, the weights and the bias as they
  were before the step.
-/
import proofs.«152771_g54185307406482_cont_9to1_m_905_3_alg».proof.Proof.RefOps
import proofs.«152771_g54185307406482_cont_9to1_m_905_3_alg».proof.Proof.RefStackDef

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Every operation of the step touches TensorCore buffers only. -/
theorem step5_sub : (step5 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩

/-- No operation of the step allocates. -/
theorem step5_fresh : ∀ op ∈ (step5 : List (HloOp τ sig (Elt F))), op.fresh = ∅ := by
  intro _ h; (repeat (cases h with | head => rfl | tail _ h => ?_)); exact nomatch h

/-- The buffers the step writes. -/
abbrev step5_W : List (Ref sig .tc) :=
  [main_v116, main_v117, main_v118, main_v119, main_v120, main_call10_cst, main_call10_v0, main_v121, main_cst_15, main_v122, main_cst_16, main_v123, main_v124, main_v125, main_v126, main_v127, main_v128, main_cst_17, main_v129, main_v130, main_v131, main_v132, main_v133, main_v134, main_v135, main_v136, main_v137, main_call11_cst, main_call11_v0, main_v138]

/-- Each operation of the step writes a buffer of that list. -/
theorem step5_writes : (step5 : List (HloOp τ sig (Elt F))).Forall fun op =>
    op.writes ⊆ (step5_W.map (Proc.devRef (τ := τ) .tc)).toFinset := by
  simp only [List.Forall]
  repeat' apply And.intro
  all_goals
    simp only [nullary_writes, unary_writes, binary_writes, reshape_writes, Finset.singleton_subset_iff, List.mem_toFinset]
    exact List.mem_map_of_mem (by decide)

/-- A buffer the step does not write keeps its contents through it. -/
theorem step5_keep (V : Valuation τ sig (Elt F)) (r : Ref sig .tc) (h : r ∉ step5_W) :
    after step5 V (Proc.devRef .tc r) = V (Proc.devRef .tc r) :=
  after_of_writes_sub step5 V step5_writes h

/-- The step's result: the step function of the slice at time step 5. -/
theorem step5_res (V : Valuation τ sig (Elt F)) :
    after step5 V (Proc.devRef .tc main_v138)
      = Step.refStep (Step.refSlice 5 slices_S16x512x12x256_S16x512x1x256_0_0_5_0 (V (Proc.devRef .tc main_arg0)))
          (V (Proc.devRef .tc main_v0)) (V (Proc.devRef .tc main_arg1)) (V (Proc.devRef .tc main_arg2)) := by
  simp only [step5]
  after_results_simp <;> rfl

end Cert.ReferenceIdeal.Ops

end
-- ==== Proof.RefChunk6.lean ====
/- The text of the module for time step 0 with the step's names substituted: value K of step 0 is value K + 138,
   constant j is constant j + 18, the inlined calls 0 and 1 are calls 12 and 13, the slice is at time index 6.
  Time step 6 of the reference, run from any contents of the buffers: its thirty operations touch TensorCore buffers
  only and allocate nothing; they write the step's own thirty buffers and no other; and they leave in the step's last
  buffer the step function of the input's slice at this time step, read with the scale, the weights and the bias as they
  were before the step.
-/
import proofs.«152771_g54185307406482_cont_9to1_m_905_3_alg».proof.Proof.RefOps
import proofs.«152771_g54185307406482_cont_9to1_m_905_3_alg».proof.Proof.RefStackDef

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Every operation of the step touches TensorCore buffers only. -/
theorem step6_sub : (step6 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩

/-- No operation of the step allocates. -/
theorem step6_fresh : ∀ op ∈ (step6 : List (HloOp τ sig (Elt F))), op.fresh = ∅ := by
  intro _ h; (repeat (cases h with | head => rfl | tail _ h => ?_)); exact nomatch h

/-- The buffers the step writes. -/
abbrev step6_W : List (Ref sig .tc) :=
  [main_v139, main_v140, main_v141, main_v142, main_v143, main_call12_cst, main_call12_v0, main_v144, main_cst_18, main_v145, main_cst_19, main_v146, main_v147, main_v148, main_v149, main_v150, main_v151, main_cst_20, main_v152, main_v153, main_v154, main_v155, main_v156, main_v157, main_v158, main_v159, main_v160, main_call13_cst, main_call13_v0, main_v161]

/-- Each operation of the step writes a buffer of that list. -/
theorem step6_writes : (step6 : List (HloOp τ sig (Elt F))).Forall fun op =>
    op.writes ⊆ (step6_W.map (Proc.devRef (τ := τ) .tc)).toFinset := by
  simp only [List.Forall]
  repeat' apply And.intro
  all_goals
    simp only [nullary_writes, unary_writes, binary_writes, reshape_writes, Finset.singleton_subset_iff, List.mem_toFinset]
    exact List.mem_map_of_mem (by decide)

/-- A buffer the step does not write keeps its contents through it. -/
theorem step6_keep (V : Valuation τ sig (Elt F)) (r : Ref sig .tc) (h : r ∉ step6_W) :
    after step6 V (Proc.devRef .tc r) = V (Proc.devRef .tc r) :=
  after_of_writes_sub step6 V step6_writes h

/-- The step's result: the step function of the slice at time step 6. -/
theorem step6_res (V : Valuation τ sig (Elt F)) :
    after step6 V (Proc.devRef .tc main_v161)
      = Step.refStep (Step.refSlice 6 slices_S16x512x12x256_S16x512x1x256_0_0_6_0 (V (Proc.devRef .tc main_arg0)))
          (V (Proc.devRef .tc main_v0)) (V (Proc.devRef .tc main_arg1)) (V (Proc.devRef .tc main_arg2)) := by
  simp only [step6]
  after_results_simp <;> rfl

end Cert.ReferenceIdeal.Ops

end
-- ==== Proof.RefChunk7.lean ====
/- The text of the module for time step 0 with the step's names substituted: value K of step 0 is value K + 161,
   constant j is constant j + 21, the inlined calls 0 and 1 are calls 14 and 15, the slice is at time index 7.
  Time step 7 of the reference, run from any contents of the buffers: its thirty operations touch TensorCore buffers
  only and allocate nothing; they write the step's own thirty buffers and no other; and they leave in the step's last
  buffer the step function of the input's slice at this time step, read with the scale, the weights and the bias as they
  were before the step.
-/
import proofs.«152771_g54185307406482_cont_9to1_m_905_3_alg».proof.Proof.RefOps
import proofs.«152771_g54185307406482_cont_9to1_m_905_3_alg».proof.Proof.RefStackDef

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Every operation of the step touches TensorCore buffers only. -/
theorem step7_sub : (step7 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩

/-- No operation of the step allocates. -/
theorem step7_fresh : ∀ op ∈ (step7 : List (HloOp τ sig (Elt F))), op.fresh = ∅ := by
  intro _ h; (repeat (cases h with | head => rfl | tail _ h => ?_)); exact nomatch h

/-- The buffers the step writes. -/
abbrev step7_W : List (Ref sig .tc) :=
  [main_v162, main_v163, main_v164, main_v165, main_v166, main_call14_cst, main_call14_v0, main_v167, main_cst_21, main_v168, main_cst_22, main_v169, main_v170, main_v171, main_v172, main_v173, main_v174, main_cst_23, main_v175, main_v176, main_v177, main_v178, main_v179, main_v180, main_v181, main_v182, main_v183, main_call15_cst, main_call15_v0, main_v184]

/-- Each operation of the step writes a buffer of that list. -/
theorem step7_writes : (step7 : List (HloOp τ sig (Elt F))).Forall fun op =>
    op.writes ⊆ (step7_W.map (Proc.devRef (τ := τ) .tc)).toFinset := by
  simp only [List.Forall]
  repeat' apply And.intro
  all_goals
    simp only [nullary_writes, unary_writes, binary_writes, reshape_writes, Finset.singleton_subset_iff, List.mem_toFinset]
    exact List.mem_map_of_mem (by decide)

/-- A buffer the step does not write keeps its contents through it. -/
theorem step7_keep (V : Valuation τ sig (Elt F)) (r : Ref sig .tc) (h : r ∉ step7_W) :
    after step7 V (Proc.devRef .tc r) = V (Proc.devRef .tc r) :=
  after_of_writes_sub step7 V step7_writes h

/-- The step's result: the step function of the slice at time step 7. -/
theorem step7_res (V : Valuation τ sig (Elt F)) :
    after step7 V (Proc.devRef .tc main_v184)
      = Step.refStep (Step.refSlice 7 slices_S16x512x12x256_S16x512x1x256_0_0_7_0 (V (Proc.devRef .tc main_arg0)))
          (V (Proc.devRef .tc main_v0)) (V (Proc.devRef .tc main_arg1)) (V (Proc.devRef .tc main_arg2)) := by
  simp only [step7]
  after_results_simp <;> rfl

end Cert.ReferenceIdeal.Ops

end
-- ==== Proof.RefChunk8.lean ====
/- The text of the module for time step 0 with the step's names substituted: value K of step 0 is value K + 184,
   constant j is constant j + 24, the inlined calls 0 and 1 are calls 16 and 17, the slice is at time index 8.
  Time step 8 of the reference, run from any contents of the buffers: its thirty operations touch TensorCore buffers
  only and allocate nothing; they write the step's own thirty buffers and no other; and they leave in the step's last
  buffer the step function of the input's slice at this time step, read with the scale, the weights and the bias as they
  were before the step.
-/
import proofs.«152771_g54185307406482_cont_9to1_m_905_3_alg».proof.Proof.RefOps
import proofs.«152771_g54185307406482_cont_9to1_m_905_3_alg».proof.Proof.RefStackDef

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Every operation of the step touches TensorCore buffers only. -/
theorem step8_sub : (step8 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩

/-- No operation of the step allocates. -/
theorem step8_fresh : ∀ op ∈ (step8 : List (HloOp τ sig (Elt F))), op.fresh = ∅ := by
  intro _ h; (repeat (cases h with | head => rfl | tail _ h => ?_)); exact nomatch h

/-- The buffers the step writes. -/
abbrev step8_W : List (Ref sig .tc) :=
  [main_v185, main_v186, main_v187, main_v188, main_v189, main_call16_cst, main_call16_v0, main_v190, main_cst_24, main_v191, main_cst_25, main_v192, main_v193, main_v194, main_v195, main_v196, main_v197, main_cst_26, main_v198, main_v199, main_v200, main_v201, main_v202, main_v203, main_v204, main_v205, main_v206, main_call17_cst, main_call17_v0, main_v207]

/-- Each operation of the step writes a buffer of that list. -/
theorem step8_writes : (step8 : List (HloOp τ sig (Elt F))).Forall fun op =>
    op.writes ⊆ (step8_W.map (Proc.devRef (τ := τ) .tc)).toFinset := by
  simp only [List.Forall]
  repeat' apply And.intro
  all_goals
    simp only [nullary_writes, unary_writes, binary_writes, reshape_writes, Finset.singleton_subset_iff, List.mem_toFinset]
    exact List.mem_map_of_mem (by decide)

/-- A buffer the step does not write keeps its contents through it. -/
theorem step8_keep (V : Valuation τ sig (Elt F)) (r : Ref sig .tc) (h : r ∉ step8_W) :
    after step8 V (Proc.devRef .tc r) = V (Proc.devRef .tc r) :=
  after_of_writes_sub step8 V step8_writes h

/-- The step's result: the step function of the slice at time step 8. -/
theorem step8_res (V : Valuation τ sig (Elt F)) :
    after step8 V (Proc.devRef .tc main_v207)
      = Step.refStep (Step.refSlice 8 slices_S16x512x12x256_S16x512x1x256_0_0_8_0 (V (Proc.devRef .tc main_arg0)))
          (V (Proc.devRef .tc main_v0)) (V (Proc.devRef .tc main_arg1)) (V (Proc.devRef .tc main_arg2)) := by
  simp only [step8]
  after_results_simp <;> rfl

end Cert.ReferenceIdeal.Ops

end
-- ==== Proof.RefChunk9.lean ====
/- The text of the module for time step 0 with the step's names substituted: value K of step 0 is value K + 207,
   constant j is constant j + 27, the inlined calls 0 and 1 are calls 18 and 19, the slice is at time index 9.
  Time step 9 of the reference, run from any contents of the buffers: its thirty operations touch TensorCore buffers
  only and allocate nothing; they write the step's own thirty buffers and no other; and they leave in the step's last
  buffer the step function of the input's slice at this time step, read with the scale, the weights and the bias as they
  were before the step.
-/
import proofs.«152771_g54185307406482_cont_9to1_m_905_3_alg».proof.Proof.RefOps
import proofs.«152771_g54185307406482_cont_9to1_m_905_3_alg».proof.Proof.RefStackDef

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Every operation of the step touches TensorCore buffers only. -/
theorem step9_sub : (step9 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩

/-- No operation of the step allocates. -/
theorem step9_fresh : ∀ op ∈ (step9 : List (HloOp τ sig (Elt F))), op.fresh = ∅ := by
  intro _ h; (repeat (cases h with | head => rfl | tail _ h => ?_)); exact nomatch h

/-- The buffers the step writes. -/
abbrev step9_W : List (Ref sig .tc) :=
  [main_v208, main_v209, main_v210, main_v211, main_v212, main_call18_cst, main_call18_v0, main_v213, main_cst_27, main_v214, main_cst_28, main_v215, main_v216, main_v217, main_v218, main_v219, main_v220, main_cst_29, main_v221, main_v222, main_v223, main_v224, main_v225, main_v226, main_v227, main_v228, main_v229, main_call19_cst, main_call19_v0, main_v230]

/-- Each operation of the step writes a buffer of that list. -/
theorem step9_writes : (step9 : List (HloOp τ sig (Elt F))).Forall fun op =>
    op.writes ⊆ (step9_W.map (Proc.devRef (τ := τ) .tc)).toFinset := by
  simp only [List.Forall]
  repeat' apply And.intro
  all_goals
    simp only [nullary_writes, unary_writes, binary_writes, reshape_writes, Finset.singleton_subset_iff, List.mem_toFinset]
    exact List.mem_map_of_mem (by decide)

/-- A buffer the step does not write keeps its contents through it. -/
theorem step9_keep (V : Valuation τ sig (Elt F)) (r : Ref sig .tc) (h : r ∉ step9_W) :
    after step9 V (Proc.devRef .tc r) = V (Proc.devRef .tc r) :=
  after_of_writes_sub step9 V step9_writes h

/-- The step's result: the step function of the slice at time step 9. -/
theorem step9_res (V : Valuation τ sig (Elt F)) :
    after step9 V (Proc.devRef .tc main_v230)
      = Step.refStep (Step.refSlice 9 slices_S16x512x12x256_S16x512x1x256_0_0_9_0 (V (Proc.devRef .tc main_arg0)))
          (V (Proc.devRef .tc main_v0)) (V (Proc.devRef .tc main_arg1)) (V (Proc.devRef .tc main_arg2)) := by
  simp only [step9]
  after_results_simp <;> rfl

end Cert.ReferenceIdeal.Ops

end
-- ==== Proof.RefChunk10.lean ====
/- The text of the module for time step 0 with the step's names substituted: value K of step 0 is value K + 230,
   constant j is constant j + 30, the inlined calls 0 and 1 are calls 20 and 21, the slice is at time index 10.
  Time step 10 of the reference, run from any contents of the buffers: its thirty operations touch TensorCore buffers
  only and allocate nothing; they write the step's own thirty buffers and no other; and they leave in the step's last
  buffer the step function of the input's slice at this time step, read with the scale, the weights and the bias as they
  were before the step.
-/
import proofs.«152771_g54185307406482_cont_9to1_m_905_3_alg».proof.Proof.RefOps
import proofs.«152771_g54185307406482_cont_9to1_m_905_3_alg».proof.Proof.RefStackDef

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Every operation of the step touches TensorCore buffers only. -/
theorem step10_sub : (step10 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩

/-- No operation of the step allocates. -/
theorem step10_fresh : ∀ op ∈ (step10 : List (HloOp τ sig (Elt F))), op.fresh = ∅ := by
  intro _ h; (repeat (cases h with | head => rfl | tail _ h => ?_)); exact nomatch h

/-- The buffers the step writes. -/
abbrev step10_W : List (Ref sig .tc) :=
  [main_v231, main_v232, main_v233, main_v234, main_v235, main_call20_cst, main_call20_v0, main_v236, main_cst_30, main_v237, main_cst_31, main_v238, main_v239, main_v240, main_v241, main_v242, main_v243, main_cst_32, main_v244, main_v245, main_v246, main_v247, main_v248, main_v249, main_v250, main_v251, main_v252, main_call21_cst, main_call21_v0, main_v253]

/-- Each operation of the step writes a buffer of that list. -/
theorem step10_writes : (step10 : List (HloOp τ sig (Elt F))).Forall fun op =>
    op.writes ⊆ (step10_W.map (Proc.devRef (τ := τ) .tc)).toFinset := by
  simp only [List.Forall]
  repeat' apply And.intro
  all_goals
    simp only [nullary_writes, unary_writes, binary_writes, reshape_writes, Finset.singleton_subset_iff, List.mem_toFinset]
    exact List.mem_map_of_mem (by decide)

/-- A buffer the step does not write keeps its contents through it. -/
theorem step10_keep (V : Valuation τ sig (Elt F)) (r : Ref sig .tc) (h : r ∉ step10_W) :
    after step10 V (Proc.devRef .tc r) = V (Proc.devRef .tc r) :=
  after_of_writes_sub step10 V step10_writes h

/-- The step's result: the step function of the slice at time step 10. -/
theorem step10_res (V : Valuation τ sig (Elt F)) :
    after step10 V (Proc.devRef .tc main_v253)
      = Step.refStep (Step.refSlice 10 slices_S16x512x12x256_S16x512x1x256_0_0_10_0 (V (Proc.devRef .tc main_arg0)))
          (V (Proc.devRef .tc main_v0)) (V (Proc.devRef .tc main_arg1)) (V (Proc.devRef .tc main_arg2)) := by
  simp only [step10]
  after_results_simp <;> rfl

end Cert.ReferenceIdeal.Ops

end
-- ==== Proof.RefChunk11.lean ====
/- The text of the module for time step 0 with the step's names substituted: value K of step 0 is value K + 253,
   constant j is constant j + 33, the inlined calls 0 and 1 are calls 22 and 23, the slice is at time index 11.
  Time step 11 of the reference, run from any contents of the buffers: its thirty operations touch TensorCore buffers
  only and allocate nothing; they write the step's own thirty buffers and no other; and they leave in the step's last
  buffer the step function of the input's slice at this time step, read with the scale, the weights and the bias as they
  were before the step.
-/
import proofs.«152771_g54185307406482_cont_9to1_m_905_3_alg».proof.Proof.RefOps
import proofs.«152771_g54185307406482_cont_9to1_m_905_3_alg».proof.Proof.RefStackDef

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Every operation of the step touches TensorCore buffers only. -/
theorem step11_sub : (step11 : List (HloOp τ sig (Elt F))).Forall fun op => op.bufs ⊆ tcRefs τ sig :=
  ⟨unary_bufs_sub .., reshape_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub ..⟩

/-- No operation of the step allocates. -/
theorem step11_fresh : ∀ op ∈ (step11 : List (HloOp τ sig (Elt F))), op.fresh = ∅ := by
  intro _ h; (repeat (cases h with | head => rfl | tail _ h => ?_)); exact nomatch h

/-- The buffers the step writes. -/
abbrev step11_W : List (Ref sig .tc) :=
  [main_v254, main_v255, main_v256, main_v257, main_v258, main_call22_cst, main_call22_v0, main_v259, main_cst_33, main_v260, main_cst_34, main_v261, main_v262, main_v263, main_v264, main_v265, main_v266, main_cst_35, main_v267, main_v268, main_v269, main_v270, main_v271, main_v272, main_v273, main_v274, main_v275, main_call23_cst, main_call23_v0, main_v276]

/-- Each operation of the step writes a buffer of that list. -/
theorem step11_writes : (step11 : List (HloOp τ sig (Elt F))).Forall fun op =>
    op.writes ⊆ (step11_W.map (Proc.devRef (τ := τ) .tc)).toFinset := by
  simp only [List.Forall]
  repeat' apply And.intro
  all_goals
    simp only [nullary_writes, unary_writes, binary_writes, reshape_writes, Finset.singleton_subset_iff, List.mem_toFinset]
    exact List.mem_map_of_mem (by decide)

/-- A buffer the step does not write keeps its contents through it. -/
theorem step11_keep (V : Valuation τ sig (Elt F)) (r : Ref sig .tc) (h : r ∉ step11_W) :
    after step11 V (Proc.devRef .tc r) = V (Proc.devRef .tc r) :=
  after_of_writes_sub step11 V step11_writes h

/-- The step's result: the step function of the slice at time step 11. -/
theorem step11_res (V : Valuation τ sig (Elt F)) :
    after step11 V (Proc.devRef .tc main_v276)
      = Step.refStep (Step.refSlice 11 slices_S16x512x12x256_S16x512x1x256_0_0_11_0 (V (Proc.devRef .tc main_arg0)))
          (V (Proc.devRef .tc main_v0)) (V (Proc.devRef .tc main_arg1)) (V (Proc.devRef .tc main_arg2)) := by
  simp only [step11]
  after_results_simp <;> rfl

end Cert.ReferenceIdeal.Ops

end
-- ==== Proof.RefMid.lean ====
/- A table of twelve cases over the block lemmas: time step t as a block (b_t), the steps before it (P_t) and after
   it (S_t) in a row, the twelve in a row as prefix, step, suffix (mid_eq_t), and result t read after all twelve
   steps as the step function of the contents they started from (mid_res_t: `through` at P_t, step t, S_t; the step's
   result buffer is value 23 (t + 1), outside every later step's write list, and the three arguments and the scale are
   outside every step's write list: each membership decided). -/
import proofs.«152771_g54185307406482_cont_9to1_m_905_3_alg».proof.Proof.RefBlocks
import proofs.«152771_g54185307406482_cont_9to1_m_905_3_alg».proof.Proof.RefChunk0
import proofs.«152771_g54185307406482_cont_9to1_m_905_3_alg».proof.Proof.RefChunk1
import proofs.«152771_g54185307406482_cont_9to1_m_905_3_alg».proof.Proof.RefChunk2
import proofs.«152771_g54185307406482_cont_9to1_m_905_3_alg».proof.Proof.RefChunk3
import proofs.«152771_g54185307406482_cont_9to1_m_905_3_alg».proof.Proof.RefChunk4
import proofs.«152771_g54185307406482_cont_9to1_m_905_3_alg».proof.Proof.RefChunk5
import proofs.«152771_g54185307406482_cont_9to1_m_905_3_alg».proof.Proof.RefChunk6
import proofs.«152771_g54185307406482_cont_9to1_m_905_3_alg».proof.Proof.RefChunk7
import proofs.«152771_g54185307406482_cont_9to1_m_905_3_alg».proof.Proof.RefChunk8
import proofs.«152771_g54185307406482_cont_9to1_m_905_3_alg».proof.Proof.RefChunk9
import proofs.«152771_g54185307406482_cont_9to1_m_905_3_alg».proof.Proof.RefChunk10
import proofs.«152771_g54185307406482_cont_9to1_m_905_3_alg».proof.Proof.RefChunk11

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Time step 0. -/
def b0 : Blk F := ⟨step0, step0_W, step0_writes, step0_sub, step0_fresh⟩
/-- Time step 1. -/
def b1 : Blk F := ⟨step1, step1_W, step1_writes, step1_sub, step1_fresh⟩
/-- Time step 2. -/
def b2 : Blk F := ⟨step2, step2_W, step2_writes, step2_sub, step2_fresh⟩
/-- Time step 3. -/
def b3 : Blk F := ⟨step3, step3_W, step3_writes, step3_sub, step3_fresh⟩
/-- Time step 4. -/
def b4 : Blk F := ⟨step4, step4_W, step4_writes, step4_sub, step4_fresh⟩
/-- Time step 5. -/
def b5 : Blk F := ⟨step5, step5_W, step5_writes, step5_sub, step5_fresh⟩
/-- Time step 6. -/
def b6 : Blk F := ⟨step6, step6_W, step6_writes, step6_sub, step6_fresh⟩
/-- Time step 7. -/
def b7 : Blk F := ⟨step7, step7_W, step7_writes, step7_sub, step7_fresh⟩
/-- Time step 8. -/
def b8 : Blk F := ⟨step8, step8_W, step8_writes, step8_sub, step8_fresh⟩
/-- Time step 9. -/
def b9 : Blk F := ⟨step9, step9_W, step9_writes, step9_sub, step9_fresh⟩
/-- Time step 10. -/
def b10 : Blk F := ⟨step10, step10_W, step10_writes, step10_sub, step10_fresh⟩
/-- Time step 11. -/
def b11 : Blk F := ⟨step11, step11_W, step11_writes, step11_sub, step11_fresh⟩

/-- The steps before step `t`, in a row. -/
def P0 : Blk F := Blk.nil
def P1 : Blk F := (P0 (F := F)).app b0
def P2 : Blk F := (P1 (F := F)).app b1
def P3 : Blk F := (P2 (F := F)).app b2
def P4 : Blk F := (P3 (F := F)).app b3
def P5 : Blk F := (P4 (F := F)).app b4
def P6 : Blk F := (P5 (F := F)).app b5
def P7 : Blk F := (P6 (F := F)).app b6
def P8 : Blk F := (P7 (F := F)).app b7
def P9 : Blk F := (P8 (F := F)).app b8
def P10 : Blk F := (P9 (F := F)).app b9
def P11 : Blk F := (P10 (F := F)).app b10
def P12 : Blk F := (P11 (F := F)).app b11

/-- The steps after step `t`, in a row. -/
def S11 : Blk F := Blk.nil
def S10 : Blk F := (b11 (F := F)).app S11
def S9 : Blk F := (b10 (F := F)).app S10
def S8 : Blk F := (b9 (F := F)).app S9
def S7 : Blk F := (b8 (F := F)).app S8
def S6 : Blk F := (b7 (F := F)).app S7
def S5 : Blk F := (b6 (F := F)).app S6
def S4 : Blk F := (b5 (F := F)).app S5
def S3 : Blk F := (b4 (F := F)).app S4
def S2 : Blk F := (b3 (F := F)).app S3
def S1 : Blk F := (b2 (F := F)).app S2
def S0 : Blk F := (b1 (F := F)).app S1

/-- The write lists of those rows, as closed lists of buffers (they do not depend on the float family). -/
abbrev PW0 : List (Ref sig .tc) := []
abbrev PW1 : List (Ref sig .tc) := PW0 ++ step0_W
abbrev PW2 : List (Ref sig .tc) := PW1 ++ step1_W
abbrev PW3 : List (Ref sig .tc) := PW2 ++ step2_W
abbrev PW4 : List (Ref sig .tc) := PW3 ++ step3_W
abbrev PW5 : List (Ref sig .tc) := PW4 ++ step4_W
abbrev PW6 : List (Ref sig .tc) := PW5 ++ step5_W
abbrev PW7 : List (Ref sig .tc) := PW6 ++ step6_W
abbrev PW8 : List (Ref sig .tc) := PW7 ++ step7_W
abbrev PW9 : List (Ref sig .tc) := PW8 ++ step8_W
abbrev PW10 : List (Ref sig .tc) := PW9 ++ step9_W
abbrev PW11 : List (Ref sig .tc) := PW10 ++ step10_W
abbrev PW12 : List (Ref sig .tc) := PW11 ++ step11_W
abbrev SW11 : List (Ref sig .tc) := []
abbrev SW10 : List (Ref sig .tc) := step11_W ++ SW11
abbrev SW9 : List (Ref sig .tc) := step10_W ++ SW10
abbrev SW8 : List (Ref sig .tc) := step9_W ++ SW9
abbrev SW7 : List (Ref sig .tc) := step8_W ++ SW8
abbrev SW6 : List (Ref sig .tc) := step7_W ++ SW7
abbrev SW5 : List (Ref sig .tc) := step6_W ++ SW6
abbrev SW4 : List (Ref sig .tc) := step5_W ++ SW5
abbrev SW3 : List (Ref sig .tc) := step4_W ++ SW4
abbrev SW2 : List (Ref sig .tc) := step3_W ++ SW3
abbrev SW1 : List (Ref sig .tc) := step2_W ++ SW2
abbrev SW0 : List (Ref sig .tc) := step1_W ++ SW1

/-- All twelve. -/
def mid : Blk F := P12

/-- The twelve in a row are the steps before `t`, step `t`, the steps after `t`. -/
theorem mid_eq11 : (mid (F := F)).l = (P11 (F := F)).l ++ (step11 ++ (S11 (F := F)).l) :=
  (List.append_nil _).symm ▸ rfl
theorem mid_eq10 : (mid (F := F)).l = (P10 (F := F)).l ++ (step10 ++ (S10 (F := F)).l) :=
  (mid_eq11 (F := F)).trans (List.append_assoc (P10 (F := F)).l step10 (S10 (F := F)).l)
theorem mid_eq9 : (mid (F := F)).l = (P9 (F := F)).l ++ (step9 ++ (S9 (F := F)).l) :=
  (mid_eq10 (F := F)).trans (List.append_assoc (P9 (F := F)).l step9 (S9 (F := F)).l)
theorem mid_eq8 : (mid (F := F)).l = (P8 (F := F)).l ++ (step8 ++ (S8 (F := F)).l) :=
  (mid_eq9 (F := F)).trans (List.append_assoc (P8 (F := F)).l step8 (S8 (F := F)).l)
theorem mid_eq7 : (mid (F := F)).l = (P7 (F := F)).l ++ (step7 ++ (S7 (F := F)).l) :=
  (mid_eq8 (F := F)).trans (List.append_assoc (P7 (F := F)).l step7 (S7 (F := F)).l)
theorem mid_eq6 : (mid (F := F)).l = (P6 (F := F)).l ++ (step6 ++ (S6 (F := F)).l) :=
  (mid_eq7 (F := F)).trans (List.append_assoc (P6 (F := F)).l step6 (S6 (F := F)).l)
theorem mid_eq5 : (mid (F := F)).l = (P5 (F := F)).l ++ (step5 ++ (S5 (F := F)).l) :=
  (mid_eq6 (F := F)).trans (List.append_assoc (P5 (F := F)).l step5 (S5 (F := F)).l)
theorem mid_eq4 : (mid (F := F)).l = (P4 (F := F)).l ++ (step4 ++ (S4 (F := F)).l) :=
  (mid_eq5 (F := F)).trans (List.append_assoc (P4 (F := F)).l step4 (S4 (F := F)).l)
theorem mid_eq3 : (mid (F := F)).l = (P3 (F := F)).l ++ (step3 ++ (S3 (F := F)).l) :=
  (mid_eq4 (F := F)).trans (List.append_assoc (P3 (F := F)).l step3 (S3 (F := F)).l)
theorem mid_eq2 : (mid (F := F)).l = (P2 (F := F)).l ++ (step2 ++ (S2 (F := F)).l) :=
  (mid_eq3 (F := F)).trans (List.append_assoc (P2 (F := F)).l step2 (S2 (F := F)).l)
theorem mid_eq1 : (mid (F := F)).l = (P1 (F := F)).l ++ (step1 ++ (S1 (F := F)).l) :=
  (mid_eq2 (F := F)).trans (List.append_assoc (P1 (F := F)).l step1 (S1 (F := F)).l)
theorem mid_eq0 : (mid (F := F)).l = (P0 (F := F)).l ++ (step0 ++ (S0 (F := F)).l) :=
  (mid_eq1 (F := F)).trans (List.append_assoc (P0 (F := F)).l step0 (S0 (F := F)).l)

/-- Result 0 after all twelve steps. -/
theorem mid_res0 (V : Valuation τ sig (Elt F)) :
    after (mid (F := F)).l V (Proc.devRef .tc main_v23) = stepVal 0 slices_S16x512x12x256_S16x512x1x256_0_0_0_0 V := by
  rw [mid_eq0]
  exact through P0 S0 step0 main_v23 (stepVal 0 slices_S16x512x12x256_S16x512x1x256_0_0_0_0) step0_res
    (show main_v23 ∉ (S0 (F := F)).W from (by decide : main_v23 ∉ SW0))
    (stepVal_keep P0 (show main_arg0 ∉ (P0 (F := F)).W from (by decide : main_arg0 ∉ PW0))
      (show main_arg1 ∉ (P0 (F := F)).W from (by decide : main_arg1 ∉ PW0))
      (show main_arg2 ∉ (P0 (F := F)).W from (by decide : main_arg2 ∉ PW0))
      (show main_v0 ∉ (P0 (F := F)).W from (by decide : main_v0 ∉ PW0)) 0 slices_S16x512x12x256_S16x512x1x256_0_0_0_0) V
/-- Result 1 after all twelve steps. -/
theorem mid_res1 (V : Valuation τ sig (Elt F)) :
    after (mid (F := F)).l V (Proc.devRef .tc main_v46) = stepVal 1 slices_S16x512x12x256_S16x512x1x256_0_0_1_0 V := by
  rw [mid_eq1]
  exact through P1 S1 step1 main_v46 (stepVal 1 slices_S16x512x12x256_S16x512x1x256_0_0_1_0) step1_res
    (show main_v46 ∉ (S1 (F := F)).W from (by decide : main_v46 ∉ SW1))
    (stepVal_keep P1 (show main_arg0 ∉ (P1 (F := F)).W from (by decide : main_arg0 ∉ PW1))
      (show main_arg1 ∉ (P1 (F := F)).W from (by decide : main_arg1 ∉ PW1))
      (show main_arg2 ∉ (P1 (F := F)).W from (by decide : main_arg2 ∉ PW1))
      (show main_v0 ∉ (P1 (F := F)).W from (by decide : main_v0 ∉ PW1)) 1 slices_S16x512x12x256_S16x512x1x256_0_0_1_0) V
/-- Result 2 after all twelve steps. -/
theorem mid_res2 (V : Valuation τ sig (Elt F)) :
    after (mid (F := F)).l V (Proc.devRef .tc main_v69) = stepVal 2 slices_S16x512x12x256_S16x512x1x256_0_0_2_0 V := by
  rw [mid_eq2]
  exact through P2 S2 step2 main_v69 (stepVal 2 slices_S16x512x12x256_S16x512x1x256_0_0_2_0) step2_res
    (show main_v69 ∉ (S2 (F := F)).W from (by decide : main_v69 ∉ SW2))
    (stepVal_keep P2 (show main_arg0 ∉ (P2 (F := F)).W from (by decide : main_arg0 ∉ PW2))
      (show main_arg1 ∉ (P2 (F := F)).W from (by decide : main_arg1 ∉ PW2))
      (show main_arg2 ∉ (P2 (F := F)).W from (by decide : main_arg2 ∉ PW2))
      (show main_v0 ∉ (P2 (F := F)).W from (by decide : main_v0 ∉ PW2)) 2 slices_S16x512x12x256_S16x512x1x256_0_0_2_0) V
/-- Result 3 after all twelve steps. -/
theorem mid_res3 (V : Valuation τ sig (Elt F)) :
    after (mid (F := F)).l V (Proc.devRef .tc main_v92) = stepVal 3 slices_S16x512x12x256_S16x512x1x256_0_0_3_0 V := by
  rw [mid_eq3]
  exact through P3 S3 step3 main_v92 (stepVal 3 slices_S16x512x12x256_S16x512x1x256_0_0_3_0) step3_res
    (show main_v92 ∉ (S3 (F := F)).W from (by decide : main_v92 ∉ SW3))
    (stepVal_keep P3 (show main_arg0 ∉ (P3 (F := F)).W from (by decide : main_arg0 ∉ PW3))
      (show main_arg1 ∉ (P3 (F := F)).W from (by decide : main_arg1 ∉ PW3))
      (show main_arg2 ∉ (P3 (F := F)).W from (by decide : main_arg2 ∉ PW3))
      (show main_v0 ∉ (P3 (F := F)).W from (by decide : main_v0 ∉ PW3)) 3 slices_S16x512x12x256_S16x512x1x256_0_0_3_0) V
/-- Result 4 after all twelve steps. -/
theorem mid_res4 (V : Valuation τ sig (Elt F)) :
    after (mid (F := F)).l V (Proc.devRef .tc main_v115) = stepVal 4 slices_S16x512x12x256_S16x512x1x256_0_0_4_0 V := by
  rw [mid_eq4]
  exact through P4 S4 step4 main_v115 (stepVal 4 slices_S16x512x12x256_S16x512x1x256_0_0_4_0) step4_res
    (show main_v115 ∉ (S4 (F := F)).W from (by decide : main_v115 ∉ SW4))
    (stepVal_keep P4 (show main_arg0 ∉ (P4 (F := F)).W from (by decide : main_arg0 ∉ PW4))
      (show main_arg1 ∉ (P4 (F := F)).W from (by decide : main_arg1 ∉ PW4))
      (show main_arg2 ∉ (P4 (F := F)).W from (by decide : main_arg2 ∉ PW4))
      (show main_v0 ∉ (P4 (F := F)).W from (by decide : main_v0 ∉ PW4)) 4 slices_S16x512x12x256_S16x512x1x256_0_0_4_0) V
/-- Result 5 after all twelve steps. -/
theorem mid_res5 (V : Valuation τ sig (Elt F)) :
    after (mid (F := F)).l V (Proc.devRef .tc main_v138) = stepVal 5 slices_S16x512x12x256_S16x512x1x256_0_0_5_0 V := by
  rw [mid_eq5]
  exact through P5 S5 step5 main_v138 (stepVal 5 slices_S16x512x12x256_S16x512x1x256_0_0_5_0) step5_res
    (show main_v138 ∉ (S5 (F := F)).W from (by decide : main_v138 ∉ SW5))
    (stepVal_keep P5 (show main_arg0 ∉ (P5 (F := F)).W from (by decide : main_arg0 ∉ PW5))
      (show main_arg1 ∉ (P5 (F := F)).W from (by decide : main_arg1 ∉ PW5))
      (show main_arg2 ∉ (P5 (F := F)).W from (by decide : main_arg2 ∉ PW5))
      (show main_v0 ∉ (P5 (F := F)).W from (by decide : main_v0 ∉ PW5)) 5 slices_S16x512x12x256_S16x512x1x256_0_0_5_0) V
/-- Result 6 after all twelve steps. -/
theorem mid_res6 (V : Valuation τ sig (Elt F)) :
    after (mid (F := F)).l V (Proc.devRef .tc main_v161) = stepVal 6 slices_S16x512x12x256_S16x512x1x256_0_0_6_0 V := by
  rw [mid_eq6]
  exact through P6 S6 step6 main_v161 (stepVal 6 slices_S16x512x12x256_S16x512x1x256_0_0_6_0) step6_res
    (show main_v161 ∉ (S6 (F := F)).W from (by decide : main_v161 ∉ SW6))
    (stepVal_keep P6 (show main_arg0 ∉ (P6 (F := F)).W from (by decide : main_arg0 ∉ PW6))
      (show main_arg1 ∉ (P6 (F := F)).W from (by decide : main_arg1 ∉ PW6))
      (show main_arg2 ∉ (P6 (F := F)).W from (by decide : main_arg2 ∉ PW6))
      (show main_v0 ∉ (P6 (F := F)).W from (by decide : main_v0 ∉ PW6)) 6 slices_S16x512x12x256_S16x512x1x256_0_0_6_0) V
/-- Result 7 after all twelve steps. -/
theorem mid_res7 (V : Valuation τ sig (Elt F)) :
    after (mid (F := F)).l V (Proc.devRef .tc main_v184) = stepVal 7 slices_S16x512x12x256_S16x512x1x256_0_0_7_0 V := by
  rw [mid_eq7]
  exact through P7 S7 step7 main_v184 (stepVal 7 slices_S16x512x12x256_S16x512x1x256_0_0_7_0) step7_res
    (show main_v184 ∉ (S7 (F := F)).W from (by decide : main_v184 ∉ SW7))
    (stepVal_keep P7 (show main_arg0 ∉ (P7 (F := F)).W from (by decide : main_arg0 ∉ PW7))
      (show main_arg1 ∉ (P7 (F := F)).W from (by decide : main_arg1 ∉ PW7))
      (show main_arg2 ∉ (P7 (F := F)).W from (by decide : main_arg2 ∉ PW7))
      (show main_v0 ∉ (P7 (F := F)).W from (by decide : main_v0 ∉ PW7)) 7 slices_S16x512x12x256_S16x512x1x256_0_0_7_0) V
/-- Result 8 after all twelve steps. -/
theorem mid_res8 (V : Valuation τ sig (Elt F)) :
    after (mid (F := F)).l V (Proc.devRef .tc main_v207) = stepVal 8 slices_S16x512x12x256_S16x512x1x256_0_0_8_0 V := by
  rw [mid_eq8]
  exact through P8 S8 step8 main_v207 (stepVal 8 slices_S16x512x12x256_S16x512x1x256_0_0_8_0) step8_res
    (show main_v207 ∉ (S8 (F := F)).W from (by decide : main_v207 ∉ SW8))
    (stepVal_keep P8 (show main_arg0 ∉ (P8 (F := F)).W from (by decide : main_arg0 ∉ PW8))
      (show main_arg1 ∉ (P8 (F := F)).W from (by decide : main_arg1 ∉ PW8))
      (show main_arg2 ∉ (P8 (F := F)).W from (by decide : main_arg2 ∉ PW8))
      (show main_v0 ∉ (P8 (F := F)).W from (by decide : main_v0 ∉ PW8)) 8 slices_S16x512x12x256_S16x512x1x256_0_0_8_0) V
/-- Result 9 after all twelve steps. -/
theorem mid_res9 (V : Valuation τ sig (Elt F)) :
    after (mid (F := F)).l V (Proc.devRef .tc main_v230) = stepVal 9 slices_S16x512x12x256_S16x512x1x256_0_0_9_0 V := by
  rw [mid_eq9]
  exact through P9 S9 step9 main_v230 (stepVal 9 slices_S16x512x12x256_S16x512x1x256_0_0_9_0) step9_res
    (show main_v230 ∉ (S9 (F := F)).W from (by decide : main_v230 ∉ SW9))
    (stepVal_keep P9 (show main_arg0 ∉ (P9 (F := F)).W from (by decide : main_arg0 ∉ PW9))
      (show main_arg1 ∉ (P9 (F := F)).W from (by decide : main_arg1 ∉ PW9))
      (show main_arg2 ∉ (P9 (F := F)).W from (by decide : main_arg2 ∉ PW9))
      (show main_v0 ∉ (P9 (F := F)).W from (by decide : main_v0 ∉ PW9)) 9 slices_S16x512x12x256_S16x512x1x256_0_0_9_0) V
/-- Result 10 after all twelve steps. -/
theorem mid_res10 (V : Valuation τ sig (Elt F)) :
    after (mid (F := F)).l V (Proc.devRef .tc main_v253) = stepVal 10 slices_S16x512x12x256_S16x512x1x256_0_0_10_0 V := by
  rw [mid_eq10]
  exact through P10 S10 step10 main_v253 (stepVal 10 slices_S16x512x12x256_S16x512x1x256_0_0_10_0) step10_res
    (show main_v253 ∉ (S10 (F := F)).W from (by decide : main_v253 ∉ SW10))
    (stepVal_keep P10 (show main_arg0 ∉ (P10 (F := F)).W from (by decide : main_arg0 ∉ PW10))
      (show main_arg1 ∉ (P10 (F := F)).W from (by decide : main_arg1 ∉ PW10))
      (show main_arg2 ∉ (P10 (F := F)).W from (by decide : main_arg2 ∉ PW10))
      (show main_v0 ∉ (P10 (F := F)).W from (by decide : main_v0 ∉ PW10)) 10 slices_S16x512x12x256_S16x512x1x256_0_0_10_0) V
/-- Result 11 after all twelve steps. -/
theorem mid_res11 (V : Valuation τ sig (Elt F)) :
    after (mid (F := F)).l V (Proc.devRef .tc main_v276) = stepVal 11 slices_S16x512x12x256_S16x512x1x256_0_0_11_0 V := by
  rw [mid_eq11]
  exact through P11 S11 step11 main_v276 (stepVal 11 slices_S16x512x12x256_S16x512x1x256_0_0_11_0) step11_res
    (show main_v276 ∉ (S11 (F := F)).W from (by decide : main_v276 ∉ SW11))
    (stepVal_keep P11 (show main_arg0 ∉ (P11 (F := F)).W from (by decide : main_arg0 ∉ PW11))
      (show main_arg1 ∉ (P11 (F := F)).W from (by decide : main_arg1 ∉ PW11))
      (show main_arg2 ∉ (P11 (F := F)).W from (by decide : main_arg2 ∉ PW11))
      (show main_v0 ∉ (P11 (F := F)).W from (by decide : main_v0 ∉ PW11)) 11 slices_S16x512x12x256_S16x512x1x256_0_0_11_0) V

end Cert.ReferenceIdeal.Ops

end
-- ==== Proof.RefEnds.lean ====
/-
  The two ends of the reference's line of operations, and the whole line.

  The scale's two operations leave the square root of 256 in the scale buffer. The stack's thirteen operations read the
  twelve step results, give each a unit time axis and stack them. In between stand the twelve time steps. So the whole
  line leaves in the result buffer the stack of the twelve step functions of the arguments it started from, and it
  writes no argument.
-/
import proofs.«152771_g54185307406482_cont_9to1_m_905_3_alg».proof.Proof.RefMid

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-! ## The scale -/

theorem pre_sub : (pre : List (HloOp τ sig (Elt F))).Forall fun op => op.bufs ⊆ tcRefs τ sig :=
  ⟨nullary_bufs_sub .., unary_bufs_sub ..⟩

theorem pre_fresh : ∀ op ∈ (pre : List (HloOp τ sig (Elt F))), op.fresh = ∅ := by
  intro _ h; (repeat (cases h with | head => rfl | tail _ h => ?_)); exact nomatch h

/-- The buffers the scale's two operations write. -/
abbrev pre_W : List (Ref sig .tc) := [main_cst, main_v0]

theorem pre_writes : (pre : List (HloOp τ sig (Elt F))).Forall fun op =>
    op.writes ⊆ (pre_W.map (Proc.devRef (τ := τ) .tc)).toFinset := by
  simp only [List.Forall]
  repeat' apply And.intro
  all_goals
    simp only [nullary_writes, unary_writes, Finset.singleton_subset_iff, List.mem_toFinset]
    exact List.mem_map_of_mem (by decide)

/-- A buffer the scale's operations do not write keeps its contents through them. -/
theorem pre_keep (V : Valuation τ sig (Elt F)) (r : Ref sig .tc) (h : r ∉ pre_W) :
    after pre V (Proc.devRef .tc r) = V (Proc.devRef .tc r) :=
  after_of_writes_sub pre V pre_writes h

/-- The scale as a block. -/
def bPre : Blk F := ⟨pre, pre_W, pre_writes, pre_sub, pre_fresh⟩

/-- It leaves the square root of 256 in the scale buffer. -/
theorem pre_scale (V : Valuation τ sig (Elt F)) : after pre V (Proc.devRef .tc main_v0) = Step.refScale := by
  simp only [pre]
  after_results
  rfl

/-! ## The stack -/

theorem tail_sub : (tail : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub ..⟩

theorem tail_fresh : ∀ op ∈ (tail : List (HloOp τ sig (Elt F))), op.fresh = ∅ := by
  intro _ h; (repeat (cases h with | head => rfl | tail _ h => ?_)); exact nomatch h

/-- The buffers the stack's thirteen operations write. -/
abbrev tail_W : List (Ref sig .tc) := [main_v277, main_v278, main_v279, main_v280, main_v281, main_v282, main_v283, main_v284, main_v285, main_v286, main_v287, main_v288, main_v289]

theorem tail_writes : (tail : List (HloOp τ sig (Elt F))).Forall fun op =>
    op.writes ⊆ (tail_W.map (Proc.devRef (τ := τ) .tc)).toFinset := by
  simp only [List.Forall]
  repeat' apply And.intro
  all_goals
    simp only [unary_writes, nary_writes, Finset.singleton_subset_iff, List.mem_toFinset]
    exact List.mem_map_of_mem (by decide)

/-- The stack as a block. -/
def bTail : Blk F := ⟨tail, tail_W, tail_writes, tail_sub, tail_fresh⟩

/-- It leaves in the result buffer the twelve step results, each given a unit time axis, stacked along it. -/
theorem tail_res (V : Valuation τ sig (Elt F)) :
    after tail V (Proc.devRef .tc main_v289)
      = concatenate S16x512x12x256 2
      [⟨S16x512x1x256, broadcastInDim S16x512x1x256 ![0, 1, 3] bcast_S16x512x256_S16x512x1x256_0_1_3 (V (Proc.devRef .tc main_v23))⟩,
       ⟨S16x512x1x256, broadcastInDim S16x512x1x256 ![0, 1, 3] bcast_S16x512x256_S16x512x1x256_0_1_3 (V (Proc.devRef .tc main_v46))⟩,
       ⟨S16x512x1x256, broadcastInDim S16x512x1x256 ![0, 1, 3] bcast_S16x512x256_S16x512x1x256_0_1_3 (V (Proc.devRef .tc main_v69))⟩,
       ⟨S16x512x1x256, broadcastInDim S16x512x1x256 ![0, 1, 3] bcast_S16x512x256_S16x512x1x256_0_1_3 (V (Proc.devRef .tc main_v92))⟩,
       ⟨S16x512x1x256, broadcastInDim S16x512x1x256 ![0, 1, 3] bcast_S16x512x256_S16x512x1x256_0_1_3 (V (Proc.devRef .tc main_v115))⟩,
       ⟨S16x512x1x256, broadcastInDim S16x512x1x256 ![0, 1, 3] bcast_S16x512x256_S16x512x1x256_0_1_3 (V (Proc.devRef .tc main_v138))⟩,
       ⟨S16x512x1x256, broadcastInDim S16x512x1x256 ![0, 1, 3] bcast_S16x512x256_S16x512x1x256_0_1_3 (V (Proc.devRef .tc main_v161))⟩,
       ⟨S16x512x1x256, broadcastInDim S16x512x1x256 ![0, 1, 3] bcast_S16x512x256_S16x512x1x256_0_1_3 (V (Proc.devRef .tc main_v184))⟩,
       ⟨S16x512x1x256, broadcastInDim S16x512x1x256 ![0, 1, 3] bcast_S16x512x256_S16x512x1x256_0_1_3 (V (Proc.devRef .tc main_v207))⟩,
       ⟨S16x512x1x256, broadcastInDim S16x512x1x256 ![0, 1, 3] bcast_S16x512x256_S16x512x1x256_0_1_3 (V (Proc.devRef .tc main_v230))⟩,
       ⟨S16x512x1x256, broadcastInDim S16x512x1x256 ![0, 1, 3] bcast_S16x512x256_S16x512x1x256_0_1_3 (V (Proc.devRef .tc main_v253))⟩,
       ⟨S16x512x1x256, broadcastInDim S16x512x1x256 ![0, 1, 3] bcast_S16x512x256_S16x512x1x256_0_1_3 (V (Proc.devRef .tc main_v276))⟩]
      concatenates_S16x512x1x256_S16x512x1x256_S16x512x1x256_S16x512x1x256_S16x512x1x256_S16x512x1x256_S16x512x1x256_S16x512x1x256_S16x512x1x256_S16x512x1x256_S16x512x1x256_S16x512x1x256_S16x512x12x256_d2 := by
  simp only [tail]
  after_results_simp
  try dsimp only [Matrix.cons_val]
  try after_results_simp
  all_goals rfl

/-! ## The whole line -/

/-- The scale, the twelve steps, the stack. -/
def whole : Blk F := (bPre (F := F)).app ((mid (F := F)).app bTail)

/-- Its result: the stack of the twelve step functions of the arguments. -/
theorem whole_res (V : Valuation τ sig (Elt F)) :
    after (whole (F := F)).l V (Proc.devRef .tc main_v289)
      = Step.refStack (V (Proc.devRef .tc main_arg0)) (V (Proc.devRef .tc main_arg1)) (V (Proc.devRef .tc main_arg2)) := by
  show after (pre ++ ((mid (F := F)).l ++ tail)) V (Proc.devRef .tc main_v289) = _
  rw [after_app, after_app, tail_res]
  rw [mid_res0, mid_res1, mid_res2, mid_res3, mid_res4, mid_res5, mid_res6, mid_res7, mid_res8, mid_res9, mid_res10,
    mid_res11]
  unfold stepVal
  rw [pre_keep V main_arg0 (by decide), pre_keep V main_arg1 (by decide), pre_keep V main_arg2 (by decide), pre_scale V]
  rfl

/-- The buffers the whole line writes, as a closed list. -/
abbrev wholeW : List (Ref sig .tc) := pre_W ++ (PW12 ++ tail_W)

/-- It writes no argument. -/
theorem whole_arg0 (V : Valuation τ sig (Elt F)) :
    after (whole (F := F)).l V (Proc.devRef .tc main_arg0) = V (Proc.devRef .tc main_arg0) :=
  (whole (F := F)).keep V main_arg0 (show main_arg0 ∉ (whole (F := F)).W from (by decide : main_arg0 ∉ wholeW))
theorem whole_arg1 (V : Valuation τ sig (Elt F)) :
    after (whole (F := F)).l V (Proc.devRef .tc main_arg1) = V (Proc.devRef .tc main_arg1) :=
  (whole (F := F)).keep V main_arg1 (show main_arg1 ∉ (whole (F := F)).W from (by decide : main_arg1 ∉ wholeW))
theorem whole_arg2 (V : Valuation τ sig (Elt F)) :
    after (whole (F := F)).l V (Proc.devRef .tc main_arg2) = V (Proc.devRef .tc main_arg2) :=
  (whole (F := F)).keep V main_arg2 (show main_arg2 ∉ (whole (F := F)).W from (by decide : main_arg2 ∉ wholeW))

end Cert.ReferenceIdeal.Ops

end
-- ==== Proof.RefMain.lean ====
/-
  The printed reference is the line of operations: each of its six windows is the straight line of that window's
  operations, the six windows in a row are one list of 375 operations, and that list is the scale, the twelve time steps
  and the stack in a row.
-/
import proofs.«152771_g54185307406482_cont_9to1_m_905_3_alg».proof.Proof.RefEnds
import Idealize.ShloMosaic.Lib.Tactic

noncomputable section

namespace Cert.ReferenceIdeal.Ops

open Cert.ReferenceIdeal Cert.ReferenceIdeal.Gen Idealize.ShloMosaic Idealize.ShloMosaic.Tactic Idealize.ShloMosaic.TcCoe Idealize.SL.Sem Idealize.ShloMosaic.StableHlo

variable {F : FTy → Type} [FloatOps F]

/-! ## The printed program is this line -/

set_option maxRecDepth 8192 in
theorem part0_eq (c : Dev nD) : main_part0 (F := F) c = seq win0 := rfl
set_option maxRecDepth 8192 in
theorem part1_eq (c : Dev nD) : main_part1 (F := F) c = seq win1 := rfl
set_option maxRecDepth 8192 in
theorem part2_eq (c : Dev nD) : main_part2 (F := F) c = seq win2 := rfl
set_option maxRecDepth 8192 in
theorem part3_eq (c : Dev nD) : main_part3 (F := F) c = seq win3 := rfl
set_option maxRecDepth 8192 in
theorem part4_eq (c : Dev nD) : main_part4 (F := F) c = seq win4 := rfl
set_option maxRecDepth 8192 in
theorem part5_eq (c : Dev nD) : main_part5 (F := F) c = seq win5 := rfl

/-- The six windows in a row are the scale, the twelve steps and the stack in a row: one list of 375 operations. -/
theorem wins_eq : (win0 ++ (win1 ++ (win2 ++ (win3 ++ (win4 ++ win5)))) : List (HloOp τ sig (Elt F))) = (whole (F := F)).l := by
  sl_kernel_rfl

set_option maxRecDepth 8192 in
theorem main_eq (c : Dev nD) : main (F := F) c = seq (whole (F := F)).l := by
  rw [← wins_eq]
  simp only [seq_append, ← part0_eq c, ← part1_eq c, ← part2_eq c, ← part3_eq c, ← part4_eq c, ← part5_eq c]
  rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Ops

end
-- ==== Proof.RefRun.lean ====
/-
  The reference's run: every weakly fair execution of the printed reference terminates with its result at the stack of
  the twelve step functions of the arguments (`Step.refStack`) and the arguments unchanged.

  The line of operations is the scale, the twelve time steps, the stack. The scale's block leaves the square root of
  256 in the scale buffer; each time step's result, after all twelve, is the step function of the arguments' slice and
  that scale; the stack's block reads the twelve results. No block writes an argument. The printed program, cut in six
  windows, is this line.
-/
import proofs.«152771_g54185307406482_cont_9to1_m_905_3_alg».proof.Proof.RefMain

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-! ## The run -/

/-- On every device, for any float values, from any memory with zero counters: every weakly fair execution of the
    reference terminates with its result at the stack of the twelve step functions of the arguments, the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v289)
          = Step.refStack (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v289).trans (whole_res _), (h c main_arg0).trans (whole_arg0 _),
      (h c main_arg1).trans (whole_arg1 _), (h c main_arg2).trans (whole_arg2 _)⟩)
    (run_seq scopedRefs_eq scopedSems_eq defs main (fun _ => (whole (F := F)).l) main_eq (fun _ => (whole (F := F)).sub) m ρ
      (fun _ => (whole (F := F)).fresh))

end Cert.ReferenceIdeal.Ops

end
-- ==== Proof.RefStep.lean ====
/-
  One time step of the reference as ONE function of the slice it works on.

  `refStep xs q x1 x2` is the chain of host operations the reference applies to a [16, 512, 256] slice `xs` of its
  input (one time step, every batch row), the scale `q` (a rank-0 array), the weights `x1` and the bias `x2`:
  the batched product of the slice with its own transpose, the quotient by `q`, the clip at 0, the row softmax (numerators
  over their sum), the batched product with the slice, the product with the weights, the bias and the clip at 0.
  `refStep_apply` reads it at an index: it is the layer of `Cert.Gcn.gcnR` (the scale a quotient of the finished inner
  product, each softmax weight divided before the aggregation) of batch row `b`'s entries of the slice.
-/
import proofs.«152771_g54185307406482_cont_9to1_m_905_3_alg».proof.ReferenceIdeal
import proofs.«152771_g54185307406482_cont_9to1_m_905_3_alg».proof.Proof.GcnSpec
import proofs.«152771_g54185307406482_cont_9to1_m_905_3_alg».proof.Proof.GcnConsts
import proofs.«152771_g54185307406482_cont_9to1_m_905_3_alg».proof.Proof.RefStepDef
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Step

open Cert.ReferenceIdeal Idealize.ShloMosaic Idealize.ShloMosaic.ValueIdx
open Facts₀ Facts

variable [Facts]

/-! ## Broadcasts read at an index -/

/-- A rank-0 array broadcast to [16, 512, 512] reads its one entry everywhere. -/
theorem splat512_apply {α : Type} (y : S_.Idx → α) (i : S16x512x512.Idx) :
    broadcastInDim S16x512x512 ![] bcast_S_S16x512x512 y i = y ix0 :=
  broadcastInDim_apply _ bcast_S_S16x512x512 y i ix0 (fun a => a.elim0)

/-- A rank-0 array broadcast to [16, 512] reads its one entry everywhere. -/
theorem splatRow_apply {α : Type} (y : S_.Idx → α) (i : S16x512.Idx) :
    broadcastInDim S16x512 ![] bcast_S_S16x512 y i = y ix0 :=
  broadcastInDim_apply _ bcast_S_S16x512 y i ix0 (fun a => a.elim0)

/-- A rank-0 array broadcast to [16, 512, 256] reads its one entry everywhere. -/
theorem splat256_apply {α : Type} (y : S_.Idx → α) (i : S16x512x256.Idx) :
    broadcastInDim S16x512x256 ![] bcast_S_S16x512x256 y i = y ix0 :=
  broadcastInDim_apply _ bcast_S_S16x512x256 y i ix0 (fun a => a.elim0)

/-- A [16, 512] array broadcast along a new last axis, in two steps (to [16, 512, 1], then to [16, 512, 512]): entry
    (b, n, m) is the array's entry (b, n). -/
theorem rowBcast_apply {α : Type} (y : S16x512.Idx → α) (b : Fin 16) (n m : Fin 512) :
    broadcastInDim S16x512x512 ![0, 1, 2] bcast_S16x512x1_S16x512x512_0_1_2
      (broadcastInDim S16x512x1 ![0, 1] bcast_S16x512_S16x512x1_0_1 y) (ix3 b n m) = y (ix2 b n) := by
  refine (broadcastInDim_apply _ bcast_S16x512x1_S16x512x512_0_1_2 _ (ix3 b n m) (ix3 b n (0 : Fin 1)) (fun a => match a with
    | ⟨0, _⟩ => by show b.val = if (16 : Nat) = 1 then 0 else b.val; rw [if_neg (by decide)]
    | ⟨1, _⟩ => by show n.val = if (512 : Nat) = 1 then 0 else n.val; rw [if_neg (by decide)]
    | ⟨2, _⟩ => by show 0 = if (1 : Nat) = 1 then 0 else m.val; rw [if_pos rfl])).trans ?_
  exact broadcastInDim_apply _ bcast_S16x512_S16x512x1_0_1 y (ix3 b n (0 : Fin 1)) (ix2 b n) (fun a => match a with
    | ⟨0, _⟩ => by show b.val = if (16 : Nat) = 1 then 0 else b.val; rw [if_neg (by decide)]
    | ⟨1, _⟩ => by show n.val = if (512 : Nat) = 1 then 0 else n.val; rw [if_neg (by decide)])

/-- The bias, a [256] array, broadcast to [1, 1, 256] and then to [16, 512, 256]: entry (b, n, h) is the bias's entry h. -/
theorem biasBcast_apply {α : Type} (y : S256.Idx → α) (b : Fin 16) (n : Fin 512) (h : Fin 256) :
    broadcastInDim S16x512x256 ![0, 1, 2] bcast_S1x1x256_S16x512x256_0_1_2
      (broadcastInDim S1x1x256 ![2] bcast_S256_S1x1x256_2 y) (ix3 b n h) = y (ix1 h) := by
  refine (broadcastInDim_apply _ bcast_S1x1x256_S16x512x256_0_1_2 _ (ix3 b n h) (ix3 (0 : Fin 1) (0 : Fin 1) h) (fun a => match a with
    | ⟨0, _⟩ => by show 0 = if (1 : Nat) = 1 then 0 else b.val; rw [if_pos rfl]
    | ⟨1, _⟩ => by show 0 = if (1 : Nat) = 1 then 0 else n.val; rw [if_pos rfl]
    | ⟨2, _⟩ => by show h.val = if (256 : Nat) = 1 then 0 else h.val; rw [if_neg (by decide)])).trans ?_
  exact broadcastInDim_apply _ bcast_S256_S1x1x256_2 y (ix3 (0 : Fin 1) (0 : Fin 1) h) (ix1 h) (fun a => match a with
    | ⟨0, _⟩ => by show h.val = if (256 : Nat) = 1 then 0 else h.val; rw [if_neg (by decide)])

/-! ## The three products read at an index

Each product's operand indices are read off the dimension numbers one axis at a time; the contraction index, a
one-axis index, is exchanged for its one coordinate. -/

/-! ### The similarities: per batch row, the slice times its own transpose -/

theorem gram_lhs_batch (i : S16x512x512.Idx) (q : dot_S16x512x256_S16x512x256_S16x512x512_2_2_1_1_0_0.contr.Idx) :
    (dot_S16x512x256_S16x512x256_S16x512x512_2_2_1_1_0_0.lhsIdx i q 0).val = (i 0).val := by
  unfold DotDims.lhsIdx
  rw [dif_pos (show (0 : Fin S16x512x256.rank) ∈ dot_S16x512x256_S16x512x256_S16x512x512_2_2_1_1_0_0.lhsBatch by show (0 : Fin S16x512x256.rank) ∈ ([0] : List (Fin S16x512x256.rank)); decide)]
  rfl
theorem gram_lhs_row (i : S16x512x512.Idx) (q : dot_S16x512x256_S16x512x256_S16x512x512_2_2_1_1_0_0.contr.Idx) :
    (dot_S16x512x256_S16x512x256_S16x512x512_2_2_1_1_0_0.lhsIdx i q 1).val = (i 1).val := by
  unfold DotDims.lhsIdx
  rw [dif_neg (show ¬(1 : Fin S16x512x256.rank) ∈ dot_S16x512x256_S16x512x256_S16x512x512_2_2_1_1_0_0.lhsBatch by show ¬(1 : Fin S16x512x256.rank) ∈ ([0] : List (Fin S16x512x256.rank)); decide), dif_pos (show (1 : Fin S16x512x256.rank) ∈ dot_S16x512x256_S16x512x256_S16x512x512_2_2_1_1_0_0.lhsNonContracting by show (1 : Fin S16x512x256.rank) ∈ ([1] : List (Fin S16x512x256.rank)); decide)]
  rfl
theorem gram_lhs_feature (i : S16x512x512.Idx) (q : dot_S16x512x256_S16x512x256_S16x512x512_2_2_1_1_0_0.contr.Idx) :
    (dot_S16x512x256_S16x512x256_S16x512x512_2_2_1_1_0_0.lhsIdx i q 2).val = (q ⟨0, Nat.zero_lt_one⟩).val :=
  dot_S16x512x256_S16x512x256_S16x512x512_2_2_1_1_0_0.lhsIdx_val_of_single rfl i q
theorem gram_rhs_batch (i : S16x512x512.Idx) (q : dot_S16x512x256_S16x512x256_S16x512x512_2_2_1_1_0_0.contr.Idx) :
    (dot_S16x512x256_S16x512x256_S16x512x512_2_2_1_1_0_0.rhsIdx i q 0).val = (i 0).val := by
  unfold DotDims.rhsIdx
  rw [dif_pos (show (0 : Fin S16x512x256.rank) ∈ dot_S16x512x256_S16x512x256_S16x512x512_2_2_1_1_0_0.rhsBatch by show (0 : Fin S16x512x256.rank) ∈ ([0] : List (Fin S16x512x256.rank)); decide)]
  rfl
theorem gram_rhs_row (i : S16x512x512.Idx) (q : dot_S16x512x256_S16x512x256_S16x512x512_2_2_1_1_0_0.contr.Idx) :
    (dot_S16x512x256_S16x512x256_S16x512x512_2_2_1_1_0_0.rhsIdx i q 1).val = (i 2).val := by
  unfold DotDims.rhsIdx
  rw [dif_neg (show ¬(1 : Fin S16x512x256.rank) ∈ dot_S16x512x256_S16x512x256_S16x512x512_2_2_1_1_0_0.rhsBatch by show ¬(1 : Fin S16x512x256.rank) ∈ ([0] : List (Fin S16x512x256.rank)); decide), dif_pos (show (1 : Fin S16x512x256.rank) ∈ dot_S16x512x256_S16x512x256_S16x512x512_2_2_1_1_0_0.rhsNonContracting by show (1 : Fin S16x512x256.rank) ∈ ([1] : List (Fin S16x512x256.rank)); decide)]
  rfl
theorem gram_rhs_feature (i : S16x512x512.Idx) (q : dot_S16x512x256_S16x512x256_S16x512x512_2_2_1_1_0_0.contr.Idx) :
    (dot_S16x512x256_S16x512x256_S16x512x512_2_2_1_1_0_0.rhsIdx i q 2).val = (q ⟨0, Nat.zero_lt_one⟩).val :=
  dot_S16x512x256_S16x512x256_S16x512x512_2_2_1_1_0_0.rhsIdx_val_of_single rfl i q

/-- Entry (b, n, m) of the batched product of two [16, 512, 256] arrays contracted on their feature axes: the inner
    product of row n of the first and row m of the second, both in batch row b. -/
theorem gram_apply (u v : FVec Ideal S16x512x256 .f32) (b : Fin 16) (n m : Fin 512) :
    Host.dotGeneral (F := Ideal) dot_S16x512x256_S16x512x256_S16x512x512_2_2_1_1_0_0 none u v (ix3 b n m)
      = ∑ d : Fin 256, u (ix3 b n d) * v (ix3 b m d) := by
  simp only [Host.dotGeneral]
  rw [Ideal.dotGeneral_apply, ← Equiv.sum_comp (ValueIdx.contrEquiv1 dot_S16x512x256_S16x512x256_S16x512x512_2_2_1_1_0_0 256 rfl rfl).symm]
  refine Finset.sum_congr rfl fun k _ => ?_
  have hk := ValueIdx.contrEquiv1_symm_val dot_S16x512x256_S16x512x256_S16x512x512_2_2_1_1_0_0 256 rfl rfl k
  have el : dot_S16x512x256_S16x512x256_S16x512x512_2_2_1_1_0_0.lhsIdx (ix3 b n m) ((ValueIdx.contrEquiv1 dot_S16x512x256_S16x512x256_S16x512x512_2_2_1_1_0_0 256 rfl rfl).symm k) = ix3 b n k := funext fun a => Fin.ext (by
    match a with
    | ⟨0, _⟩ => exact gram_lhs_batch _ _
    | ⟨1, _⟩ => exact gram_lhs_row _ _
    | ⟨2, _⟩ => exact (gram_lhs_feature _ _).trans hk)
  have er : dot_S16x512x256_S16x512x256_S16x512x512_2_2_1_1_0_0.rhsIdx (ix3 b n m) ((ValueIdx.contrEquiv1 dot_S16x512x256_S16x512x256_S16x512x512_2_2_1_1_0_0 256 rfl rfl).symm k) = ix3 b m k := funext fun a => Fin.ext (by
    match a with
    | ⟨0, _⟩ => exact gram_rhs_batch _ _
    | ⟨1, _⟩ => exact gram_rhs_row _ _
    | ⟨2, _⟩ => exact (gram_rhs_feature _ _).trans hk)
  rw [el, er]

/-! ### The aggregation: per batch row, the weights times the slice -/

theorem agg_lhs_batch (i : S16x512x256.Idx) (q : dot_S16x512x512_S16x512x256_S16x512x256_2_1_1_2_0_0.contr.Idx) :
    (dot_S16x512x512_S16x512x256_S16x512x256_2_1_1_2_0_0.lhsIdx i q 0).val = (i 0).val := by
  unfold DotDims.lhsIdx
  rw [dif_pos (show (0 : Fin S16x512x512.rank) ∈ dot_S16x512x512_S16x512x256_S16x512x256_2_1_1_2_0_0.lhsBatch by show (0 : Fin S16x512x512.rank) ∈ ([0] : List (Fin S16x512x512.rank)); decide)]
  rfl
theorem agg_lhs_row (i : S16x512x256.Idx) (q : dot_S16x512x512_S16x512x256_S16x512x256_2_1_1_2_0_0.contr.Idx) :
    (dot_S16x512x512_S16x512x256_S16x512x256_2_1_1_2_0_0.lhsIdx i q 1).val = (i 1).val := by
  unfold DotDims.lhsIdx
  rw [dif_neg (show ¬(1 : Fin S16x512x512.rank) ∈ dot_S16x512x512_S16x512x256_S16x512x256_2_1_1_2_0_0.lhsBatch by show ¬(1 : Fin S16x512x512.rank) ∈ ([0] : List (Fin S16x512x512.rank)); decide), dif_pos (show (1 : Fin S16x512x512.rank) ∈ dot_S16x512x512_S16x512x256_S16x512x256_2_1_1_2_0_0.lhsNonContracting by show (1 : Fin S16x512x512.rank) ∈ ([1] : List (Fin S16x512x512.rank)); decide)]
  rfl
theorem agg_lhs_neighbour (i : S16x512x256.Idx) (q : dot_S16x512x512_S16x512x256_S16x512x256_2_1_1_2_0_0.contr.Idx) :
    (dot_S16x512x512_S16x512x256_S16x512x256_2_1_1_2_0_0.lhsIdx i q 2).val = (q ⟨0, Nat.zero_lt_one⟩).val :=
  dot_S16x512x512_S16x512x256_S16x512x256_2_1_1_2_0_0.lhsIdx_val_of_single rfl i q
theorem agg_rhs_batch (i : S16x512x256.Idx) (q : dot_S16x512x512_S16x512x256_S16x512x256_2_1_1_2_0_0.contr.Idx) :
    (dot_S16x512x512_S16x512x256_S16x512x256_2_1_1_2_0_0.rhsIdx i q 0).val = (i 0).val := by
  unfold DotDims.rhsIdx
  rw [dif_pos (show (0 : Fin S16x512x256.rank) ∈ dot_S16x512x512_S16x512x256_S16x512x256_2_1_1_2_0_0.rhsBatch by show (0 : Fin S16x512x256.rank) ∈ ([0] : List (Fin S16x512x256.rank)); decide)]
  rfl
theorem agg_rhs_neighbour (i : S16x512x256.Idx) (q : dot_S16x512x512_S16x512x256_S16x512x256_2_1_1_2_0_0.contr.Idx) :
    (dot_S16x512x512_S16x512x256_S16x512x256_2_1_1_2_0_0.rhsIdx i q 1).val = (q ⟨0, Nat.zero_lt_one⟩).val :=
  dot_S16x512x512_S16x512x256_S16x512x256_2_1_1_2_0_0.rhsIdx_val_of_single rfl i q
theorem agg_rhs_feature (i : S16x512x256.Idx) (q : dot_S16x512x512_S16x512x256_S16x512x256_2_1_1_2_0_0.contr.Idx) :
    (dot_S16x512x512_S16x512x256_S16x512x256_2_1_1_2_0_0.rhsIdx i q 2).val = (i 2).val := by
  unfold DotDims.rhsIdx
  rw [dif_neg (show ¬(2 : Fin S16x512x256.rank) ∈ dot_S16x512x512_S16x512x256_S16x512x256_2_1_1_2_0_0.rhsBatch by show ¬(2 : Fin S16x512x256.rank) ∈ ([0] : List (Fin S16x512x256.rank)); decide), dif_pos (show (2 : Fin S16x512x256.rank) ∈ dot_S16x512x512_S16x512x256_S16x512x256_2_1_1_2_0_0.rhsNonContracting by show (2 : Fin S16x512x256.rank) ∈ ([2] : List (Fin S16x512x256.rank)); decide)]
  rfl

/-- Entry (b, n, d) of the batched product of a [16, 512, 512] array of weights with a [16, 512, 256] array: the sum
    over the neighbours m of weight (b, n, m) times feature (b, m, d). -/
theorem agg_apply (w : FVec Ideal S16x512x512 .f32) (v : FVec Ideal S16x512x256 .f32) (b : Fin 16) (n : Fin 512) (d : Fin 256) :
    Host.dotGeneral (F := Ideal) dot_S16x512x512_S16x512x256_S16x512x256_2_1_1_2_0_0 none w v (ix3 b n d)
      = ∑ m : Fin 512, w (ix3 b n m) * v (ix3 b m d) := by
  simp only [Host.dotGeneral]
  rw [Ideal.dotGeneral_apply, ← Equiv.sum_comp (ValueIdx.contrEquiv1 dot_S16x512x512_S16x512x256_S16x512x256_2_1_1_2_0_0 512 rfl rfl).symm]
  refine Finset.sum_congr rfl fun k _ => ?_
  have hk := ValueIdx.contrEquiv1_symm_val dot_S16x512x512_S16x512x256_S16x512x256_2_1_1_2_0_0 512 rfl rfl k
  have el : dot_S16x512x512_S16x512x256_S16x512x256_2_1_1_2_0_0.lhsIdx (ix3 b n d) ((ValueIdx.contrEquiv1 dot_S16x512x512_S16x512x256_S16x512x256_2_1_1_2_0_0 512 rfl rfl).symm k) = ix3 b n k := funext fun a => Fin.ext (by
    match a with
    | ⟨0, _⟩ => exact agg_lhs_batch _ _
    | ⟨1, _⟩ => exact agg_lhs_row _ _
    | ⟨2, _⟩ => exact (agg_lhs_neighbour _ _).trans hk)
  have er : dot_S16x512x512_S16x512x256_S16x512x256_2_1_1_2_0_0.rhsIdx (ix3 b n d) ((ValueIdx.contrEquiv1 dot_S16x512x512_S16x512x256_S16x512x256_2_1_1_2_0_0 512 rfl rfl).symm k) = ix3 b k d := funext fun a => Fin.ext (by
    match a with
    | ⟨0, _⟩ => exact agg_rhs_batch _ _
    | ⟨1, _⟩ => exact (agg_rhs_neighbour _ _).trans hk
    | ⟨2, _⟩ => exact agg_rhs_feature _ _)
  rw [el, er]

/-! ### The linear map: the aggregated features times the weight matrix -/

theorem lin_lhs_batch (i : S16x512x256.Idx) (q : dot_S16x512x256_S256x256_S16x512x256_2_0_01_1_n_n.contr.Idx) :
    (dot_S16x512x256_S256x256_S16x512x256_2_0_01_1_n_n.lhsIdx i q 0).val = (i 0).val := by
  unfold DotDims.lhsIdx
  rw [dif_neg (show ¬(0 : Fin S16x512x256.rank) ∈ dot_S16x512x256_S256x256_S16x512x256_2_0_01_1_n_n.lhsBatch by show ¬(0 : Fin S16x512x256.rank) ∈ ([] : List (Fin S16x512x256.rank)); decide), dif_pos (show (0 : Fin S16x512x256.rank) ∈ dot_S16x512x256_S256x256_S16x512x256_2_0_01_1_n_n.lhsNonContracting by show (0 : Fin S16x512x256.rank) ∈ ([0, 1] : List (Fin S16x512x256.rank)); decide)]
  rfl
theorem lin_lhs_row (i : S16x512x256.Idx) (q : dot_S16x512x256_S256x256_S16x512x256_2_0_01_1_n_n.contr.Idx) :
    (dot_S16x512x256_S256x256_S16x512x256_2_0_01_1_n_n.lhsIdx i q 1).val = (i 1).val := by
  unfold DotDims.lhsIdx
  rw [dif_neg (show ¬(1 : Fin S16x512x256.rank) ∈ dot_S16x512x256_S256x256_S16x512x256_2_0_01_1_n_n.lhsBatch by show ¬(1 : Fin S16x512x256.rank) ∈ ([] : List (Fin S16x512x256.rank)); decide), dif_pos (show (1 : Fin S16x512x256.rank) ∈ dot_S16x512x256_S256x256_S16x512x256_2_0_01_1_n_n.lhsNonContracting by show (1 : Fin S16x512x256.rank) ∈ ([0, 1] : List (Fin S16x512x256.rank)); decide)]
  rfl
theorem lin_lhs_feature (i : S16x512x256.Idx) (q : dot_S16x512x256_S256x256_S16x512x256_2_0_01_1_n_n.contr.Idx) :
    (dot_S16x512x256_S256x256_S16x512x256_2_0_01_1_n_n.lhsIdx i q 2).val = (q ⟨0, Nat.zero_lt_one⟩).val :=
  dot_S16x512x256_S256x256_S16x512x256_2_0_01_1_n_n.lhsIdx_val_of_single rfl i q
theorem lin_rhs_feature (i : S16x512x256.Idx) (q : dot_S16x512x256_S256x256_S16x512x256_2_0_01_1_n_n.contr.Idx) :
    (dot_S16x512x256_S256x256_S16x512x256_2_0_01_1_n_n.rhsIdx i q 0).val = (q ⟨0, Nat.zero_lt_one⟩).val :=
  dot_S16x512x256_S256x256_S16x512x256_2_0_01_1_n_n.rhsIdx_val_of_single rfl i q
theorem lin_rhs_out (i : S16x512x256.Idx) (q : dot_S16x512x256_S256x256_S16x512x256_2_0_01_1_n_n.contr.Idx) :
    (dot_S16x512x256_S256x256_S16x512x256_2_0_01_1_n_n.rhsIdx i q 1).val = (i 2).val := by
  unfold DotDims.rhsIdx
  rw [dif_neg (show ¬(1 : Fin S256x256.rank) ∈ dot_S16x512x256_S256x256_S16x512x256_2_0_01_1_n_n.rhsBatch by show ¬(1 : Fin S256x256.rank) ∈ ([] : List (Fin S256x256.rank)); decide), dif_pos (show (1 : Fin S256x256.rank) ∈ dot_S16x512x256_S256x256_S16x512x256_2_0_01_1_n_n.rhsNonContracting by show (1 : Fin S256x256.rank) ∈ ([1] : List (Fin S256x256.rank)); decide)]
  rfl

/-- Entry (b, n, h) of a [16, 512, 256] array times a [256, 256] matrix: the sum over the features d of entry (b, n, d)
    times the matrix's entry (d, h). -/
theorem linDot_apply (a : FVec Ideal S16x512x256 .f32) (W : FVec Ideal S256x256 .f32) (b : Fin 16) (n : Fin 512) (h : Fin 256) :
    Host.dotGeneral (F := Ideal) dot_S16x512x256_S256x256_S16x512x256_2_0_01_1_n_n none a W (ix3 b n h)
      = ∑ d : Fin 256, a (ix3 b n d) * W (ix2 d h) := by
  simp only [Host.dotGeneral]
  rw [Ideal.dotGeneral_apply, ← Equiv.sum_comp (ValueIdx.contrEquiv1 dot_S16x512x256_S256x256_S16x512x256_2_0_01_1_n_n 256 rfl rfl).symm]
  refine Finset.sum_congr rfl fun k _ => ?_
  have hk := ValueIdx.contrEquiv1_symm_val dot_S16x512x256_S256x256_S16x512x256_2_0_01_1_n_n 256 rfl rfl k
  have el : dot_S16x512x256_S256x256_S16x512x256_2_0_01_1_n_n.lhsIdx (ix3 b n h) ((ValueIdx.contrEquiv1 dot_S16x512x256_S256x256_S16x512x256_2_0_01_1_n_n 256 rfl rfl).symm k) = ix3 b n k := funext fun c => Fin.ext (by
    match c with
    | ⟨0, _⟩ => exact lin_lhs_batch _ _
    | ⟨1, _⟩ => exact lin_lhs_row _ _
    | ⟨2, _⟩ => exact (lin_lhs_feature _ _).trans hk)
  have er : dot_S16x512x256_S256x256_S16x512x256_2_0_01_1_n_n.rhsIdx (ix3 b n h) ((ValueIdx.contrEquiv1 dot_S16x512x256_S256x256_S16x512x256_2_0_01_1_n_n 256 rfl rfl).symm k) = ix2 k h := funext fun c => Fin.ext (by
    match c with
    | ⟨0, _⟩ => exact (lin_rhs_feature _ _).trans hk
    | ⟨1, _⟩ => exact lin_rhs_out _ _)
  rw [el, er]

/-! ## The two row reductions read at an index -/

/-- The word 0xFF800000 is minus infinity. -/
theorem negInf_apply (i : S_.Idx) : constant (F := Ideal) S_ .f32 0xFF800000#32 i = (⊥ : EReal) :=
  Cert.Gcn.word_ninf

/-- The zero word is 0. -/
theorem zeroWord_apply (i : S_.Idx) : constant (F := Ideal) S_ .f32 0x00000000#32 i = (0 : EReal) :=
  Ideal.ofBits_zero_f32

/-- [16, 512, 512] with its last axis dropped is [16, 512]. -/
theorem reduces_lastAxis : S16x512x512.Reduces [2] S16x512 := by decide

/-- Over the index (b, n) of the reduced array, the index with coordinate k on the dropped axis is (b, n, k). -/
theorem lift_lastAxis (b : Fin 16) (n k : Fin 512) : reduces_lastAxis.lift (ix2 b n) k = ix3 b n k := by
  funext c
  apply Fin.ext
  fin_cases c <;> rfl

/-- The fold of max from minus infinity over the last axis, read at (b, n): the fold of max from minus infinity over
    the row. -/
theorem rowFold_apply (p : FVec Ideal S16x512x512 .f32) (b : Fin 16) (n : Fin 512) :
    Host.reduce (FloatOps.maximumf (F := Ideal) (φ := .f32)) p (constant (F := Ideal) S_ .f32 0xFF800000#32)
        reducesTo_S16x512x512_S16x512_d2 h_S_ (ix2 b n)
      = (Finset.univ : Finset (Fin 512)).fold max ⊥ (fun m => p (ix3 b n m)) := by
  refine (Host.reduce_eq_fold_single (FloatOps.maximumf (F := Ideal) (φ := .f32)) p
    (constant (F := Ideal) S_ .f32 0xFF800000#32) reducesTo_S16x512x512_S16x512_d2 reduces_lastAxis h_S_ (ix2 b n)).trans ?_
  have hfun : (p ∘ reduces_lastAxis.lift (ix2 b n)) = fun m : Fin 512 => p (ix3 b n m) :=
    funext fun k => congrArg p (lift_lastAxis b n k)
  rw [hfun, negInf_apply]
  rfl

/-- The row maximum the reference takes: the maximum of minus infinity and the fold of max from minus infinity over a
    row is the fold of max from minus infinity over that row. -/
theorem rowMax_apply (p : FVec Ideal S16x512x512 .f32) (b : Fin 16) (n : Fin 512) :
    maximumf (F := Ideal) (broadcastInDim S16x512 ![] bcast_S_S16x512 (constant (F := Ideal) S_ .f32 0xFF800000#32))
        (Host.reduce FloatOps.maximumf p (constant (F := Ideal) S_ .f32 0xFF800000#32) reducesTo_S16x512x512_S16x512_d2 h_S_)
        (ix2 b n)
      = (Finset.univ : Finset (Fin 512)).fold max ⊥ (fun m => p (ix3 b n m)) := by
  refine (maximumf_apply _ _ (ix2 b n)).trans ?_
  refine (congrArg₂ max ((splatRow_apply _ (ix2 b n)).trans (negInf_apply ix0)) (rowFold_apply p b n)).trans ?_
  exact max_bot_left _

/-- The row sum the reference takes, from the zero word: the sum over the row. -/
theorem rowSum_apply (e : FVec Ideal S16x512x512 .f32) (b : Fin 16) (n : Fin 512) :
    Host.reduceAdd (F := Ideal) e (constant (F := Ideal) S_ .f32 0x00000000#32) reducesTo_S16x512x512_S16x512_d2 h_S_ (ix2 b n)
      = ∑ m : Fin 512, e (ix3 b n m) := by
  simp only [Host.reduceAdd, Ideal.hostReduceAdd_def]
  rw [Ideal.hostReduceAdd_single reducesTo_S16x512x512_S16x512_d2 reduces_lastAxis]
  rw [zeroWord_apply, zero_add]
  exact Finset.sum_congr rfl fun k _ => congrArg e (lift_lastAxis b n k)

/-! ## The stages read at an index -/

/-- The host quotient, entrywise, is the quotient of the extended reals. -/
theorem hostDivf_apply {s : Shape} (x y : FVec Ideal s .f32) (i : s.Idx) :
    Host.divf (F := Ideal) x y i = Ideal.div (x i) (y i) := rfl

/-- The host exponential, entrywise, is the exponential of the extended reals. -/
theorem hostExp_apply {s : Shape} (x : FVec Ideal s .f32) (i : s.Idx) :
    Host.exp (F := Ideal) x i = Ideal.exp (x i) := rfl

/-- The similarities: entry (b, n, m) is the clipped, scaled similarity of nodes n and m of batch row b. -/
theorem refSim_apply (xs : FVec Ideal S16x512x256 .f32) (q : FVec Ideal S_ .f32) (b : Fin 16) (n m : Fin 512) :
    refSim (F := Ideal) xs q (ix3 b n m) = Cert.Gcn.simR (fun m d => xs (ix3 b m d)) (q ix0) n m := by
  unfold refSim Cert.Gcn.simR
  refine (maximumf_apply _ _ (ix3 b n m)).trans ?_
  refine congrArg₂ max ?_ ((splat512_apply _ _).trans (zeroWord_apply ix0))
  refine (hostDivf_apply _ _ (ix3 b n m)).trans ?_
  exact congrArg₂ Ideal.div (gram_apply xs xs b n m) (splat512_apply q _)

/-- The numerators: entry (b, n, m) is the exponential of the entry less its row's maximum. -/
theorem refExp_apply (p : FVec Ideal S16x512x512 .f32) (b : Fin 16) (n m : Fin 512) :
    refExp (F := Ideal) p (ix3 b n m) = Cert.Gcn.expo (fun n m => p (ix3 b n m)) n m := by
  unfold refExp Cert.Gcn.expo Cert.Gcn.rowMax
  refine (hostExp_apply _ (ix3 b n m)).trans (congrArg Ideal.exp ?_)
  refine (subf_apply _ _ (ix3 b n m)).trans (congrArg (p (ix3 b n m) - ·) ?_)
  exact (rowBcast_apply _ b n m).trans (rowMax_apply p b n)

/-- The weights: entry (b, n, m) is the numerator over its row's sum. -/
theorem refSoft_apply (e : FVec Ideal S16x512x512 .f32) (b : Fin 16) (n m : Fin 512) :
    refSoft (F := Ideal) e (ix3 b n m) = Ideal.div (e (ix3 b n m)) (∑ k : Fin 512, e (ix3 b n k)) := by
  unfold refSoft
  refine (hostDivf_apply _ _ (ix3 b n m)).trans (congrArg (Ideal.div (e (ix3 b n m))) ?_)
  exact (rowBcast_apply _ b n m).trans (rowSum_apply e b n)

/-- The step read at an index: the layer `gcnR` of batch row `b`'s entries of the slice, with the scale the one
    entry of `q`. -/
theorem refStep_apply (xs : FVec Ideal S16x512x256 .f32) (q : FVec Ideal S_ .f32) (x1 : FVec Ideal S256x256 .f32)
    (x2 : FVec Ideal S256 .f32) (b : Fin 16) (n : Fin 512) (h : Fin 256) :
    refStep (F := Ideal) xs q x1 x2 (ix3 b n h)
      = Cert.Gcn.gcnR (fun m d => xs (ix3 b m d)) (q ix0) (fun d h' => x1 (ix2 d h')) (fun h' => x2 (ix1 h')) n h := by
  unfold refStep Cert.Gcn.gcnR Cert.Gcn.lin
  -- the similarities and the numerators of batch row b, as functions of the node coordinates
  have hsim : (fun n m => refSim (F := Ideal) xs q (ix3 b n m))
      = Cert.Gcn.simR (fun m d => xs (ix3 b m d)) (q ix0) :=
    funext fun n => funext fun m => refSim_apply xs q b n m
  have hexp : ∀ n m : Fin 512, refExp (F := Ideal) (refSim (F := Ideal) xs q) (ix3 b n m)
      = Cert.Gcn.expo (Cert.Gcn.simR (fun m d => xs (ix3 b m d)) (q ix0)) n m :=
    fun n m => (refExp_apply _ b n m).trans (congrArg (fun p => Cert.Gcn.expo p n m) hsim)
  -- the aggregated features
  have hagg : ∀ d : Fin 256,
      Host.dotGeneral (F := Ideal) dot_S16x512x512_S16x512x256_S16x512x256_2_1_1_2_0_0 none
          (refSoft (F := Ideal) (refExp (F := Ideal) (refSim (F := Ideal) xs q))) xs (ix3 b n d)
        = Cert.Gcn.aggR (Cert.Gcn.simR (fun m d => xs (ix3 b m d)) (q ix0)) (fun m d => xs (ix3 b m d)) n d := by
    intro d
    refine (agg_apply _ xs b n d).trans ?_
    unfold Cert.Gcn.aggR Cert.Gcn.den
    refine Finset.sum_congr rfl fun m _ => congrArg (· * xs (ix3 b m d)) ?_
    refine (refSoft_apply _ b n m).trans ?_
    exact congrArg₂ Ideal.div (hexp n m) (Finset.sum_congr rfl fun k _ => hexp n k)
  -- the linear map, the bias and the clip
  refine (maximumf_apply _ _ (ix3 b n h)).trans ?_
  refine congrArg₂ max ?_ ((splat256_apply _ _).trans (zeroWord_apply ix0))
  refine (addf_apply _ _ (ix3 b n h)).trans ?_
  refine congrArg₂ (· + ·) ((linDot_apply _ x1 b n h).trans ?_) (biasBcast_apply x2 b n h)
  exact Finset.sum_congr rfl fun d _ => congrArg (· * x1 (ix2 d h)) (hagg d)

end Cert.ReferenceIdeal.Step

end
-- ==== Proof.RefArray.lean ====
/-
  The reference's whole result read at an index: entry (b, n, t, h) of the stack of the twelve time steps' results is the
  layer in the second arrangement (`Cert.Gcn.arrR`) of the arguments: the stack picks piece `t`, the piece's unit axis
  drops, the step function at (b, n, h) is the layer of batch row `b`'s slice at time step `t`, and the scale's one
  entry is the square root of the value of the word for 256.
-/
import proofs.«152771_g54185307406482_cont_9to1_m_905_3_alg».proof.Proof.RefStackDef
import proofs.«152771_g54185307406482_cont_9to1_m_905_3_alg».proof.Proof.RefStep
import proofs.«152771_g54185307406482_cont_9to1_m_905_3_alg».proof.Proof.GcnArr
import Idealize.ShloMosaic.Lib.ValueIdx
import Idealize.ShloMosaic.Lib.Pipeline.Value

noncomputable section

namespace Cert.ReferenceIdeal.Step

open Cert.ReferenceIdeal Idealize.ShloMosaic Idealize.ShloMosaic.ValueIdx
open Facts₀ Facts

variable [Facts]

/-- The slice at time step `t` with the unit time axis dropped reads, at `(b, m, d)`, the input at `(b, m, t, d)`: the
    row-major positions of `(b, m, d)` in [16, 512, 256] and of `(b, m, 0, d)` in [16, 512, 1, 256] agree, and the cut
    shifts the time coordinate by `t`. -/
theorem refSlice_apply (t : Nat) (ht : t < 12) (hs : S16x512x12x256.Slices ![0, 0, t, 0] S16x512x1x256)
    (a0 : FVec Ideal S16x512x12x256 .f32) (b : Fin 16) (m : Fin 512) (d : Fin 256) :
    refSlice (F := Ideal) t hs a0 (ix3 b m d) = a0 (ix4 b m (⟨t, ht⟩ : Fin 12) d) := by
  unfold refSlice
  refine (shapeCast_apply _ shapeCasts_S16x512x1x256_S16x512x256 (ix3 b m d) (ix4 b m (0 : Fin 1) d) (by
    rw [Shape.rowMajor_val_four, Shape.rowMajor_val_three]
    show ((b.val * 512 + m.val) * 1 + 0) * 256 + d.val = (b.val * 512 + m.val) * 256 + d.val
    omega)).trans ?_
  exact extractStridedSlice_apply ![0, 0, t, 0] a0 hs (ix4 b m (0 : Fin 1) d) (ix4 b m (⟨t, ht⟩ : Fin 12) d) (fun a => by
    match a with
    | ⟨0, _⟩ => show b.val = 0 + b.val; omega
    | ⟨1, _⟩ => show m.val = 0 + m.val; omega
    | ⟨2, _⟩ => show t = t + 0; omega
    | ⟨3, _⟩ => show d.val = 0 + d.val; omega)

/-- The scale's one entry: the square root of the value of the word for 256, the word left as it is. -/
theorem refScale_apply : refScale (F := Ideal) ix0 = Ideal.sqrt (Ideal.ofBits .f32 0x43800000#32) := rfl

/-- A stack along the time axis read at `(b, n, k, h)`: when piece `k` has the shape [16, 512, 1, 256] and the pieces
    before it have total extent `k` along the axis, it is that piece at `(b, n, 0, h)`. -/
theorem stack_piece (xs : List ((s : Shape) × (s.Idx → Ideal .f32)))
    (hc : Shape.Concatenates (xs.map (·.1)) S16x512x12x256 2) (k : Nat) (hk : k < xs.length) (hk12 : k < 12)
    (x₁ : S16x512x1x256.Idx → Ideal .f32) (hxk : xs[k] = ⟨S16x512x1x256, x₁⟩)
    (hpre : (((xs.take k).map (·.1)).map fun s =>
        if h : s.rank = S16x512x12x256.rank then s.size ((2 : Fin S16x512x12x256.rank).cast h.symm) else 0).sum = k)
    (b : Fin 16) (n : Fin 512) (h : Fin 256) :
    concatenate S16x512x12x256 2 xs hc (ix4 b n (⟨k, hk12⟩ : Fin 12) h) = x₁ (ix4 b n (0 : Fin 1) h) :=
  concatenate_apply_piece 2 xs hc (ix4 b n (⟨k, hk12⟩ : Fin 12) h) k hk S16x512x1x256 x₁ hxk rfl k hpre
    (ix4 b n (0 : Fin 1) h)
    (fun c hne => by
      match c with
      | ⟨0, _⟩ => rfl
      | ⟨1, _⟩ => rfl
      | ⟨2, _⟩ => exact absurd (Fin.ext rfl) hne
      | ⟨3, _⟩ => rfl)
    (Nat.add_zero k)

/-- Time step `t`'s result at `(b, n, u, h)`, whatever the unit coordinate `u`: the unit time axis drops, the step
    function at `(b, n, h)` is the layer of batch row `b`'s slice at time step `t`. -/
theorem refRes_apply (t : Nat) (ht : t < 12) (hs : S16x512x12x256.Slices ![0, 0, t, 0] S16x512x1x256)
    (a0 : FVec Ideal S16x512x12x256 .f32) (a1 : FVec Ideal S256x256 .f32) (a2 : FVec Ideal S256 .f32)
    (b : Fin 16) (n : Fin 512) (u : Fin 1) (h : Fin 256) :
    refRes (F := Ideal) t hs a0 a1 a2 (ix4 b n u h)
      = Cert.Gcn.gcnR (Cert.Gcn.sliceAt a0 b (⟨t, ht⟩ : Fin 12)) (Ideal.sqrt (Ideal.ofBits .f32 0x43800000#32))
          (Cert.Gcn.mat a1) (Cert.Gcn.vec a2) n h := by
  unfold refRes
  refine (broadcastInDim_apply ![0, 1, 3] bcast_S16x512x256_S16x512x1x256_0_1_3 _ (ix4 b n u h) (ix3 b n h) (fun a => by
    match a with
    | ⟨0, _⟩ => rfl
    | ⟨1, _⟩ => rfl
    | ⟨2, _⟩ => rfl)).trans ?_
  refine (refStep_apply (refSlice t hs a0) refScale a1 a2 b n h).trans ?_
  have hsl : (fun (m : Fin 512) (d : Fin 256) => refSlice (F := Ideal) t hs a0 (ix3 b m d))
      = Cert.Gcn.sliceAt a0 b (⟨t, ht⟩ : Fin 12) :=
    funext fun m => funext fun d => refSlice_apply t ht hs a0 b m d
  rw [hsl, refScale_apply]
  rfl

/-- The stacked result is `arrR` of the arguments. -/
theorem refStack_eq_arrR (a0 : FVec Ideal S16x512x12x256 .f32) (a1 : FVec Ideal S256x256 .f32) (a2 : FVec Ideal S256 .f32) :
    refStack (F := Ideal) a0 a1 a2 = Cert.Gcn.arrR a0 a1 a2 := by
  funext i
  obtain ⟨b, n, t, h, rfl⟩ : ∃ (b : Fin 16) (n : Fin 512) (t : Fin 12) (h : Fin 256), i = ix4 b n t h :=
    ⟨i 0, i 1, i 2, i 3, eq_ix4 i⟩
  rw [Cert.Gcn.arrR_apply]
  unfold refStack
  obtain ⟨k, hk⟩ := t
  interval_cases k
  · exact (stack_piece _ _ 0 (by show 0 < 12; omega) (by omega) _ rfl rfl b n h).trans
      (refRes_apply 0 (by omega) slices_S16x512x12x256_S16x512x1x256_0_0_0_0 a0 a1 a2 b n 0 h)
  · exact (stack_piece _ _ 1 (by show 1 < 12; omega) (by omega) _ rfl rfl b n h).trans
      (refRes_apply 1 (by omega) slices_S16x512x12x256_S16x512x1x256_0_0_1_0 a0 a1 a2 b n 0 h)
  · exact (stack_piece _ _ 2 (by show 2 < 12; omega) (by omega) _ rfl rfl b n h).trans
      (refRes_apply 2 (by omega) slices_S16x512x12x256_S16x512x1x256_0_0_2_0 a0 a1 a2 b n 0 h)
  · exact (stack_piece _ _ 3 (by show 3 < 12; omega) (by omega) _ rfl rfl b n h).trans
      (refRes_apply 3 (by omega) slices_S16x512x12x256_S16x512x1x256_0_0_3_0 a0 a1 a2 b n 0 h)
  · exact (stack_piece _ _ 4 (by show 4 < 12; omega) (by omega) _ rfl rfl b n h).trans
      (refRes_apply 4 (by omega) slices_S16x512x12x256_S16x512x1x256_0_0_4_0 a0 a1 a2 b n 0 h)
  · exact (stack_piece _ _ 5 (by show 5 < 12; omega) (by omega) _ rfl rfl b n h).trans
      (refRes_apply 5 (by omega) slices_S16x512x12x256_S16x512x1x256_0_0_5_0 a0 a1 a2 b n 0 h)
  · exact (stack_piece _ _ 6 (by show 6 < 12; omega) (by omega) _ rfl rfl b n h).trans
      (refRes_apply 6 (by omega) slices_S16x512x12x256_S16x512x1x256_0_0_6_0 a0 a1 a2 b n 0 h)
  · exact (stack_piece _ _ 7 (by show 7 < 12; omega) (by omega) _ rfl rfl b n h).trans
      (refRes_apply 7 (by omega) slices_S16x512x12x256_S16x512x1x256_0_0_7_0 a0 a1 a2 b n 0 h)
  · exact (stack_piece _ _ 8 (by show 8 < 12; omega) (by omega) _ rfl rfl b n h).trans
      (refRes_apply 8 (by omega) slices_S16x512x12x256_S16x512x1x256_0_0_8_0 a0 a1 a2 b n 0 h)
  · exact (stack_piece _ _ 9 (by show 9 < 12; omega) (by omega) _ rfl rfl b n h).trans
      (refRes_apply 9 (by omega) slices_S16x512x12x256_S16x512x1x256_0_0_9_0 a0 a1 a2 b n 0 h)
  · exact (stack_piece _ _ 10 (by show 10 < 12; omega) (by omega) _ rfl rfl b n h).trans
      (refRes_apply 10 (by omega) slices_S16x512x12x256_S16x512x1x256_0_0_10_0 a0 a1 a2 b n 0 h)
  · exact (stack_piece _ _ 11 (by show 11 < 12; omega) (by omega) _ rfl rfl b n h).trans
      (refRes_apply 11 (by omega) slices_S16x512x12x256_S16x512x1x256_0_0_11_0 a0 a1 a2 b n 0 h)

end Cert.ReferenceIdeal.Step

end
-- ==== Proof.GcnLaw.lean ====
/-
  The two arrangements of the layer agree on finite inputs.

  With every entry of the slice a real number: the inner product with the factor 1/16 on one operand is the inner
  product divided by 16 (a finite sum of reals, where multiplication distributes); every similarity is then a real, a
  row's maximum over 512 reals is a real, the softmax numerators are positive reals, and their sum is a positive real, so
  dividing the aggregated features by it is dividing each weight by it (again distributivity over a finite sum of
  reals). The linear map, the bias and the clip are the same operations on both sides and need nothing of their
  operands.
-/
import proofs.«152771_g54185307406482_cont_9to1_m_905_3_alg».proof.Proof.GcnSpec
import proofs.«152771_g54185307406482_cont_9to1_m_905_3_alg».proof.Proof.GcnConsts

noncomputable section

open scoped BigOperators

namespace Cert.Gcn

open Idealize.ShloMosaic

/-- The coercion of a finite sum of reals is the sum of the coercions. -/
theorem coe_finsum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion of the larger of two reals is the larger of the coercions (the coercion is monotone). -/
theorem coe_real_max (x y : ℝ) : ((max x y : ℝ) : EReal) = max (x : EReal) (y : EReal) :=
  EReal.coe_strictMono.monotone.map_max

/-- The bf16 word `0x3D80` denotes 1/16. -/
theorem scale_val : Ideal.ofBits .bf16 0x3D80#16 = ((1 / 16 : ℝ) : EReal) := by
  exact word_scale

/-- The square root of the value of the f32 word `0x43800000` (256) is 16. -/
theorem sqrt_val : Ideal.sqrt (Ideal.ofBits .f32 0x43800000#32) = ((16 : ℝ) : EReal) := by
  rw [word_256, Ideal.sqrt_coe, if_neg (by norm_num)]
  have h : Real.sqrt 256 = 16 := by
    rw [show (256 : ℝ) = 16 ^ 2 by norm_num]
    exact Real.sqrt_sq (by norm_num)
  rw [h]

/-- With the factor 1/16 on one operand, the clipped similarity of two rows of reals is the coercion of the clipped
    inner product divided by 16. -/
theorem simK_coe (xr : Fin 512 → Fin 256 → ℝ) (n m : Fin 512) :
    simK (fun n d => ((xr n d : ℝ) : EReal)) ((1 / 16 : ℝ) : EReal) n m
      = ((max ((∑ d : Fin 256, xr n d * xr m d) / 16) 0 : ℝ) : EReal) := by
  rw [simK, coe_real_max, EReal.coe_zero]
  congr 1
  simp only [← EReal.coe_mul, ← coe_finsum]
  refine congrArg Real.toEReal ?_
  rw [Finset.sum_div]
  exact Finset.sum_congr rfl (fun d _ => by ring)

/-- With the finished inner product divided by 16, the same. -/
theorem simR_coe (xr : Fin 512 → Fin 256 → ℝ) (n m : Fin 512) :
    simR (fun n d => ((xr n d : ℝ) : EReal)) ((16 : ℝ) : EReal) n m
      = ((max ((∑ d : Fin 256, xr n d * xr m d) / 16) 0 : ℝ) : EReal) := by
  rw [simR, coe_real_max, EReal.coe_zero, Ideal.div_coe (by norm_num : (16 : ℝ) ≠ 0)]
  congr 1
  simp only [← EReal.coe_mul, ← coe_finsum]
  refine congrArg Real.toEReal ?_
  ring

/-- The fold of `max` from -∞ over a nonempty finite family of reals is a real. -/
theorem fold_max_real {ι : Type} (f : ι → ℝ) {s : Finset ι} (hs : s.Nonempty) :
    ∃ M : ℝ, s.fold max ⊥ (fun i => ((f i : ℝ) : EReal)) = (M : EReal) := by
  induction hs using Finset.Nonempty.cons_induction with
  | singleton a => exact ⟨f a, by rw [Finset.fold_singleton]; exact max_eq_left bot_le⟩
  | cons a s h hs ih =>
    obtain ⟨M, hM⟩ := ih
    exact ⟨max (f a) M, by rw [Finset.fold_cons, hM, coe_real_max]⟩

/-- A row's maximum over 512 reals is a real. -/
theorem rowMax_real (pr : Fin 512 → Fin 512 → ℝ) (n : Fin 512) :
    ∃ M : ℝ, rowMax (fun n m => ((pr n m : ℝ) : EReal)) n = (M : EReal) :=
  fold_max_real (pr n) Finset.univ_nonempty

/-- Dividing a finite sum of products of reals by a nonzero real is dividing one factor of each product by it. -/
theorem div_sum_real (e x : Fin 512 → ℝ) (D : ℝ) (hD : D ≠ 0) :
    Ideal.div (∑ m : Fin 512, ((e m : ℝ) : EReal) * ((x m : ℝ) : EReal)) ((D : ℝ) : EReal)
      = ∑ m : Fin 512, Ideal.div ((e m : ℝ) : EReal) ((D : ℝ) : EReal) * ((x m : ℝ) : EReal) := by
  simp only [Ideal.div_coe hD, ← EReal.coe_mul, ← coe_finsum]
  refine congrArg Real.toEReal ?_
  rw [Finset.sum_mul]
  exact Finset.sum_congr rfl (fun m _ => by ring)

/-- On real similarities and a real slice the two aggregations agree: the softmax denominator is a positive real. -/
theorem agg_eq (pr : Fin 512 → Fin 512 → ℝ) (xr : Fin 512 → Fin 256 → ℝ) :
    aggK (fun n m => ((pr n m : ℝ) : EReal)) (fun n d => ((xr n d : ℝ) : EReal))
      = aggR (fun n m => ((pr n m : ℝ) : EReal)) (fun n d => ((xr n d : ℝ) : EReal)) := by
  funext n d
  obtain ⟨M, hM⟩ := rowMax_real pr n
  have hexpo : ∀ m : Fin 512, expo (fun n m => ((pr n m : ℝ) : EReal)) n m
      = ((Real.exp (pr n m - M) : ℝ) : EReal) := by
    intro m
    rw [expo, hM, ← EReal.coe_sub, Ideal.exp_coe]
  have hden : den (fun n m => ((pr n m : ℝ) : EReal)) n
      = ((∑ m : Fin 512, Real.exp (pr n m - M) : ℝ) : EReal) := by
    rw [den, coe_finsum]
    exact Finset.sum_congr rfl (fun m _ => hexpo m)
  have hD : (∑ m : Fin 512, Real.exp (pr n m - M)) ≠ 0 :=
    ne_of_gt (Finset.sum_pos (fun m _ => Real.exp_pos _) Finset.univ_nonempty)
  rw [aggK, aggR, hden]
  simp only [hexpo]
  exact div_sum_real _ _ _ hD

/-- On a slice of reals the two arrangements are one function, whatever the weights and the bias. -/
theorem gcnK_eq_gcnR (xr : Fin 512 → Fin 256 → ℝ) (W : Fin 256 → Fin 256 → EReal) (b : Fin 256 → EReal) :
    gcnK (fun n d => ((xr n d : ℝ) : EReal)) ((1 / 16 : ℝ) : EReal) W b
      = gcnR (fun n d => ((xr n d : ℝ) : EReal)) ((16 : ℝ) : EReal) W b := by
  have hK : simK (fun n d => ((xr n d : ℝ) : EReal)) ((1 / 16 : ℝ) : EReal)
      = fun n m => ((max ((∑ d : Fin 256, xr n d * xr m d) / 16) 0 : ℝ) : EReal) := by
    funext n m; exact simK_coe xr n m
  have hR : simR (fun n d => ((xr n d : ℝ) : EReal)) ((16 : ℝ) : EReal)
      = fun n m => ((max ((∑ d : Fin 256, xr n d * xr m d) / 16) 0 : ℝ) : EReal) := by
    funext n m; exact simR_coe xr n m
  rw [gcnK, gcnR, hK, hR, agg_eq]

end Cert.Gcn

end
-- ==== Proof.GcnFinite.lean ====
/-
  From the precondition to the law: where every entry of the three arguments is finite (the printed precondition: every
  absolute value below +∞, all three conjuncts one), the two arrangements of the layer over the whole arrays agree. Only
  the input's finiteness is used: its entries are then real numbers, and on a slice of reals the two arrangements are one
  function, with 1/16 and the square root of 256 the two spellings of the scale.
-/
import proofs.«152771_g54185307406482_cont_9to1_m_905_3_alg».proof.Pre_finite_inputs
import proofs.«152771_g54185307406482_cont_9to1_m_905_3_alg».proof.Proof.Gen.Pre_finite_inputs
import proofs.«152771_g54185307406482_cont_9to1_m_905_3_alg».proof.Proof.GcnArr
import proofs.«152771_g54185307406482_cont_9to1_m_905_3_alg».proof.Proof.GcnLaw
import Idealize.ShloMosaic.Lib.ReduceAll

noncomputable section

namespace Cert.Gcn

open Idealize.ShloMosaic Idealize.ShloMosaic.ValueIdx

/-- An `i1` word made from a truth value is 1 exactly when the truth value is true. -/
theorem ofBool_one_iff {c : Bool} : BitVec.ofBool c = 1#1 ↔ c = true := by cases c <;> decide

/-- An extended real whose absolute value is below +∞ is a real: -∞ and +∞ both have absolute value +∞. -/
theorem real_of_abs_lt_top (x : EReal) (h : max x (-x) < ⊤) : ∃ r : ℝ, x = (r : EReal) := by
  induction x with
  | bot => exact absurd h (by simp)
  | coe r => exact ⟨r, rfl⟩
  | top => exact absurd h (by simp)

/-- The comparison of an element's absolute value with the word of +∞, answered 1, says that absolute value is
    below +∞. -/
theorem abs_lt_top_of_cmp (x : Ideal .f32)
    (h : FloatOps.cmpf (F := Ideal) .olt (FloatOps.hostAbsf x) (FloatOps.ofBits (F := Ideal) .f32 0x7F800000#32) = 1#1) :
    max (x : EReal) (-x) < ⊤ := by
  have h' : Ideal.cmp .olt (max (x : EReal) (-x)) (Ideal.ofBits .f32 0x7F800000#32) = 1#1 := h
  rw [word_pinf] at h'
  simp only [Ideal.cmp] at h'
  exact of_decide_eq_true (ofBool_one_iff.1 h')

/-- Under the precondition every entry of the input is a real. -/
theorem input_real (a0 : FVec Ideal Cert.Pre_finite_inputs.S16x512x12x256 .f32)
    (a1 : FVec Ideal Cert.Pre_finite_inputs.S256x256 .f32) (a2 : FVec Ideal Cert.Pre_finite_inputs.S256 .f32)
    (hpre : Cert.Pre_finite_inputs.fn (F := Ideal) a0 a1 a2 = fun _ => 1#1) :
    ∃ xr : SX.Idx → ℝ, ∀ i, a0 i = ((xr i : ℝ) : EReal) := by
  haveI : Subsingleton Cert.Pre_finite_inputs.S_.Idx := ⟨fun a b => funext fun d => d.elim0⟩
  have h0 := congrFun hpre ValueIdx.ix0
  dsimp only [Cert.Pre_finite_inputs.fn] at h0
  obtain ⟨h01, -⟩ := IntOp.andi_eq_one.1 h0
  obtain ⟨hA, -⟩ := IntOp.andi_eq_one.1 h01
  have hel : ∀ i : Cert.Pre_finite_inputs.S16x512x12x256.Idx,
      FloatOps.cmpf (F := Ideal) .olt (FloatOps.hostAbsf (a0 i)) (FloatOps.ofBits (F := Ideal) .f32 0x7F800000#32) = 1#1 :=
    fun i => Host.reduce_andi_all _ _ _ _ _ hA i
  have hreal : ∀ i : SX.Idx, ∃ r : ℝ, a0 i = ((r : ℝ) : EReal) :=
    fun i => real_of_abs_lt_top _ (abs_lt_top_of_cmp _ (hel i))
  choose xr hxr using hreal
  exact ⟨xr, hxr⟩

/-- Under the precondition the whole results in the two arrangements are equal. -/
theorem arrK_eq_arrR_of_pre (a0 : FVec Ideal Cert.Pre_finite_inputs.S16x512x12x256 .f32)
    (a1 : FVec Ideal Cert.Pre_finite_inputs.S256x256 .f32) (a2 : FVec Ideal Cert.Pre_finite_inputs.S256 .f32)
    (hpre : Cert.Pre_finite_inputs.fn (F := Ideal) a0 a1 a2 = fun _ => 1#1) :
    arrK a0 a1 a2 = arrR a0 a1 a2 := by
  obtain ⟨xr, hxr⟩ := input_real a0 a1 a2 hpre
  funext i
  obtain ⟨b, n, t, h, rfl⟩ : ∃ (b : Fin 16) (n : Fin 512) (t : Fin 12) (h : Fin 256), i = ix4 b n t h :=
    ⟨i 0, i 1, i 2, i 3, eq_ix4 i⟩
  have hs : sliceAt a0 b t = fun m d => ((xr (ix4 b m t d) : ℝ) : EReal) :=
    funext fun m => funext fun d => hxr _
  rw [arrK_apply, arrR_apply, scale_val, sqrt_val, hs]
  exact congrFun (congrFun (gcnK_eq_gcnR (fun m d => xr (ix4 b m t d)) (mat a1) (vec a2)) n) h

end Cert.Gcn

end
-- ==== Proof.lean ====
/-
  The kernel computes, for every batch row and time step, a graph layer on the step's slice of the input: similarities of
  the nodes' features scaled by 1/16 and clipped at 0, a row softmax of them, the features averaged with those weights,
  then a linear map, a bias and a clip at 0. The reference computes the same layer with the scale a division by the
  square root of 256 and with each softmax weight divided by its row sum before the averaging, where the kernel divides
  the averaged features once. Over the extended reals the two are the same function of finite inputs: the inner product
  with a factor 1/16 on one operand is the inner product divided by 16, and on a row of reals the softmax numerators are
  positive reals with a positive real sum, so the division commutes with the finite sum (GcnLaw, GcnFinite).

  The kernel program's result is the layer in the first arrangement of the argument arrays (KernelArray, over the
  generated frame: each grid point writes its batch row's block, its twelve stores the twelve time steps); the
  reference's run is its 375 host operations read block by block (RefRun), its result the stack of the twelve step
  functions, which is the layer in the second arrangement (RefArray). The frames of the two kernel programs are the
  generated ones; the reference's frame is its run with the result dropped; the idealization rewrote nothing.
-/
import proofs.«152771_g54185307406482_cont_9to1_m_905_3_alg».proof.Defs
import proofs.«152771_g54185307406482_cont_9to1_m_905_3_alg».proof.Proof.Gen.Kernel
import proofs.«152771_g54185307406482_cont_9to1_m_905_3_alg».proof.Proof.Gen.Kernel.Frame
import proofs.«152771_g54185307406482_cont_9to1_m_905_3_alg».proof.Proof.Gen.KernelIdeal
import proofs.«152771_g54185307406482_cont_9to1_m_905_3_alg».proof.Proof.Gen.KernelIdeal.Frame
import proofs.«152771_g54185307406482_cont_9to1_m_905_3_alg».proof.Proof.Gen.ReferenceIdeal
import proofs.«152771_g54185307406482_cont_9to1_m_905_3_alg».proof.Proof.Gen.Pre_finite_inputs
import proofs.«152771_g54185307406482_cont_9to1_m_905_3_alg».proof.Proof.KernelArray
import proofs.«152771_g54185307406482_cont_9to1_m_905_3_alg».proof.Proof.RefRun
import proofs.«152771_g54185307406482_cont_9to1_m_905_3_alg».proof.Proof.RefArray
import proofs.«152771_g54185307406482_cont_9to1_m_905_3_alg».proof.Proof.GcnFinite
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Ops.run (F := Ideal) m ρ)

/-- From memories agreeing on the arguments, finite by the precondition, the two idealized programs end with equal
    results: the kernel's is the layer in the first arrangement, the reference's the layer in the second, and on finite
    inputs the two arrangements are one function. -/
theorem algebraic : Cert.algebraic_KernelIdeal_ReferenceIdeal := by
  intro m ρ m' ρ' hpre hagree
  refine ⟨fun c => Cert.Gcn.arrK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Arr.run m ρ, ?_⟩
  refine (θ_run Cert.ReferenceIdeal.defs _ _).mono (fun _ h c => ⟨(h c).1.trans ?_, (h c).2⟩)
    (Cert.ReferenceIdeal.Ops.run (F := Ideal) m' ρ')
  rw [(hagree c).1, (hagree c).2.1, (hagree c).2.2, Cert.ReferenceIdeal.Step.refStack_eq_arrR]
  exact (Cert.Gcn.arrK_eq_arrR_of_pre _ _ _ (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
